-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x8192 : Shape := ⟨2, ![256, 8192]⟩
abbrev S50257x16 : Shape := ⟨2, ![50257, 16]⟩
abbrev S16x1 : Shape := ⟨2, ![16, 1]⟩
abbrev S1 : Shape := ⟨1, ![1]⟩
abbrev S16x16 : Shape := ⟨2, ![16, 16]⟩
abbrev S16 : Shape := ⟨1, ![16]⟩
abbrev S16x50257 : Shape := ⟨2, ![16, 50257]⟩
abbrev S50257 : Shape := ⟨1, ![50257]⟩
abbrev S_ : Shape := ⟨0, ![]⟩

class Facts : Prop where
  bcast_S_S50257x16 : S_.BroadcastsInDim S50257x16 (![] : Fin 0 → Fin S50257x16.rank)
  reducesTo_S50257x16_S_d0_1 : S50257x16.ReducesTo [0, 1] S_
  h_S_ : 0 < S_.numel
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_
  bcast_S_S16x50257 : S_.BroadcastsInDim S16x50257 (![] : Fin 0 → Fin S16x50257.rank)
  reducesTo_S16x50257_S_d0_1 : S16x50257.ReducesTo [0, 1] S_
  bcast_S_S50257 : S_.BroadcastsInDim S50257 (![] : Fin 0 → Fin S50257.rank)
  reducesTo_S50257_S_d0 : S50257.ReducesTo [0] S_

variable [Facts]

def fn_part1 {F : FTy → Type} [FloatOps F] (main_arg5 : FVec F S16 .f32) (main_arg6 : FVec F S16x50257 .f32) (main_arg7 : FVec F S50257 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x50257 .f32 := Host.absf main_arg6
  let main_cst_8 : FVec F S_ .f32 := constant S_ .f32 0x7F800000#32
  let main_v25 : FVec F S16x50257 .f32 := broadcastInDim S16x50257 ![] bcast_S_S16x50257 main_cst_8
  let main_v26 : IVec S16x50257 1 := cmpf .olt main_v24 main_v25
  let main_c_9 : IVec S_ 1 := constantI S_ 1 1#1
  let main_v27 : IVec S_ 1 := (fun x v => Host.reduce IntOp.andi x v reducesTo_S16x50257_S_d0_1 h_S_) main_v26 main_c_9
  let main_v28 : IVec S_ 1 := andi main_v23 main_v27
  let main_v29 : FVec F S50257 .f32 := Host.absf main_arg7
  let main_cst_10 : FVec F S_ .f32 := constant S_ .f32 0x7F800000#32
  let main_v30 : FVec F S50257 .f32 := broadcastInDim S50257 ![] bcast_S_S50257 main_cst_10
  let main_v31 : IVec S50257 1 := cmpf .olt main_v29 main_v30
  let main_c_11 : IVec S_ 1 := constantI S_ 1 1#1
  let main_v32 : IVec S_ 1 := (fun x v => Host.reduce IntOp.andi x v reducesTo_S50257_S_d0 h_S_) main_v31 main_c_11
  let main_v33 : IVec S_ 1 := andi main_v28 main_v32
  main_v33

def fn {F : FTy → Type} [FloatOps F] (main_arg0 : IVec S256x8192 32) (main_arg1 : FVec F S50257x16 .f32) (main_arg2 : FVec F S16x1 .f32) (main_arg3 : FVec F S1 .f32) (main_arg4 : FVec F S16x16 .f32) (main_arg5 : FVec F S16 .f32) (main_arg6 : FVec F S16x50257 .f32) (main_arg7 : FVec F S50257 .f32) : IVec S_ 1 :=
  let main_v0 : FVec F S50257x16 .f32 := Host.absf main_arg1
  let main_cst : FVec F S_ .f32 := constant S_ .f32 0x7F800000#32
  let main_v1 : FVec F S50257x16 .f32 := broadcastInDim S50257x16 ![] bcast_S_S50257x16 main_cst
  let main_v2 : IVec S50257x16 1 := cmpf .olt main_v0 main_v1
  let main_c : IVec S_ 1 := constantI S_ 1 1#1
  let main_v3 : IVec S_ 1 := (fun x v => Host.reduce IntOp.andi x v reducesTo_S50257x16_S_d0_1 h_S_) main_v2 main_c
  let main_v4 : FVec F S16x1 .f32 := Host.absf main_arg2
  let main_cst_0 : FVec F S_ .f32 := constant S_ .f32 0x7F800000#32
  let main_v5 : FVec F S16x1 .f32 := broadcastInDim S16x1 ![] bcast_S_S16x1 main_cst_0
  let main_v6 : IVec S16x1 1 := cmpf .olt main_v4 main_v5
  let main_c_1 : IVec S_ 1 := constantI S_ 1 1#1
  let main_v7 : IVec S_ 1 := (fun x v => Host.reduce IntOp.andi x v reducesTo_S16x1_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_arg6 main_arg7 main_v13 main_v16
-- ==== Kernel.lean ====
abbrev S256x8192 : Shape := ⟨2, ![256, 8192]⟩
abbrev S50257x16 : Shape := ⟨2, ![50257, 16]⟩
abbrev S16x1 : Shape := ⟨2, ![16, 1]⟩
abbrev S1 : Shape := ⟨1, ![1]⟩
abbrev S16x16 : Shape := ⟨2, ![16, 16]⟩
abbrev S16 : Shape := ⟨1, ![16]⟩
abbrev S16x50257 : Shape := ⟨2, ![16, 50257]⟩
abbrev S50257 : Shape := ⟨1, ![50257]⟩
abbrev S_ : Shape := ⟨0, ![]⟩
abbrev S256x8192x1 : Shape := ⟨3, ![256, 8192, 1]⟩
abbrev S256x8192x16 : Shape := ⟨3, ![256, 8192, 16]⟩
abbrev S1x1 : Shape := ⟨2, ![1, 1]⟩
abbrev S1x16 : Shape := ⟨2, ![1, 16]⟩
abbrev S256x16 : Shape := ⟨2, ![256, 16]⟩
abbrev S32x1024x16 : Shape := ⟨3, ![32, 1024, 16]⟩
abbrev S32x16 : Shape := ⟨2, ![32, 16]⟩
abbrev S32768x16 : Shape := ⟨2, ![32768, 16]⟩
abbrev S32768x1 : Shape := ⟨2, ![32768, 1]⟩
abbrev S16x51200 : Shape := ⟨2, ![16, 51200]⟩
abbrev S1x50257 : Shape := ⟨2, ![1, 50257]⟩
abbrev S1x51200 : Shape := ⟨2, ![1, 51200]⟩
abbrev S256x51200 : Shape := ⟨2, ![256, 51200]⟩
abbrev S16x1024 : Shape := ⟨2, ![16, 1024]⟩
abbrev S1x1024 : Shape := ⟨2, ![1, 1024]⟩
abbrev S256x1024 : Shape := ⟨2, ![256, 1024]⟩
abbrev S256x50257 : Shape := ⟨2, ![256, 50257]⟩

abbrev nBuf : Space → Nat
  | .hbm => 29
  | .vmem => 16
  | .smem => 0
  | _ => 0

abbrev bufTy : (tb : Table) → Fin (tcTables nBuf tb) → BufTy
  | .hbm, ⟨0, _⟩ => ⟨S256x8192, .i32⟩
  | .hbm, ⟨1, _⟩ => ⟨S50257x16, .f32⟩
  | .hbm, ⟨2, _⟩ => ⟨S16x1, .f32⟩
  | .hbm, ⟨3, _⟩ => ⟨S1, .f32⟩
  | .hbm, ⟨4, _⟩ => ⟨S16x16, .f32⟩
  | .hbm, ⟨5, _⟩ => ⟨S16, .f32⟩
  | .hbm, ⟨6, _⟩ => ⟨S16x50257, .f32⟩
  | .hbm, ⟨7, _⟩ => ⟨S50257, .f32⟩
  | .hbm, ⟨8, _⟩ => ⟨S_, .i32⟩
  | .hbm, ⟨9, _⟩ => ⟨S256x8192, .i32⟩
  | .hbm, ⟨10, _⟩ => ⟨S256x8192, .i1⟩
  | .hbm, ⟨11, _⟩ => ⟨S_, .i32⟩
  | .hbm, ⟨12, _⟩ => ⟨S256x8192, .i32⟩
  | .hbm, ⟨13, _⟩ => ⟨S256x8192, .i32⟩
  | .hbm, ⟨14, _⟩ => ⟨S256x8192, .i32⟩
  | .hbm, ⟨15, _⟩ => ⟨S256x8192x1, .i32⟩
  | .hbm, ⟨16, _⟩ => ⟨S256x8192x16, .f32⟩
  | .hbm, ⟨17, _⟩ => ⟨S1x1, .f32⟩
  | .hbm, ⟨18, _⟩ => ⟨S1x16, .f32⟩
  | .hbm, ⟨19, _⟩ => ⟨S256x16, .f32⟩
  | .hbm, ⟨20, _⟩ => ⟨S_, .i32⟩
  | .hbm, ⟨21, _⟩ => ⟨S_, .f32⟩
  | .hbm, ⟨22, _⟩ => ⟨S16x51200, .f32⟩
  | .hbm, ⟨23, _⟩ => ⟨S1x50257, .f32⟩
  | .hbm, ⟨24, _⟩ => ⟨S_, .i32⟩
  | .hbm, ⟨25, _⟩ => ⟨S_, .f32⟩
  | .hbm, ⟨26, _⟩ => ⟨S1x51200, .f32⟩
  | .hbm, ⟨27, _⟩ => ⟨S256x51200, .f32⟩
  | .hbm, ⟨28, _⟩ => ⟨S256x50257, .f32⟩
  | .local _ .vmem, ⟨0, _⟩ => ⟨S32x1024x16, .f32⟩
  | .local _ .vmem, ⟨1, _⟩ => ⟨S32x1024x16, .f32⟩
  | .local _ .vmem, ⟨2, _⟩ => ⟨S16x1, .f32⟩
  | .local _ .vmem, ⟨3, _⟩ => ⟨S1x1, .f32⟩
  | .local _ .vmem, ⟨4, _⟩ => ⟨S16x16, .f32⟩
  | .local _ .vmem, ⟨5, _⟩ => ⟨S1x16, .f32⟩
  | .local _ .vmem, ⟨6, _⟩ => ⟨S32x16, .f32⟩
  | .local _ .vmem, ⟨7, _⟩ => ⟨S32x16, .f32⟩
  | .local _ .vmem, ⟨8, _⟩ => ⟨S32x16, .f32⟩
  | .local _ .vmem, ⟨9, _⟩ => ⟨S256x16, .f32⟩
  | .local _ .vmem, ⟨10, _⟩ => ⟨S16x1024, .f32⟩
  | .local _ .vmem, ⟨11, _⟩ => ⟨S16x1024, .f32⟩
  | .local _ .vmem, ⟨12, _⟩ => ⟨S1x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | _, _ => ⟨S256x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_call0_v0 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_call1_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v32 : BitVec 1 := Scalar.cmpi .eq arg1 c7_i32
  let v33 : BitVec 32 := Scalar.extui v32
  let c0_i32_17 : BitVec 32 := 0#32
  let v34 : BitVec 1 := Scalar.cmpi .ne v33 c0_i32_17
  v34

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S32x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S256x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S16x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S256x8192 : S_.BroadcastsInDim S256x8192 (![] : Fin 0 → Fin S256x8192.rank)
  bcast_S256x8192_S256x8192x1_0_1 : S256x8192.BroadcastsInDim S256x8192x1 (![0, 1] : Fin 2 → Fin S256x8192x1.rank)
  shapeCasts_S1_S1x1 : S1.ShapeCasts S1x1
  shapeCasts_S16_S1x16 : S16.ShapeCasts S1x16
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S32x1024x16_S32x1024x16_0_0_0 : ∀ a, (![0, 0, 0] : Fin 3 → Nat) a + S32x1024x16.size a ≤ S32x1024x16.size a
  h_S32x1024x16 : 0 < S32x1024x16.numel
  shapeCasts_S32x1024x16_S32x1024x16 : S32x1024x16.ShapeCasts S32x1024x16
  bitsLt_bf16_f32 : FTy.bits .bf16 < FTy.bits .f32
  shapeCasts_S32x1024x16_S32768x16 : S32x1024x16.ShapeCasts S32768x16
  inb_S16x1_S16x1_0_0 : ∀ a, (![0, 0] : Fin 2 → Nat) a + S16x1.size a ≤ S16x1.size a
  h_S16x1 : 0 < S16x1.numel
  inb_S16x16_S16x16_0_0 : ∀ a, (![0, 0] : Fin 2 → Nat) a + S16x16.size a ≤ S16x16.size a
  h_S16x16 : 0 < S16x16.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S32768x1 : S1x1.Broadcasts S32768x1
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S32768x16 : S1x16.Broadcasts S32768x16
  broadcasts_S32768x1_S32768x16 : S32768x1.Broadcasts S32768x16
  shapeCasts_S32768x16_S32x1024x16 : S32768x16.ShapeCasts S32x1024x16
  reduces_S32x1024x16_S32x16 : S32x1024x16.Reduces [1] S32x16
  pads_S16x50257_S16x51200_000_09430 : S16x50257.Pads (![0, 0] : Fin 2 → Nat) ![0, 943] ![0, 0] S16x51200
  h_S_ : 0 < S_.numel
  shapeCasts_S50257_S1x50257 : S50257.ShapeCasts S1x50257
  pads_S1x50257_S1x51200_000_09430 : S1x50257.Pads (![0, 0] : Fin 2 → Nat) ![0, 943] ![0, 0] S1x51200
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  slices_S256x51200_S256x50257_0_0 : S256x51200.Slices ![0, 0] S256x50257
  gather_S50257x16_S256x8192x1_S256x8192x16_2_0_n_n_0_2_116_wf : GatherDims.WF S50257x16 S256x8192x1 S256x8192x16 [2] [0] [] [0] [] 2 ![1, 16]
  dot_S32768x16_S16x1_S32768x1_1_0_0_1_n_n_wf : DotDims.WF S32768x16 S16x1 S32768x1 [1] [0] [0] [1] [] []
  dot_S32768x16_S16x16_S32768x16_1_0_0_1_n_n_wf : DotDims.WF S32768x16 S16x16 S32768x16 [1] [0] [0] [1] [] []
  dot_S256x16_S16x1024_S256x1024_1_0_0_1_n_n_wf : DotDims.WF S256x16 S16x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1024x16.size a ≤ S256x8192x16.size a
  hwx0_0 : ∀ i : grid0.Coords, EltTy.bits .f32 = 32 ∨ (Rect.block (s := S256x8192x16) S32x1024x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x1.size a ≤ S16x1.size a
  hwx0_1 : ∀ i : grid0.Coords, EltTy.bits .f32 = 32 ∨ (Rect.block (s := S16x1) S16x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x16.size a ≤ S16x16.size a
  hwx0_3 : ∀ i : grid0.Coords, EltTy.bits .f32 = 32 ∨ (Rect.block (s := S16x16) S16x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x16.size a ≤ S256x16.size a
  hwx0_5 : ∀ i : grid0.Coords, EltTy.bits .f32 = 32 ∨ (Rect.block (s := S256x16) S32x16.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x16.size a ≤ S256x16.size a
  hwx1_0 : ∀ i : grid1.Coords, EltTy.bits .f32 = 32 ∨ (Rect.block (s := S256x16) S256x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x1024.size a ≤ S16x51200.size a
  hwx1_1 : ∀ i : grid1.Coords, EltTy.bits .f32 = 32 ∨ (Rect.block (s := S16x51200) S16x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x51200.size a
  hwx1_2 : ∀ i : grid1.Coords, EltTy.bits .f32 = 32 ∨ (Rect.block (s := S1x51200) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S256x51200.size a
  hwx1_3 : ∀ i : grid1.Coords, EltTy.bits .f32 = 32 ∨ (Rect.block (s := S256x51200) S256x1024.size (cc1_transform_3 i) (hinb1_3 i)).WholeWords (EltTy.packing .f32)

variable [Facts₀]

def gather_S50257x16_S256x8192x1_S256x8192x16_2_0_n_n_0_2_116 : GatherDims S50257x16 S256x8192x1 S256x8192x16 where
  offsetDims := [2]
  collapsedSliceDims := [0]
  operandBatchingDims := []
  startIndicesBatchingDims := []
  startIndexMap := [0]
  indexVectorDim := 2
  sliceSizes := ![1, 16]
  wf := gather_S50257x16_S256x8192x1_S256x8192x16_2_0_n_n_0_2_116_wf
def dot_S32768x16_S16x1_S32768x1_1_0_0_1_n_n : DotDims S32768x16 S16x1 S32768x1 where
  lhsContracting := [1]
  rhsContracting := [0]
  lhsNonContracting := [0]
  rhsNonContracting := [1]
  lhsBatch := []
  rhsBatch := []
  wf := dot_S32768x16_S16x1_S32768x1_1_0_0_1_n_n_wf
def dot_S32768x16_S16x16_S32768x16_1_0_0_1_n_n : DotDims S32768x16 S16x16 S32768x16 where
  lhsContracting := [1]
  rhsContracting := [0]
  lhsNonContracting := [0]
  rhsNonContracting := [1]
  lhsBatch := []
  rhsBatch := []
  wf := dot_S32768x16_S16x16_S32768x16_1_0_0_1_n_n_wf
def dot_S256x16_S16x1024_S256x1024_1_0_0_1_n_n : DotDims S256x16 S16x1024 S256x1024 where
  lhsContracting := [1]
  rhsContracting := [0]
  lhsNonContracting := [0]
  rhsNonContracting := [1]
  lhsBatch := []
  rhsBatch := []
  wf := dot_S256x16_S16x1024_S256x1024_1_0_0_1_n_n_wf

abbrev win0_0 : Pipeline.Window sig grid0 :=
  Pipeline.Window.ofSpec (Memref.whole main_v6) S32x1024x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S16x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S32x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v9) S256x16.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v10) S16x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S256x8192 : Shape := ⟨2, ![256, 8192]⟩
abbrev S50257x16 : Shape := ⟨2, ![50257, 16]⟩
abbrev S16x1 : Shape := ⟨2, ![16, 1]⟩
abbrev S1 : Shape := ⟨1, ![1]⟩
abbrev S16x16 : Shape := ⟨2, ![16, 16]⟩
abbrev S16 : Shape := ⟨1, ![16]⟩
abbrev S16x50257 : Shape := ⟨2, ![16, 50257]⟩
abbrev S50257 : Shape := ⟨1, ![50257]⟩
abbrev S_ : Shape := ⟨0, ![]⟩
abbrev S256x8192x1 : Shape := ⟨3, ![256, 8192, 1]⟩
abbrev S256x8192x16 : Shape := ⟨3, ![256, 8192, 16]⟩
abbrev S1x1x1 : Shape := ⟨3, ![1, 1, 1]⟩
abbrev S1x1x16 : Shape := ⟨3, ![1, 1, 16]⟩
abbrev S256x16 : Shape := ⟨2, ![256, 16]⟩
abbrev S256x50257 : Shape := ⟨2, ![256, 50257]⟩
abbrev S1x50257 : Shape := ⟨2, ![1, 50257]⟩

abbrev nBuf : Space → Nat
  | .hbm => 42
  | .vmem => 0
  | .smem => 0
  | _ => 0

abbrev bufTy : (tb : Table) → Fin (tcTables nBuf tb) → BufTy
  | .hbm, ⟨0, _⟩ => ⟨S256x8192, .i32⟩
  | .hbm, ⟨1, _⟩ => ⟨S50257x16, .f32⟩
  | .hbm, ⟨2, _⟩ => ⟨S16x1, .f32⟩
  | .hbm, ⟨3, _⟩ => ⟨S1, .f32⟩
  | .hbm, ⟨4, _⟩ => ⟨S16x16, .f32⟩
  | .hbm, ⟨5, _⟩ => ⟨S16, .f32⟩
  | .hbm, ⟨6, _⟩ => ⟨S16x50257, .f32⟩
  | .hbm, ⟨7, _⟩ => ⟨S50257, .f32⟩
  | .hbm, ⟨8, _⟩ => ⟨S_, .i32⟩
  | .hbm, ⟨9, _⟩ => ⟨S256x8192, .i32⟩
  | .hbm, ⟨10, _⟩ => ⟨S256x8192, .i1⟩
  | .hbm, ⟨11, _⟩ => ⟨S_, .i32⟩
  | .hbm, ⟨12, _⟩ => ⟨S256x8192, .i32⟩
  | .hbm, ⟨13, _⟩ => ⟨S256x8192, .i32⟩
  | .hbm, ⟨14, _⟩ => ⟨S256x8192, .i32⟩
  | .hbm, ⟨15, _⟩ => ⟨S256x8192x1, .i32⟩
  | .hbm, ⟨16, _⟩ => ⟨S256x8192x16, .f32⟩
  | .hbm, ⟨17, _⟩ => ⟨S256x8192x1, .f32⟩
  | .hbm, ⟨18, _⟩ => ⟨S1x1x1, .f32⟩
  | .hbm, ⟨19, _⟩ => ⟨S256x8192x1, .f32⟩
  | .hbm, ⟨20, _⟩ => ⟨S256x8192x1, .f32⟩
  | .hbm, ⟨21, _⟩ => ⟨S256x8192x1, .f32⟩
  | .hbm, ⟨22, _⟩ => ⟨S256x8192x1, .f32⟩
  | .hbm, ⟨23, _⟩ => ⟨S_, .f32⟩
  | .hbm, ⟨24, _⟩ => ⟨S256x8192x1, .f32⟩
  | .hbm, ⟨25, _⟩ => ⟨S256x8192x1, .f32⟩
  | .hbm, ⟨26, _⟩ => ⟨S_, .f32⟩
  | .hbm, ⟨27, _⟩ => ⟨S256x8192x1, .f32⟩
  | .hbm, ⟨28, _⟩ => ⟨S256x8192x1, .f32⟩
  | .hbm, ⟨29, _⟩ => ⟨S256x8192x16, .f32⟩
  | .hbm, ⟨30, _⟩ => ⟨S1x1x16, .f32⟩
  | .hbm, ⟨31, _⟩ => ⟨S256x8192x16, .f32⟩
  | .hbm, ⟨32, _⟩ => ⟨S256x8192x16, .f32⟩
  | .hbm, ⟨33, _⟩ => ⟨S256x8192x16, .f32⟩
  | .hbm, ⟨34, _⟩ => ⟨S256x8192x16, .f32⟩
  | .hbm, ⟨35, _⟩ => ⟨S256x8192x16, .f32⟩
  | .hbm, ⟨36, _⟩ => ⟨S_, .f32⟩
  | .hbm, ⟨37, _⟩ => ⟨S256x16, .f32⟩
  | .hbm, ⟨38, _⟩ => ⟨S256x50257, .f32⟩
  | .hbm, ⟨39, _⟩ => ⟨S1x50257, .f32⟩
  | .hbm, ⟨40, _⟩ => ⟨S256x50257, .f32⟩
  | .hbm, ⟨41, _⟩ => ⟨S256x50257, .f32⟩
  | _, _ => ⟨S256x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  bcast_S_S256x8192 : S_.BroadcastsInDim S256x8192 (![] : Fin 0 → Fin S256x8192.rank)
  bcast_S256x8192_S256x8192x1_0_1 : S256x8192.BroadcastsInDim S256x8192x1 (![0, 1] : Fin 2 → Fin S256x8192x1.rank)
  bcast_S1_S1x1x1_2 : S1.BroadcastsInDim S1x1x1 (![2] : Fin 1 → Fin S1x1x1.rank)
  bcast_S1x1x1_S256x8192x1_0_1_2 : S1x1x1.BroadcastsInDim S256x8192x1 (![0, 1, 2] : Fin 3 → Fin S256x8192x1.rank)
  bcast_S_S256x8192x1 : S_.BroadcastsInDim S256x8192x1 (![] : Fin 0 → Fin S256x8192x1.rank)
  bcast_S16_S1x1x16_2 : S16.BroadcastsInDim S1x1x16 (![2] : Fin 1 → Fin S1x1x16.rank)
  bcast_S1x1x16_S256x8192x16_0_1_2 : S1x1x16.BroadcastsInDim S256x8192x16 (![0, 1, 2] : Fin 3 → Fin S256x8192x16.rank)
  bcast_S256x8192x1_S256x8192x16_0_1_2 : S256x8192x1.BroadcastsInDim S256x8192x16 (![0, 1, 2] : Fin 3 → Fin S256x8192x16.rank)
  reducesTo_S256x8192x16_S256x16_d1 : S256x8192x16.ReducesTo [1] S256x16
  h_S_ : 0 < S_.numel
  bcast_S50257_S1x50257_1 : S50257.BroadcastsInDim S1x50257 (![1] : Fin 1 → Fin S1x50257.rank)
  bcast_S1x50257_S256x50257_0_1 : S1x50257.BroadcastsInDim S256x50257 (![0, 1] : Fin 2 → Fin S256x50257.rank)
  gather_S50257x16_S256x8192x1_S256x8192x16_2_0_n_n_0_2_116_wf : GatherDims.WF S50257x16 S256x8192x1 S256x8192x16 [2] [0] [] [0] [] 2 ![1, 16]
  dot_S256x8192x16_S16x1_S256x8192x1_2_0_01_1_n_n_wf : DotDims.WF S256x8192x16 S16x1 S256x8192x1 [2] [0] [0, 1] [1] [] []
  dot_S256x8192x16_S16x16_S256x8192x16_2_0_01_1_n_n_wf : DotDims.WF S256x8192x16 S16x16 S256x8192x16 [2] [0] [0, 1] [1] [] []
  dot_S256x16_S16x50257_S256x50257_1_0_0_1_n_n_wf : DotDims.WF S256x16 S16x50257 S256x50257 [1] [0] [0] [1] [] []

variable [Facts₀]

def gather_S50257x16_S256x8192x1_S256x8192x16_2_0_n_n_0_2_116 : GatherDims S50257x16 S256x8192x1 S256x8192x16 where
  offsetDims := [2]
  collapsedSliceDims := [0]
  operandBatchingDims := []
  startIndicesBatchingDims := []
  startIndexMap := [0]
  indexVectorDim := 2
  sliceSizes := ![1, 16]
  wf := gather_S50257x16_S256x8192x1_S256x8192x16_2_0_n_n_0_2_116_wf
def dot_S256x8192x16_S16x1_S256x8192x1_2_0_01_1_n_n : DotDims S256x8192x16 S16x1 S256x8192x1 where
  lhsContracting := [2]
  rhsContracting := [0]
  lhsNonContracting := [0, 1]
  rhsNonContracting := [1]
  lhsBatch := []
  rhsBatch := []
  wf := dot_S256x8192x16_S16x1_S256x8192x1_2_0_01_1_n_n_wf
def dot_S256x8192x16_S16x16_S256x8192x16_2_0_01_1_n_n : DotDims S256x8192x16 S16x16 S256x8192x16 where
  lhsContracting := [2]
  rhsContracting := [0]
  lhsNonContracting := [0, 1]
  rhsNonContracting := [1]
  lhsBatch := []
  rhsBatch := []
  wf := dot_S256x8192x16_S16x16_S256x8192x16_2_0_01_1_n_n_wf
def dot_S256x16_S16x50257_S256x50257_1_0_0_1_n_n : DotDims S256x16 S16x50257 S256x50257 where
  lhsContracting := [1]
  rhsContracting := [0]
  lhsNonContracting := [0]
  rhsNonContracting := [1]
  lhsBatch := []
  rhsBatch := []
  wf := dot_S256x16_S16x50257_S256x50257_1_0_0_1_n_n_wf

class Facts : Prop extends Facts₀ where

variable [Facts]
-- ==== Proof.K.Base0.lean ====
/-
  Region 0 (the gated accumulation over the time axis), the part its three control cases share.
  The grid is 8 × 8: coordinate 0 picks a block of 32 batch rows, coordinate 1 a block of 1024 time
  steps. Along coordinate 1 the body resets its 32 × 16 accumulator at step 0, adds the block's
  gated sum at every step, and copies the accumulator to the output block at step 7. So a grid
  point t (row-major, t = 8·b + j) is in exactly one of three cases, decided by t mod 8:
  reset-and-add (0), add (1..6), add-and-emit (7). Here: each input window's block at a point, the
  two branch conditions in closed form over the 64 points, where the output window is idle, and the
  invariant of the launch with the accumulator buffer split out of the other scoped buffers.
-/
import proofs.«104422_j25443386262310_1_alg».proof.Proof.Gen.Kernel.Launch
import proofs.«104422_j25443386262310_1_alg».proof.Proof.Gen.Kernel.Skeleton
import proofs.«104422_j25443386262310_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/- An input window's current staging buffer holds its block at every point, whether the point fetched
   it or not (an unfetched window's block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end

/-! ## The two branch conditions, over the grid -/

/-- "time block 0": the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "time block 7": the accumulator is copied out. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Outside time block 7 nothing is stored into the output block and it is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## The memrefs the body is called with -/

abbrev VO0_5 : View sig .tc .vmem S32x16 .f32 := (Memref.whole cc0_stg5_0 : Memref sig .tc .vmem S32x16 .f32).view
abbrev ms0_0 (t : Fin cfg0.N) : Memref sig .tc .vmem S32x1024x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x16 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x16 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x16 .f32 := win0_5.stage (cfg0.slots t 5)
abbrev hs0_5 (t : Fin cfg0.N) : (ms0_5 t).IsWhole := hstage0_5 ((cfg0.slots t 5).cast nbuf0_5)
/-- The accumulator: a whole scoped buffer of the kernel's own, carried from point to point. -/
abbrev scM0_0 : Memref sig .tc .vmem S32x16 .f32 := Memref.whole cc0_scratch0
abbrev VS0_0 : View sig .tc .vmem S32x16 .f32 := scM0_0.view

/-- The scoped buffers of the core that region 0 neither stages nor uses: the second call's staging buffers. -/
abbrev rest7 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The launch's invariant with the accumulator as a memref owned at some contents. -/
theorem PhiA0_eq (c : Dev nD) :
    (Pipeline.ΦA spec0 c : sProp 𝕄)
      = iprop(iprop((∃ d, owns (c : Thread nD τ) scM0_0 fullShare d) ∗ rest7 (F := F) c) ∗ (∃ r, prngReg c r)) := by
  unfold Pipeline.ΦA; rw [scopedRest0_eq]; simp only [scM0_0, owns_whole]; try rfl

end Cert.Kernel.Fr

end
-- ==== Proof.K.Run0A.lean ====
/-
  Region 0's body at a point of time block 0: the accumulator is overwritten with zeros, then with
  zeros plus this block's gated sum; the output block is not touched. The run finds the list of pieces
  the accumulator buffer ends with.
-/
import proofs.«104422_j25443386262310_1_alg».proof.Proof.K.Base0

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : cond0_0 i) (hc1 : ¬cond0_1 i)
    (x0 : Vec F S32x1024x16 .f32) (x1 : Vec F S16x1 .f32) (x2 : Vec F S1x1 .f32) (x3 : Vec F S16x16 .f32) (x4 : Vec F S1x16 .f32) :
    Σ' (L5 : List (View.Piece (Elt F) S32x16 .f32)), { LS0 : List (View.Piece (Elt F) S32x16 .f32) //
      ∀ (xi5 : Vec F S32x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__gated_accum_kernel i arg2 harg2 arg3 harg3 arg4 harg4 arg5 harg5 arg6 harg6 arg7 harg7 arg8 harg8) K } := by
  refine ⟨[], ?_, fun xi5 E K => ?run⟩
  case run =>
    simp only [cc0__gated_accum_kernel_eq_skeleton]; unfold cc0__gated_accum_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Fr

end
-- ==== Proof.K.Run0B.lean ====
/-
  Region 0's body at a point of time blocks 1 to 6: the accumulator, at what the point before left,
  is overwritten with itself plus this block's gated sum; the output block is not touched.
-/
import proofs.«104422_j25443386262310_1_alg».proof.Proof.K.Run0A

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : ¬cond0_0 i) (hc1 : ¬cond0_1 i)
    (x0 : Vec F S32x1024x16 .f32) (x1 : Vec F S16x1 .f32) (x2 : Vec F S1x1 .f32) (x3 : Vec F S16x16 .f32) (x4 : Vec F S1x16 .f32) (xs0 : Vec F S32x16 .f32) :
    Σ' (L5 : List (View.Piece (Elt F) S32x16 .f32)), { LS0 : List (View.Piece (Elt F) S32x16 .f32) //
      ∀ (xi5 : Vec F S32x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__gated_accum_kernel i arg2 harg2 arg3 harg3 arg4 harg4 arg5 harg5 arg6 harg6 arg7 harg7 arg8 harg8) K } := by
  refine ⟨[], ?_, fun xi5 E K => ?run⟩
  case run =>
    simp only [cc0__gated_accum_kernel_eq_skeleton]; unfold cc0__gated_accum_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Fr

end
-- ==== Proof.K.Run0C.lean ====
/-
  Region 0's body at a point of time block 7: the accumulator is overwritten with itself plus this
  block's gated sum, read back, and stored whole into the output block.
-/
import proofs.«104422_j25443386262310_1_alg».proof.Proof.K.Run0B

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : ¬cond0_0 i) (hc1 : cond0_1 i)
    (x0 : Vec F S32x1024x16 .f32) (x1 : Vec F S16x1 .f32) (x2 : Vec F S1x1 .f32) (x3 : Vec F S16x16 .f32) (x4 : Vec F S1x16 .f32) (xs0 : Vec F S32x16 .f32) :
    Σ' (L5 : List (View.Piece (Elt F) S32x16 .f32)), { LS0 : List (View.Piece (Elt F) S32x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__gated_accum_kernel i arg2 harg2 arg3 harg3 arg4 harg4 arg5 harg5 arg6 harg6 arg7 harg7 arg8 harg8) K } := by
  refine ⟨?_, ?_, fun E K => ?run⟩
  case run =>
    simp only [cc0__gated_accum_kernel_eq_skeleton]; unfold cc0__gated_accum_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Fr

end
-- ==== Proof.K.Reg0.lean ====
/-
  Region 0 assembled. After point n the accumulator holds: at time block 0 what the reset-and-add case
  leaves from the point's five input blocks; otherwise what the add case leaves from the blocks and from
  what point n − 1 left (the accumulator is a buffer of the kernel's own, nothing else writes it between
  two points). The output block is stored only at time block 7, with the accumulator's new contents, and
  is idle elsewhere. The launch's invariant before point n is: before the first point anything; afterwards
  the accumulator at what point n − 1 left, the other scoped buffers and the generator register at
  anything. From these the proof data and the body obligation at every point, case by case.
  Everything is stated at a parameter V: the core's buffer contents when the region is entered.
-/
import proofs.«104422_j25443386262310_1_alg».proof.Proof.K.Run0C

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves, read back from the pieces its run found -/

theorem scover0_A_0 (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : cond0_0 i) (hc1 : ¬cond0_1 i)
    (x0 : Vec F S32x1024x16 .f32) (x1 : Vec F S16x1 .f32) (x2 : Vec F S1x1 .f32) (x3 : Vec F S16x16 .f32) (x4 : Vec F S1x16 .f32) (y : S32x16.Idx) :
    ∃ pc ∈ (kernelRun0_A c i arg2 harg2 arg3 harg3 arg4 harg4 arg5 harg5 arg6 harg6 arg7 harg7 arg8 harg8 hc0 hc1 x0 x1 x2 x3 x4).2.1, y ∈ pc.1.set :=
  View.cover_of_tiledL (kernelRun0_A c i arg2 harg2 arg3 harg3 arg4 harg4 arg5 harg5 arg6 harg6 arg7 harg7 arg8 harg8 hc0 hc1 x0 x1 x2 x3 x4).2.1 S32x16.size (by sl_kernel_rfl) y

def sout0_A_0 (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : cond0_0 i) (hc1 : ¬cond0_1 i)
    (x0 : Vec F S32x1024x16 .f32) (x1 : Vec F S16x1 .f32) (x2 : Vec F S1x1 .f32) (x3 : Vec F S16x16 .f32) (x4 : Vec F S1x16 .f32) : Vec F S32x16 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3 x4).2.1)

theorem scover0_B_0 (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : ¬cond0_0 i) (hc1 : ¬cond0_1 i)
    (x0 : Vec F S32x1024x16 .f32) (x1 : Vec F S16x1 .f32) (x2 : Vec F S1x1 .f32) (x3 : Vec F S16x16 .f32) (x4 : Vec F S1x16 .f32) (xs0 : Vec F S32x16 .f32) (y : S32x16.Idx) :
    ∃ pc ∈ (kernelRun0_B c i arg2 harg2 arg3 harg3 arg4 harg4 arg5 harg5 arg6 harg6 arg7 harg7 arg8 harg8 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 hc0 hc1 x0 x1 x2 x3 x4 xs0).2.1 S32x16.size (by sl_kernel_rfl) y

def sout0_B_0 (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : ¬cond0_0 i) (hc1 : ¬cond0_1 i)
    (x0 : Vec F S32x1024x16 .f32) (x1 : Vec F S16x1 .f32) (x2 : Vec F S1x1 .f32) (x3 : Vec F S16x16 .f32) (x4 : Vec F S1x16 .f32) (xs0 : Vec F S32x16 .f32) : Vec F S32x16 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 x4 xs0).2.1)

theorem cover0_C_5 (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : ¬cond0_0 i) (hc1 : cond0_1 i)
    (x0 : Vec F S32x1024x16 .f32) (x1 : Vec F S16x1 .f32) (x2 : Vec F S1x1 .f32) (x3 : Vec F S16x16 .f32) (x4 : Vec F S1x16 .f32) (xs0 : Vec F S32x16 .f32) (y : S32x16.Idx) :
    ∃ pc ∈ (kernelRun0_C c i arg2 harg2 arg3 harg3 arg4 harg4 arg5 harg5 arg6 harg6 arg7 harg7 arg8 harg8 hc0 hc1 x0 x1 x2 x3 x4 xs0).1, y ∈ pc.1.set :=
  View.cover_of_tiledL (kernelRun0_C c i arg2 harg2 arg3 harg3 arg4 harg4 arg5 harg5 arg6 harg6 arg7 harg7 arg8 harg8 hc0 hc1 x0 x1 x2 x3 x4 xs0).1 S32x16.size (by sl_kernel_rfl) y

def out0_C_5 (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : ¬cond0_0 i) (hc1 : cond0_1 i)
    (x0 : Vec F S32x1024x16 .f32) (x1 : Vec F S16x1 .f32) (x2 : Vec F S1x1 .f32) (x3 : Vec F S16x16 .f32) (x4 : Vec F S1x16 .f32) (xs0 : Vec F S32x16 .f32) : Vec F S32x16 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 x4 xs0).1)

theorem scover0_C_0 (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : ¬cond0_0 i) (hc1 : cond0_1 i)
    (x0 : Vec F S32x1024x16 .f32) (x1 : Vec F S16x1 .f32) (x2 : Vec F S1x1 .f32) (x3 : Vec F S16x16 .f32) (x4 : Vec F S1x16 .f32) (xs0 : Vec F S32x16 .f32) (y : S32x16.Idx) :
    ∃ pc ∈ (kernelRun0_C c i arg2 harg2 arg3 harg3 arg4 harg4 arg5 harg5 arg6 harg6 arg7 harg7 arg8 harg8 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 hc0 hc1 x0 x1 x2 x3 x4 xs0).2.1 S32x16.size (by sl_kernel_rfl) y

def sout0_C_0 (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : ¬cond0_0 i) (hc1 : cond0_1 i)
    (x0 : Vec F S32x1024x16 .f32) (x1 : Vec F S16x1 .f32) (x2 : Vec F S1x1 .f32) (x3 : Vec F S16x16 .f32) (x4 : Vec F S1x16 .f32) (xs0 : Vec F S32x16 .f32) : Vec F S32x16 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 x4 xs0).2.1)

section
variable (V : (c : Dev nD) → (b : Ref sig .tc) → Buf (Elt F) ((c : Thread nD τ).loc b))

/-! ## The accumulator after each point -/

/-- What the accumulator holds after the body at position `n`. -/
def scAt0 (c : Dev nD) : (n : ℕ) → n < cfg0.N → Vec F S32x16 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩)
  | n + 1, hn =>
    if h0 : (n + 1) % 8 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩)
    else
      if h1 : (n + 1) % 8 = 7 then
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (scAt0 c n (Nat.lt_of_succ_lt hn))
      else
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (scAt0 c n (Nat.lt_of_succ_lt hn))

theorem scAt0_A (c : Dev nD) (t : Fin cfg0.N) (h0 : t.val % 8 = 0) (hc1 : ¬cond0_1 (grid0.coords t)) :
    scAt0 V c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) hc1 (iblk0 V c 0 t) (iblk0 V c 1 t) (iblk0 V c 2 t) (iblk0 V c 3 t) (iblk0 V c 4 t) := by
  obtain ⟨n, hn⟩ := t
  cases n with
  | zero => exact rfl
  | succ n => exact (dif_pos h0).trans rfl

theorem scAt0_B (c : Dev nD) (t : Fin cfg0.N) (h0 : ¬t.val % 8 = 0) (h1 : ¬t.val % 8 = 7) :
    scAt0 V c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (scAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem scAt0_C (c : Dev nD) (t : Fin cfg0.N) (h0 : ¬t.val % 8 = 0) (h1 : t.val % 8 = 7) :
    scAt0 V c t.val t.isLt = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (scAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output block's staging buffer holds after the body at point `t`: at time block 7 the case's
    store; elsewhere the window is idle and the value is never consulted. -/
def outAt0 (c : Dev nD) (t : Fin cfg0.N) : Vec F S32x16 .f32 :=
  if h1 : t.val % 8 = 7 then
    out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => (fun h => by (try dsimp only at h); omega) ((hcond0_0 t).mp h)) ((hcond0_1 t).mpr h1) (iblk0 V c 0 t) (iblk0 V c 1 t) (iblk0 V c 2 t) (iblk0 V c 3 t) (iblk0 V c 4 t) (scAt0 V c (t.val - 1) (Nat.lt_of_le_of_lt (Nat.sub_le _ _) t.isLt))
  else VO0_5.read (Elt F) VO0_5.junk

theorem outAt0_C (c : Dev nD) (t : Fin cfg0.N) (hc0 : ¬cond0_0 (grid0.coords t)) (h1 : t.val % 8 = 7) :
    outAt0 V c t = out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) hc0 ((hcond0_1 t).mpr h1) (iblk0 V c 0 t) (iblk0 V c 1 t) (iblk0 V c 2 t) (iblk0 V c 3 t) (iblk0 V c 4 t) (scAt0 V c (t.val - 1) (Nat.lt_of_le_of_lt (Nat.sub_le _ _) t.isLt)) := by
  unfold outAt0; exact dif_pos h1

/-! ## The invariant -/

def PhiS (c : Dev nD) : (n : ℕ) → n ≤ cfg0.N → sProp 𝕄
  | 0, _ => Pipeline.ΦA spec0 c
  | n + 1, hn => iprop(iprop(owns (c : Thread nD τ) scM0_0 fullShare (scAt0 V c n hn) ∗ rest7 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (scAt0 V c n hn) ∗ rest7 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare (scAt0 V c (n - 1) (by omega)) ∗ rest7 (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => outAt0 V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) : (dat0 V c).leavesExact 3 t = owns (c : Thread nD τ) (ms0_3 t) fullShare (iblk0 V c 3 t) := by
  unfold Dat.leavesExact; rw [liveAt0_3 t, after0_3]
theorem leaves0_4 (c : Dev nD) (t : Fin cfg0.N) : (dat0 V c).leavesExact 4 t = owns (c : Thread nD τ) (ms0_4 t) fullShare (iblk0 V c 4 t) := by
  unfold Dat.leavesExact; rw [liveAt0_4 t, after0_4]

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2, leaves0_3, leaves0_4]
  have hN : t.val < 64 := lt_of_lt_of_eq t.isLt (show cfg0.N = 64 from N_0)
  by_cases h0 : t.val % 8 = 0
  · have hc1 : ¬cond0_1 (grid0.coords t) := fun h => by have := (hcond0_1 t).mp h; omega
    rw [Dat.leavesExact_idle (dat0 V c) 5 t (idleAt0_5 t hc1) (noFlush0_5 t hc1)]
    rw [scAt0_A V c t h0 hc1]
    unfold sout0_A_0; (try dsimp only)
    by_cases hz : t.val = 0
    · rw [PhiS_castSucc V c t, PhiS_zero V c _ _ hz, PhiA0_eq]
      iintro ⟨⟨⟨HS0, Hr7⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) hc1 (iblk0 V c 0 t) (iblk0 V c 1 t) (iblk0 V c 2 t) (iblk0 V c 3 t) (iblk0 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hr7 Hg]
      · isplitl [HS0 Hr7]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hr7
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨HS0, Hr7⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) hc1 (iblk0 V c 0 t) (iblk0 V c 1 t) (iblk0 V c 2 t) (iblk0 V c 3 t) (iblk0 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hr7 Hg]
      · isplitl [HS0 Hr7]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hr7
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    have hc0 : ¬cond0_0 (grid0.coords t) := fun h => h0 ((hcond0_0 t).mp h)
    by_cases h1 : t.val % 8 = 7
    · rw [show (dat0 V c).leavesExact 5 t = owns (c : Thread nD τ) (ms0_5 t) fullShare ((dat0 V c).after 5 t) from by
        unfold Dat.leavesExact; rw [liveAt0_5 t ((hcond0_1 t).mpr h1)], after0_5]
      rw [outAt0_C V c t hc0 h1, scAt0_C V c t h0 h1]
      unfold out0_C_5 sout0_C_0; (try dsimp only)
      rw [PhiS_castSucc V c t, PhiS_pos V c _ _ hz]
      iintro ⟨⟨⟨HS0, Hr7⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) hc0 ((hcond0_1 t).mpr h1) (iblk0 V c 0 t) (iblk0 V c 1 t) (iblk0 V c 2 t) (iblk0 V c 3 t) (iblk0 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hr7 Hg]
      · isplitl [HS0 Hr7]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _)
          iexact Hr7
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C_5 c _ _ _ _ _ _ _ _ _ _ _ _ _ _ _ _ _ _ _ _ _ _ _)
    · have hc1 : ¬cond0_1 (grid0.coords t) := fun h => h1 ((hcond0_1 t).mp h)
      rw [Dat.leavesExact_idle (dat0 V c) 5 t (idleAt0_5 t hc1) (noFlush0_5 t hc1)]
      rw [scAt0_B V c t h0 h1]
      unfold sout0_B_0; (try dsimp only)
      rw [PhiS_castSucc V c t, PhiS_pos V c _ _ hz]
      iintro ⟨⟨⟨HS0, Hr7⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) hc0 hc1 (iblk0 V c 0 t) (iblk0 V c 1 t) (iblk0 V c 2 t) (iblk0 V c 3 t) (iblk0 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hr7 Hg]
      · isplitl [HS0 Hr7]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _)
          iexact Hr7
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the launch's back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hr7⟩, Hg⟩
  isplitl [HS0 Hr7]
  · isplitl [HS0]
    · iexists _; iexact HS0
    iexact Hr7
  iexact Hg

end

end Cert.Kernel.Fr

end
-- ==== Proof.K.Reg1.lean ====
/-
  Region 1 (the output projection): a grid of 50 points, point n computing columns 1024·n … 1024·n + 1023
  of the padded result from the whole 256 × 16 accumulated memory, a 16 × 1024 block of the padded weight
  and a 1 × 1024 block of the padded bias. The body stores its output block once, whole, so what the block
  holds after the body is one function of the three input blocks; the launch's invariant is untouched.
  Everything is stated at a parameter V: the core's buffer contents when the region is entered.
-/
import proofs.«104422_j25443386262310_1_alg».proof.Proof.Gen.Kernel.Launch
import proofs.«104422_j25443386262310_1_alg».proof.Proof.Gen.Kernel.Skeleton
import proofs.«104422_j25443386262310_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S256x16 := Rect.unit (s := S256x16) ![0, 0] S256x16.size inb_S256x16_S256x16_0_0
abbrev r1_1 : Rect S16x1024 := Rect.unit (s := S16x1024) ![0, 0] S16x1024.size inb_S16x1024_S16x1024_0_0
abbrev r1_2 : Rect S1x1024 := Rect.unit (s := S1x1024) ![0, 0] S1x1024.size inb_S1x1024_S1x1024_0_0
abbrev r1_3 : Rect S256x1024 := Rect.unit (s := S256x1024) ![0, 0] S256x1024.size inb_S256x1024_S256x1024_0_0

/-- The output block after the body, from the three input blocks: its one store. -/
def out1_3 (x0 : Vec F S256x16 .f32) (x1 : Vec F S16x1024 .f32) (x2 : Vec F S1x1024 .f32) : Vec F S256x1024 .f32 :=
  View.canon [⟨r1_3, k1_pay1 (View.ld x0 r1_0) (View.ld x1 r1_1) (View.ld x2 r1_2)⟩]

theorem cover1_3 (p0 : Vec F S256x1024 .f32) (y : S256x1024.Idx) :
    ∃ pc ∈ ([⟨r1_3, p0⟩] : List (View.Piece (Elt F) S256x1024 .f32)), y ∈ pc.1.set :=
  View.cover_of_tiled [⟨r1_3, p0⟩] S256x1024.size (by rfl) y

set_option maxHeartbeats 1000000 in
/-- The body on whole staging memrefs: the inputs' kept, the output's at `out1_3` of the inputs'. -/
theorem sound_kernel1 (c : Dev nD) (E : Set ℕ) (i : grid1.Coords) (arg1 : Memref sig .tc .vmem S256x16 .f32) (harg1 : arg1.IsWhole) (arg2 : Memref sig .tc .vmem S16x1024 .f32) (harg2 : arg2.IsWhole) (arg3 : Memref sig .tc .vmem S1x1024 .f32) (harg3 : arg3.IsWhole) (arg4 : Memref sig .tc .vmem S256x1024 .f32) (harg4 : arg4.IsWhole)
    (x0 : Vec F S256x16 .f32) (x1 : Vec F S16x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__final_matmul_kernel i arg1 harg1 arg2 harg2 arg3 harg3 arg4 harg4) K := by
  simp only [cc1__final_matmul_kernel_eq_skeleton]; unfold cc1__final_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The proof data -/

/-- Pipeline 1's proof data on core `c`: the arrays as found; after the body each input's buffer at its
    block, the output's at `out1_3` of the input blocks; the launch's invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end

end Cert.Kernel.Fr

end
-- ==== Proof.K.Run.lean ====
/-
  The whole run. @main is eight items: the host lines before the first call (the index normalisation,
  the row gather, two reshapes), the first call, four short host stretches (a constant; the weight padded
  with zero columns; the bias reshaped, and a constant; the bias padded), the second call, and the final
  column slice. The buffer contents at each boundary are a fold from the launch memory: a host stretch
  applies its operations; a call replaces its arrays by what its write-backs leave and keeps every other
  buffer. Each call is entered from "every unscoped buffer at the boundary's contents, the generator
  register at some state, nothing owed" and left in the same shape, so the items chain. The result: every
  execution terminates and every unscoped buffer ends at the last fold. No item writes an argument, so the
  fold at an argument walks back to the launch memory.
-/
import proofs.«104422_j25443386262310_1_alg».proof.Proof.K.Reg0
import proofs.«104422_j25443386262310_1_alg».proof.Proof.K.Reg1
import proofs.«104422_j25443386262310_1_alg».proof.Proof.Gen.Kernel.Regions
import Idealize.ShloMosaic.Lib.Pipeline.RegionsLoop

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev W6 : Dev nD → Valuation τ sig (Elt F) := fun c => StableHlo.after hostOps1_3 (W5 m c)
abbrev V6 : (c : Dev nD) → (b : Ref sig .tc) → Buf (Elt F) ((c : Thread nD τ).loc b) := fun c b => W6 m c b
def W7 (c : Dev nD) : Valuation τ sig (Elt F) :=
  Pipeline.withArrays spec1 c (W6 m c) fun w => (dat1 (V6 m) c).arrAt w cfg1.N
theorem W7_arr (c : Dev nD) (w : Fin cfg1.W) :
    W7 m c (Proc.devRef .tc (Pipeline.arrRef spec1 w)) = (dat1 (V6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev V7 : (c : Dev nD) → (b : Ref sig .tc) → Buf (Elt F) ((c : Thread nD τ).loc b) := fun c b => W7 m c b
theorem hF1 (c : Dev nD) (w : Fin cfg1.W) : (dat1 (V6 m) c).arrAt w cfg1.N = V7 m c (Pipeline.arrRef spec1 w) :=
  (W7_arr m c w).symm
theorem hrest1 (c : Dev nD) : ∀ b, b ∉ Finset.univ.image (Pipeline.arrRef spec1) → V7 m c b = V6 m c b :=
  fun b hb => W7_of_ne m c b fun w e => hb (Finset.mem_image.mpr ⟨w, Finset.mem_univ _, e⟩)
abbrev W8 : Dev nD → Valuation τ sig (Elt F) := fun c => StableHlo.after hostOps2 (W7 m c)

/-! ## The arguments end as launched -/

theorem W8_main_arg0 (c : Dev nD) : W8 m c (Proc.devRef .tc main_arg0) = m ((c : Thread nD τ).loc main_arg0) :=
  calc W8 m c (Proc.devRef .tc main_arg0)
    _ = W7 m c (Proc.devRef .tc main_arg0) := StableHlo.after_of_writes_sub hostOps2 _ hostOps2_writes (by decide : main_arg0 ∉ hostOps2_W)
    _ = W6 m c (Proc.devRef .tc main_arg0) := W7_of_ne m c main_arg0 (by decide)
    _ = W5 m c (Proc.devRef .tc main_arg0) := StableHlo.after_of_writes_sub hostOps1_3 _ hostOps1_3_writes (by decide : main_arg0 ∉ hostOps1_3_W)
    _ = W4 m c (Proc.devRef .tc main_arg0) := StableHlo.after_of_writes_sub hostOps1_2 _ hostOps1_2_writes (by decide : main_arg0 ∉ hostOps1_2_W)
    _ = W3 m c (Proc.devRef .tc main_arg0) := StableHlo.after_of_writes_sub hostOps1_1 _ hostOps1_1_writes (by decide : main_arg0 ∉ hostOps1_1_W)
    _ = W2 m c (Proc.devRef .tc main_arg0) := StableHlo.after_of_writes_sub hostOps1 _ hostOps1_writes (by decide : main_arg0 ∉ hostOps1_W)
    _ = W1 m c (Proc.devRef .tc main_arg0) := W2_of_ne m c main_arg0 (by decide)
    _ = W0 m c (Proc.devRef .tc main_arg0) := StableHlo.after_of_writes_sub hostOps0 _ hostOps0_writes (by decide : main_arg0 ∉ hostOps0_W)
    _ = m ((c : Thread nD τ).loc main_arg0) := rfl

theorem W8_main_arg1 (c : Dev nD) : W8 m c (Proc.devRef .tc main_arg1) = m ((c : Thread nD τ).loc main_arg1) :=
  calc W8 m c (Proc.devRef .tc main_arg1)
    _ = W7 m c (Proc.devRef .tc main_arg1) := StableHlo.after_of_writes_sub hostOps2 _ hostOps2_writes (by decide : main_arg1 ∉ hostOps2_W)
    _ = W6 m c (Proc.devRef .tc main_arg1) := W7_of_ne m c main_arg1 (by decide)
    _ = W5 m c (Proc.devRef .tc main_arg1) := StableHlo.after_of_writes_sub hostOps1_3 _ hostOps1_3_writes (by decide : main_arg1 ∉ hostOps1_3_W)
    _ = W4 m c (Proc.devRef .tc main_arg1) := StableHlo.after_of_writes_sub hostOps1_2 _ hostOps1_2_writes (by decide : main_arg1 ∉ hostOps1_2_W)
    _ = W3 m c (Proc.devRef .tc main_arg1) := StableHlo.after_of_writes_sub hostOps1_1 _ hostOps1_1_writes (by decide : main_arg1 ∉ hostOps1_1_W)
    _ = W2 m c (Proc.devRef .tc main_arg1) := StableHlo.after_of_writes_sub hostOps1 _ hostOps1_writes (by decide : main_arg1 ∉ hostOps1_W)
    _ = W1 m c (Proc.devRef .tc main_arg1) := W2_of_ne m c main_arg1 (by decide)
    _ = W0 m c (Proc.devRef .tc main_arg1) := StableHlo.after_of_writes_sub hostOps0 _ hostOps0_writes (by decide : main_arg1 ∉ hostOps0_W)
    _ = m ((c : Thread nD τ).loc main_arg1) := rfl

theorem W8_main_arg2 (c : Dev nD) : W8 m c (Proc.devRef .tc main_arg2) = m ((c : Thread nD τ).loc main_arg2) :=
  calc W8 m c (Proc.devRef .tc main_arg2)
    _ = W7 m c (Proc.devRef .tc main_arg2) := StableHlo.after_of_writes_sub hostOps2 _ hostOps2_writes (by decide : main_arg2 ∉ hostOps2_W)
    _ = W6 m c (Proc.devRef .tc main_arg2) := W7_of_ne m c main_arg2 (by decide)
    _ = W5 m c (Proc.devRef .tc main_arg2) := StableHlo.after_of_writes_sub hostOps1_3 _ hostOps1_3_writes (by decide : main_arg2 ∉ hostOps1_3_W)
    _ = W4 m c (Proc.devRef .tc main_arg2) := StableHlo.after_of_writes_sub hostOps1_2 _ hostOps1_2_writes (by decide : main_arg2 ∉ hostOps1_2_W)
    _ = W3 m c (Proc.devRef .tc main_arg2) := StableHlo.after_of_writes_sub hostOps1_1 _ hostOps1_1_writes (by decide : main_arg2 ∉ hostOps1_1_W)
    _ = W2 m c (Proc.devRef .tc main_arg2) := StableHlo.after_of_writes_sub hostOps1 _ hostOps1_writes (by decide : main_arg2 ∉ hostOps1_W)
    _ = W1 m c (Proc.devRef .tc main_arg2) := (W2_arr m c 1).trans (((dat0 (V1 m) c).arrAt_in 1 rfl _).trans (A_eq0 (V1 m) c 1))
    _ = W0 m c (Proc.devRef .tc main_arg2) := StableHlo.after_of_writes_sub hostOps0 _ hostOps0_writes (by decide : main_arg2 ∉ hostOps0_W)
    _ = m ((c : Thread nD τ).loc main_arg2) := rfl

theorem W8_main_arg3 (c : Dev nD) : W8 m c (Proc.devRef .tc main_arg3) = m ((c : Thread nD τ).loc main_arg3) :=
  calc W8 m c (Proc.devRef .tc main_arg3)
    _ = W7 m c (Proc.devRef .tc main_arg3) := StableHlo.after_of_writes_sub hostOps2 _ hostOps2_writes (by decide : main_arg3 ∉ hostOps2_W)
    _ = W6 m c (Proc.devRef .tc main_arg3) := W7_of_ne m c main_arg3 (by decide)
    _ = W5 m c (Proc.devRef .tc main_arg3) := StableHlo.after_of_writes_sub hostOps1_3 _ hostOps1_3_writes (by decide : main_arg3 ∉ hostOps1_3_W)
    _ = W4 m c (Proc.devRef .tc main_arg3) := StableHlo.after_of_writes_sub hostOps1_2 _ hostOps1_2_writes (by decide : main_arg3 ∉ hostOps1_2_W)
    _ = W3 m c (Proc.devRef .tc main_arg3) := StableHlo.after_of_writes_sub hostOps1_1 _ hostOps1_1_writes (by decide : main_arg3 ∉ hostOps1_1_W)
    _ = W2 m c (Proc.devRef .tc main_arg3) := StableHlo.after_of_writes_sub hostOps1 _ hostOps1_writes (by decide : main_arg3 ∉ hostOps1_W)
    _ = W1 m c (Proc.devRef .tc main_arg3) := W2_of_ne m c main_arg3 (by decide)
    _ = W0 m c (Proc.devRef .tc main_arg3) := StableHlo.after_of_writes_sub hostOps0 _ hostOps0_writes (by decide : main_arg3 ∉ hostOps0_W)
    _ = m ((c : Thread nD τ).loc main_arg3) := rfl

theorem W8_main_arg4 (c : Dev nD) : W8 m c (Proc.devRef .tc main_arg4) = m ((c : Thread nD τ).loc main_arg4) :=
  calc W8 m c (Proc.devRef .tc main_arg4)
    _ = W7 m c (Proc.devRef .tc main_arg4) := StableHlo.after_of_writes_sub hostOps2 _ hostOps2_writes (by decide : main_arg4 ∉ hostOps2_W)
    _ = W6 m c (Proc.devRef .tc main_arg4) := W7_of_ne m c main_arg4 (by decide)
    _ = W5 m c (Proc.devRef .tc main_arg4) := StableHlo.after_of_writes_sub hostOps1_3 _ hostOps1_3_writes (by decide : main_arg4 ∉ hostOps1_3_W)
    _ = W4 m c (Proc.devRef .tc main_arg4) := StableHlo.after_of_writes_sub hostOps1_2 _ hostOps1_2_writes (by decide : main_arg4 ∉ hostOps1_2_W)
    _ = W3 m c (Proc.devRef .tc main_arg4) := StableHlo.after_of_writes_sub hostOps1_1 _ hostOps1_1_writes (by decide : main_arg4 ∉ hostOps1_1_W)
    _ = W2 m c (Proc.devRef .tc main_arg4) := StableHlo.after_of_writes_sub hostOps1 _ hostOps1_writes (by decide : main_arg4 ∉ hostOps1_W)
    _ = W1 m c (Proc.devRef .tc main_arg4) := (W2_arr m c 3).trans (((dat0 (V1 m) c).arrAt_in 3 rfl _).trans (A_eq0 (V1 m) c 3))
    _ = W0 m c (Proc.devRef .tc main_arg4) := StableHlo.after_of_writes_sub hostOps0 _ hostOps0_writes (by decide : main_arg4 ∉ hostOps0_W)
    _ = m ((c : Thread nD τ).loc main_arg4) := rfl

theorem W8_main_arg5 (c : Dev nD) : W8 m c (Proc.devRef .tc main_arg5) = m ((c : Thread nD τ).loc main_arg5) :=
  calc W8 m c (Proc.devRef .tc main_arg5)
    _ = W7 m c (Proc.devRef .tc main_arg5) := StableHlo.after_of_writes_sub hostOps2 _ hostOps2_writes (by decide : main_arg5 ∉ hostOps2_W)
    _ = W6 m c (Proc.devRef .tc main_arg5) := W7_of_ne m c main_arg5 (by decide)
    _ = W5 m c (Proc.devRef .tc main_arg5) := StableHlo.after_of_writes_sub hostOps1_3 _ hostOps1_3_writes (by decide : main_arg5 ∉ hostOps1_3_W)
    _ = W4 m c (Proc.devRef .tc main_arg5) := StableHlo.after_of_writes_sub hostOps1_2 _ hostOps1_2_writes (by decide : main_arg5 ∉ hostOps1_2_W)
    _ = W3 m c (Proc.devRef .tc main_arg5) := StableHlo.after_of_writes_sub hostOps1_1 _ hostOps1_1_writes (by decide : main_arg5 ∉ hostOps1_1_W)
    _ = W2 m c (Proc.devRef .tc main_arg5) := StableHlo.after_of_writes_sub hostOps1 _ hostOps1_writes (by decide : main_arg5 ∉ hostOps1_W)
    _ = W1 m c (Proc.devRef .tc main_arg5) := W2_of_ne m c main_arg5 (by decide)
    _ = W0 m c (Proc.devRef .tc main_arg5) := StableHlo.after_of_writes_sub hostOps0 _ hostOps0_writes (by decide : main_arg5 ∉ hostOps0_W)
    _ = m ((c : Thread nD τ).loc main_arg5) := rfl

theorem W8_main_arg6 (c : Dev nD) : W8 m c (Proc.devRef .tc main_arg6) = m ((c : Thread nD τ).loc main_arg6) :=
  calc W8 m c (Proc.devRef .tc main_arg6)
    _ = W7 m c (Proc.devRef .tc main_arg6) := StableHlo.after_of_writes_sub hostOps2 _ hostOps2_writes (by decide : main_arg6 ∉ hostOps2_W)
    _ = W6 m c (Proc.devRef .tc main_arg6) := W7_of_ne m c main_arg6 (by decide)
    _ = W5 m c (Proc.devRef .tc main_arg6) := StableHlo.after_of_writes_sub hostOps1_3 _ hostOps1_3_writes (by decide : main_arg6 ∉ hostOps1_3_W)
    _ = W4 m c (Proc.devRef .tc main_arg6) := StableHlo.after_of_writes_sub hostOps1_2 _ hostOps1_2_writes (by decide : main_arg6 ∉ hostOps1_2_W)
    _ = W3 m c (Proc.devRef .tc main_arg6) := StableHlo.after_of_writes_sub hostOps1_1 _ hostOps1_1_writes (by decide : main_arg6 ∉ hostOps1_1_W)
    _ = W2 m c (Proc.devRef .tc main_arg6) := StableHlo.after_of_writes_sub hostOps1 _ hostOps1_writes (by decide : main_arg6 ∉ hostOps1_W)
    _ = W1 m c (Proc.devRef .tc main_arg6) := W2_of_ne m c main_arg6 (by decide)
    _ = W0 m c (Proc.devRef .tc main_arg6) := StableHlo.after_of_writes_sub hostOps0 _ hostOps0_writes (by decide : main_arg6 ∉ hostOps0_W)
    _ = m ((c : Thread nD τ).loc main_arg6) := rfl

theorem W8_main_arg7 (c : Dev nD) : W8 m c (Proc.devRef .tc main_arg7) = m ((c : Thread nD τ).loc main_arg7) :=
  calc W8 m c (Proc.devRef .tc main_arg7)
    _ = W7 m c (Proc.devRef .tc main_arg7) := StableHlo.after_of_writes_sub hostOps2 _ hostOps2_writes (by decide : main_arg7 ∉ hostOps2_W)
    _ = W6 m c (Proc.devRef .tc main_arg7) := W7_of_ne m c main_arg7 (by decide)
    _ = W5 m c (Proc.devRef .tc main_arg7) := StableHlo.after_of_writes_sub hostOps1_3 _ hostOps1_3_writes (by decide : main_arg7 ∉ hostOps1_3_W)
    _ = W4 m c (Proc.devRef .tc main_arg7) := StableHlo.after_of_writes_sub hostOps1_2 _ hostOps1_2_writes (by decide : main_arg7 ∉ hostOps1_2_W)
    _ = W3 m c (Proc.devRef .tc main_arg7) := StableHlo.after_of_writes_sub hostOps1_1 _ hostOps1_1_writes (by decide : main_arg7 ∉ hostOps1_1_W)
    _ = W2 m c (Proc.devRef .tc main_arg7) := StableHlo.after_of_writes_sub hostOps1 _ hostOps1_writes (by decide : main_arg7 ∉ hostOps1_W)
    _ = W1 m c (Proc.devRef .tc main_arg7) := W2_of_ne m c main_arg7 (by decide)
    _ = W0 m c (Proc.devRef .tc main_arg7) := StableHlo.after_of_writes_sub hostOps0 _ hostOps0_writes (by decide : main_arg7 ∉ hostOps0_W)
    _ = m ((c : Thread nD τ).loc main_arg7) := rfl

/-! ## The proof data family, the thread state, the segments -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V6 m) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (adm (F := F) 0).1 ∗ Pipeline.scopedRest (Pipeline.pin (pcfgs (F := F)) adm 0).spec c) : sProp 𝕄)
        ⊢ (Pipeline.ΦA spec0 c : sProp 𝕄) := by
      unfold Pipeline.ΦA
      iintro ⟨Hp, -, Hr⟩
      isplitl [Hr]; · iexact Hr
      iexact Hp
    exact h.trans (hin0 (V1 m) c)
  hout c := by
    rw [Pipeline.ownSems0_none]
    have h : (Pipeline.ΦA spec0 c : sProp 𝕄)
        ⊢ (iprop((∃ r, prngReg c r) ∗ BI.emp ∗ Pipeline.scopedRest (Pipeline.pin (pcfgs (F := F)) adm 0).spec c) : sProp 𝕄) := by
      unfold Pipeline.ΦA
      iintro ⟨Hr, Hp⟩
      isplitl [Hp]; · iexact Hp
      isplitr; · iempintro
      iexact Hr
    exact (hout0 (V1 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (V6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V6 m c) (V7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .region (reg1 m),
    .host (hseg hostOps2 hostOps2_sub hostOps2_fresh (W7 m)) ]

/-! ## The run -/

set_option backward.isDefEq.respectTransparency.types false in
/-- From any memory with zero counters every weakly fair execution of @main terminates, nothing faulting, and
    every unscoped buffer of every core ends at the last fold's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W8 m c))
    (hch := ⟨fun _ => .rfl, fun _ => .rfl, fun _ => .rfl, fun _ => .rfl, fun _ => .rfl, fun _ => .rfl, fun _ => .rfl, fun _ => .rfl,
      fun c => sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨Hh, HSI⟩
      unfold StableHlo.held
      imodintro
      iapply (pointsTo_read_all (Pipeline.ucRefs τ sig) (fun b => (((c : Thread nD τ)).1, b)) (W8 m c) s')
      isplitl [Hh] <;> iassumption)
    (hQ := fun s h => h)

/-- The frame: every argument array ends holding its launch contents. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c),
     (h c _ (mem_uc main_arg6 (by decide))).trans (W8_main_arg6 m c),
     (h c _ (mem_uc main_arg7 (by decide))).trans (W8_main_arg7 m c)⟩) (run_all m ρ)

end Cert.Kernel.Fr

end
-- ==== Proof.KI.Base0.lean ====
/-
  Region 0 (the gated accumulation over the time axis), the part its three control cases share.
  The grid is 8 × 8: coordinate 0 picks a block of 32 batch rows, coordinate 1 a block of 1024 time
  steps. Along coordinate 1 the body resets its 32 × 16 accumulator at step 0, adds the block's
  gated sum at every step, and copies the accumulator to the output block at step 7. So a grid
  point t (row-major, t = 8·b + j) is in exactly one of three cases, decided by t mod 8:
  reset-and-add (0), add (1..6), add-and-emit (7). Here: each input window's block at a point, the
  two branch conditions in closed form over the 64 points, where the output window is idle, and the
  invariant of the launch with the accumulator buffer split out of the other scoped buffers.
-/
import proofs.«104422_j25443386262310_1_alg».proof.Proof.Gen.KernelIdeal.Launch
import proofs.«104422_j25443386262310_1_alg».proof.Proof.Gen.KernelIdeal.Skeleton
import proofs.«104422_j25443386262310_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/- An input window's current staging buffer holds its block at every point, whether the point fetched
   it or not (an unfetched window's block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end

/-! ## The two branch conditions, over the grid -/

/-- "time block 0": the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "time block 7": the accumulator is copied out. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Outside time block 7 nothing is stored into the output block and it is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## The memrefs the body is called with -/

abbrev VO0_5 : View sig .tc .vmem S32x16 .f32 := (Memref.whole cc0_stg5_0 : Memref sig .tc .vmem S32x16 .f32).view
abbrev ms0_0 (t : Fin cfg0.N) : Memref sig .tc .vmem S32x1024x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x16 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x16 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x16 .f32 := win0_5.stage (cfg0.slots t 5)
abbrev hs0_5 (t : Fin cfg0.N) : (ms0_5 t).IsWhole := hstage0_5 ((cfg0.slots t 5).cast nbuf0_5)
/-- The accumulator: a whole scoped buffer of the kernel's own, carried from point to point. -/
abbrev scM0_0 : Memref sig .tc .vmem S32x16 .f32 := Memref.whole cc0_scratch0
abbrev VS0_0 : View sig .tc .vmem S32x16 .f32 := scM0_0.view

/-- The scoped buffers of the core that region 0 neither stages nor uses: the second call's staging buffers. -/
abbrev rest7 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The launch's invariant with the accumulator as a memref owned at some contents. -/
theorem PhiA0_eq (c : Dev nD) :
    (Pipeline.ΦA spec0 c : sProp 𝕄)
      = iprop(iprop((∃ d, owns (c : Thread nD τ) scM0_0 fullShare d) ∗ rest7 (F := F) c) ∗ (∃ r, prngReg c r)) := by
  unfold Pipeline.ΦA; rw [scopedRest0_eq]; simp only [scM0_0, owns_whole]; try rfl

end Cert.KernelIdeal.Fr

end
-- ==== Proof.KI.Run0A.lean ====
/-
  Region 0's body at a point of time block 0: the accumulator is overwritten with zeros, then with
  zeros plus this block's gated sum; the output block is not touched. The run finds the list of pieces
  the accumulator buffer ends with.
-/
import proofs.«104422_j25443386262310_1_alg».proof.Proof.KI.Base0

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : cond0_0 i) (hc1 : ¬cond0_1 i)
    (x0 : Vec F S32x1024x16 .f32) (x1 : Vec F S16x1 .f32) (x2 : Vec F S1x1 .f32) (x3 : Vec F S16x16 .f32) (x4 : Vec F S1x16 .f32) :
    Σ' (L5 : List (View.Piece (Elt F) S32x16 .f32)), { LS0 : List (View.Piece (Elt F) S32x16 .f32) //
      ∀ (xi5 : Vec F S32x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__gated_accum_kernel i arg2 harg2 arg3 harg3 arg4 harg4 arg5 harg5 arg6 harg6 arg7 harg7 arg8 harg8) K } := by
  refine ⟨[], ?_, fun xi5 E K => ?run⟩
  case run =>
    simp only [cc0__gated_accum_kernel_eq_skeleton]; unfold cc0__gated_accum_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Fr

end
-- ==== Proof.KI.Run0B.lean ====
/-
  Region 0's body at a point of time blocks 1 to 6: the accumulator, at what the point before left,
  is overwritten with itself plus this block's gated sum; the output block is not touched.
-/
import proofs.«104422_j25443386262310_1_alg».proof.Proof.KI.Run0A

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : ¬cond0_0 i) (hc1 : ¬cond0_1 i)
    (x0 : Vec F S32x1024x16 .f32) (x1 : Vec F S16x1 .f32) (x2 : Vec F S1x1 .f32) (x3 : Vec F S16x16 .f32) (x4 : Vec F S1x16 .f32) (xs0 : Vec F S32x16 .f32) :
    Σ' (L5 : List (View.Piece (Elt F) S32x16 .f32)), { LS0 : List (View.Piece (Elt F) S32x16 .f32) //
      ∀ (xi5 : Vec F S32x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__gated_accum_kernel i arg2 harg2 arg3 harg3 arg4 harg4 arg5 harg5 arg6 harg6 arg7 harg7 arg8 harg8) K } := by
  refine ⟨[], ?_, fun xi5 E K => ?run⟩
  case run =>
    simp only [cc0__gated_accum_kernel_eq_skeleton]; unfold cc0__gated_accum_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Fr

end
-- ==== Proof.KI.Run0C.lean ====
/-
  Region 0's body at a point of time block 7: the accumulator is overwritten with itself plus this
  block's gated sum, read back, and stored whole into the output block.
-/
import proofs.«104422_j25443386262310_1_alg».proof.Proof.KI.Run0B

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : ¬cond0_0 i) (hc1 : cond0_1 i)
    (x0 : Vec F S32x1024x16 .f32) (x1 : Vec F S16x1 .f32) (x2 : Vec F S1x1 .f32) (x3 : Vec F S16x16 .f32) (x4 : Vec F S1x16 .f32) (xs0 : Vec F S32x16 .f32) :
    Σ' (L5 : List (View.Piece (Elt F) S32x16 .f32)), { LS0 : List (View.Piece (Elt F) S32x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__gated_accum_kernel i arg2 harg2 arg3 harg3 arg4 harg4 arg5 harg5 arg6 harg6 arg7 harg7 arg8 harg8) K } := by
  refine ⟨?_, ?_, fun E K => ?run⟩
  case run =>
    simp only [cc0__gated_accum_kernel_eq_skeleton]; unfold cc0__gated_accum_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Fr

end
-- ==== Proof.KI.Reg0.lean ====
/-
  Region 0 assembled. After point n the accumulator holds: at time block 0 what the reset-and-add case
  leaves from the point's five input blocks; otherwise what the add case leaves from the blocks and from
  what point n − 1 left (the accumulator is a buffer of the kernel's own, nothing else writes it between
  two points). The output block is stored only at time block 7, with the accumulator's new contents, and
  is idle elsewhere. The launch's invariant before point n is: before the first point anything; afterwards
  the accumulator at what point n − 1 left, the other scoped buffers and the generator register at
  anything. From these the proof data and the body obligation at every point, case by case.
  Everything is stated at a parameter V: the core's buffer contents when the region is entered.
-/
import proofs.«104422_j25443386262310_1_alg».proof.Proof.KI.Run0C

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves, read back from the pieces its run found -/

theorem scover0_A_0 (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : cond0_0 i) (hc1 : ¬cond0_1 i)
    (x0 : Vec F S32x1024x16 .f32) (x1 : Vec F S16x1 .f32) (x2 : Vec F S1x1 .f32) (x3 : Vec F S16x16 .f32) (x4 : Vec F S1x16 .f32) (y : S32x16.Idx) :
    ∃ pc ∈ (kernelRun0_A c i arg2 harg2 arg3 harg3 arg4 harg4 arg5 harg5 arg6 harg6 arg7 harg7 arg8 harg8 hc0 hc1 x0 x1 x2 x3 x4).2.1, y ∈ pc.1.set :=
  View.cover_of_tiledL (kernelRun0_A c i arg2 harg2 arg3 harg3 arg4 harg4 arg5 harg5 arg6 harg6 arg7 harg7 arg8 harg8 hc0 hc1 x0 x1 x2 x3 x4).2.1 S32x16.size (by sl_kernel_rfl) y

def sout0_A_0 (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : cond0_0 i) (hc1 : ¬cond0_1 i)
    (x0 : Vec F S32x1024x16 .f32) (x1 : Vec F S16x1 .f32) (x2 : Vec F S1x1 .f32) (x3 : Vec F S16x16 .f32) (x4 : Vec F S1x16 .f32) : Vec F S32x16 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3 x4).2.1)

theorem scover0_B_0 (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : ¬cond0_0 i) (hc1 : ¬cond0_1 i)
    (x0 : Vec F S32x1024x16 .f32) (x1 : Vec F S16x1 .f32) (x2 : Vec F S1x1 .f32) (x3 : Vec F S16x16 .f32) (x4 : Vec F S1x16 .f32) (xs0 : Vec F S32x16 .f32) (y : S32x16.Idx) :
    ∃ pc ∈ (kernelRun0_B c i arg2 harg2 arg3 harg3 arg4 harg4 arg5 harg5 arg6 harg6 arg7 harg7 arg8 harg8 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 hc0 hc1 x0 x1 x2 x3 x4 xs0).2.1 S32x16.size (by sl_kernel_rfl) y

def sout0_B_0 (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : ¬cond0_0 i) (hc1 : ¬cond0_1 i)
    (x0 : Vec F S32x1024x16 .f32) (x1 : Vec F S16x1 .f32) (x2 : Vec F S1x1 .f32) (x3 : Vec F S16x16 .f32) (x4 : Vec F S1x16 .f32) (xs0 : Vec F S32x16 .f32) : Vec F S32x16 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 x4 xs0).2.1)

theorem cover0_C_5 (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : ¬cond0_0 i) (hc1 : cond0_1 i)
    (x0 : Vec F S32x1024x16 .f32) (x1 : Vec F S16x1 .f32) (x2 : Vec F S1x1 .f32) (x3 : Vec F S16x16 .f32) (x4 : Vec F S1x16 .f32) (xs0 : Vec F S32x16 .f32) (y : S32x16.Idx) :
    ∃ pc ∈ (kernelRun0_C c i arg2 harg2 arg3 harg3 arg4 harg4 arg5 harg5 arg6 harg6 arg7 harg7 arg8 harg8 hc0 hc1 x0 x1 x2 x3 x4 xs0).1, y ∈ pc.1.set :=
  View.cover_of_tiledL (kernelRun0_C c i arg2 harg2 arg3 harg3 arg4 harg4 arg5 harg5 arg6 harg6 arg7 harg7 arg8 harg8 hc0 hc1 x0 x1 x2 x3 x4 xs0).1 S32x16.size (by sl_kernel_rfl) y

def out0_C_5 (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : ¬cond0_0 i) (hc1 : cond0_1 i)
    (x0 : Vec F S32x1024x16 .f32) (x1 : Vec F S16x1 .f32) (x2 : Vec F S1x1 .f32) (x3 : Vec F S16x16 .f32) (x4 : Vec F S1x16 .f32) (xs0 : Vec F S32x16 .f32) : Vec F S32x16 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 x4 xs0).1)

theorem scover0_C_0 (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : ¬cond0_0 i) (hc1 : cond0_1 i)
    (x0 : Vec F S32x1024x16 .f32) (x1 : Vec F S16x1 .f32) (x2 : Vec F S1x1 .f32) (x3 : Vec F S16x16 .f32) (x4 : Vec F S1x16 .f32) (xs0 : Vec F S32x16 .f32) (y : S32x16.Idx) :
    ∃ pc ∈ (kernelRun0_C c i arg2 harg2 arg3 harg3 arg4 harg4 arg5 harg5 arg6 harg6 arg7 harg7 arg8 harg8 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 hc0 hc1 x0 x1 x2 x3 x4 xs0).2.1 S32x16.size (by sl_kernel_rfl) y

def sout0_C_0 (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : ¬cond0_0 i) (hc1 : cond0_1 i)
    (x0 : Vec F S32x1024x16 .f32) (x1 : Vec F S16x1 .f32) (x2 : Vec F S1x1 .f32) (x3 : Vec F S16x16 .f32) (x4 : Vec F S1x16 .f32) (xs0 : Vec F S32x16 .f32) : Vec F S32x16 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 x4 xs0).2.1)

section
variable (V : (c : Dev nD) → (b : Ref sig .tc) → Buf (Elt F) ((c : Thread nD τ).loc b))

/-! ## The accumulator after each point -/

/-- What the accumulator holds after the body at position `n`. -/
def scAt0 (c : Dev nD) : (n : ℕ) → n < cfg0.N → Vec F S32x16 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩)
  | n + 1, hn =>
    if h0 : (n + 1) % 8 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩)
    else
      if h1 : (n + 1) % 8 = 7 then
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (scAt0 c n (Nat.lt_of_succ_lt hn))
      else
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (scAt0 c n (Nat.lt_of_succ_lt hn))

theorem scAt0_A (c : Dev nD) (t : Fin cfg0.N) (h0 : t.val % 8 = 0) (hc1 : ¬cond0_1 (grid0.coords t)) :
    scAt0 V c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) hc1 (iblk0 V c 0 t) (iblk0 V c 1 t) (iblk0 V c 2 t) (iblk0 V c 3 t) (iblk0 V c 4 t) := by
  obtain ⟨n, hn⟩ := t
  cases n with
  | zero => exact rfl
  | succ n => exact (dif_pos h0).trans rfl

theorem scAt0_B (c : Dev nD) (t : Fin cfg0.N) (h0 : ¬t.val % 8 = 0) (h1 : ¬t.val % 8 = 7) :
    scAt0 V c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (scAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem scAt0_C (c : Dev nD) (t : Fin cfg0.N) (h0 : ¬t.val % 8 = 0) (h1 : t.val % 8 = 7) :
    scAt0 V c t.val t.isLt = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (scAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output block's staging buffer holds after the body at point `t`: at time block 7 the case's
    store; elsewhere the window is idle and the value is never consulted. -/
def outAt0 (c : Dev nD) (t : Fin cfg0.N) : Vec F S32x16 .f32 :=
  if h1 : t.val % 8 = 7 then
    out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => (fun h => by (try dsimp only at h); omega) ((hcond0_0 t).mp h)) ((hcond0_1 t).mpr h1) (iblk0 V c 0 t) (iblk0 V c 1 t) (iblk0 V c 2 t) (iblk0 V c 3 t) (iblk0 V c 4 t) (scAt0 V c (t.val - 1) (Nat.lt_of_le_of_lt (Nat.sub_le _ _) t.isLt))
  else VO0_5.read (Elt F) VO0_5.junk

theorem outAt0_C (c : Dev nD) (t : Fin cfg0.N) (hc0 : ¬cond0_0 (grid0.coords t)) (h1 : t.val % 8 = 7) :
    outAt0 V c t = out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) hc0 ((hcond0_1 t).mpr h1) (iblk0 V c 0 t) (iblk0 V c 1 t) (iblk0 V c 2 t) (iblk0 V c 3 t) (iblk0 V c 4 t) (scAt0 V c (t.val - 1) (Nat.lt_of_le_of_lt (Nat.sub_le _ _) t.isLt)) := by
  unfold outAt0; exact dif_pos h1

/-! ## The invariant -/

def PhiS (c : Dev nD) : (n : ℕ) → n ≤ cfg0.N → sProp 𝕄
  | 0, _ => Pipeline.ΦA spec0 c
  | n + 1, hn => iprop(iprop(owns (c : Thread nD τ) scM0_0 fullShare (scAt0 V c n hn) ∗ rest7 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (scAt0 V c n hn) ∗ rest7 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare (scAt0 V c (n - 1) (by omega)) ∗ rest7 (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => outAt0 V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) : (dat0 V c).leavesExact 3 t = owns (c : Thread nD τ) (ms0_3 t) fullShare (iblk0 V c 3 t) := by
  unfold Dat.leavesExact; rw [liveAt0_3 t, after0_3]
theorem leaves0_4 (c : Dev nD) (t : Fin cfg0.N) : (dat0 V c).leavesExact 4 t = owns (c : Thread nD τ) (ms0_4 t) fullShare (iblk0 V c 4 t) := by
  unfold Dat.leavesExact; rw [liveAt0_4 t, after0_4]

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2, leaves0_3, leaves0_4]
  have hN : t.val < 64 := lt_of_lt_of_eq t.isLt (show cfg0.N = 64 from N_0)
  by_cases h0 : t.val % 8 = 0
  · have hc1 : ¬cond0_1 (grid0.coords t) := fun h => by have := (hcond0_1 t).mp h; omega
    rw [Dat.leavesExact_idle (dat0 V c) 5 t (idleAt0_5 t hc1) (noFlush0_5 t hc1)]
    rw [scAt0_A V c t h0 hc1]
    unfold sout0_A_0; (try dsimp only)
    by_cases hz : t.val = 0
    · rw [PhiS_castSucc V c t, PhiS_zero V c _ _ hz, PhiA0_eq]
      iintro ⟨⟨⟨HS0, Hr7⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) hc1 (iblk0 V c 0 t) (iblk0 V c 1 t) (iblk0 V c 2 t) (iblk0 V c 3 t) (iblk0 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hr7 Hg]
      · isplitl [HS0 Hr7]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hr7
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨HS0, Hr7⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) hc1 (iblk0 V c 0 t) (iblk0 V c 1 t) (iblk0 V c 2 t) (iblk0 V c 3 t) (iblk0 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hr7 Hg]
      · isplitl [HS0 Hr7]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hr7
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    have hc0 : ¬cond0_0 (grid0.coords t) := fun h => h0 ((hcond0_0 t).mp h)
    by_cases h1 : t.val % 8 = 7
    · rw [show (dat0 V c).leavesExact 5 t = owns (c : Thread nD τ) (ms0_5 t) fullShare ((dat0 V c).after 5 t) from by
        unfold Dat.leavesExact; rw [liveAt0_5 t ((hcond0_1 t).mpr h1)], after0_5]
      rw [outAt0_C V c t hc0 h1, scAt0_C V c t h0 h1]
      unfold out0_C_5 sout0_C_0; (try dsimp only)
      rw [PhiS_castSucc V c t, PhiS_pos V c _ _ hz]
      iintro ⟨⟨⟨HS0, Hr7⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) hc0 ((hcond0_1 t).mpr h1) (iblk0 V c 0 t) (iblk0 V c 1 t) (iblk0 V c 2 t) (iblk0 V c 3 t) (iblk0 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hr7 Hg]
      · isplitl [HS0 Hr7]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _)
          iexact Hr7
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C_5 c _ _ _ _ _ _ _ _ _ _ _ _ _ _ _ _ _ _ _ _ _ _ _)
    · have hc1 : ¬cond0_1 (grid0.coords t) := fun h => h1 ((hcond0_1 t).mp h)
      rw [Dat.leavesExact_idle (dat0 V c) 5 t (idleAt0_5 t hc1) (noFlush0_5 t hc1)]
      rw [scAt0_B V c t h0 h1]
      unfold sout0_B_0; (try dsimp only)
      rw [PhiS_castSucc V c t, PhiS_pos V c _ _ hz]
      iintro ⟨⟨⟨HS0, Hr7⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) hc0 hc1 (iblk0 V c 0 t) (iblk0 V c 1 t) (iblk0 V c 2 t) (iblk0 V c 3 t) (iblk0 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hr7 Hg]
      · isplitl [HS0 Hr7]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _)
          iexact Hr7
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the launch's back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hr7⟩, Hg⟩
  isplitl [HS0 Hr7]
  · isplitl [HS0]
    · iexists _; iexact HS0
    iexact Hr7
  iexact Hg

end

end Cert.KernelIdeal.Fr

end
-- ==== Proof.KI.Reg1.lean ====
/-
  Region 1 (the output projection): a grid of 50 points, point n computing columns 1024·n … 1024·n + 1023
  of the padded result from the whole 256 × 16 accumulated memory, a 16 × 1024 block of the padded weight
  and a 1 × 1024 block of the padded bias. The body stores its output block once, whole, so what the block
  holds after the body is one function of the three input blocks; the launch's invariant is untouched.
  Everything is stated at a parameter V: the core's buffer contents when the region is entered.
-/
import proofs.«104422_j25443386262310_1_alg».proof.Proof.Gen.KernelIdeal.Launch
import proofs.«104422_j25443386262310_1_alg».proof.Proof.Gen.KernelIdeal.Skeleton
import proofs.«104422_j25443386262310_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S256x16 := Rect.unit (s := S256x16) ![0, 0] S256x16.size inb_S256x16_S256x16_0_0
abbrev r1_1 : Rect S16x1024 := Rect.unit (s := S16x1024) ![0, 0] S16x1024.size inb_S16x1024_S16x1024_0_0
abbrev r1_2 : Rect S1x1024 := Rect.unit (s := S1x1024) ![0, 0] S1x1024.size inb_S1x1024_S1x1024_0_0
abbrev r1_3 : Rect S256x1024 := Rect.unit (s := S256x1024) ![0, 0] S256x1024.size inb_S256x1024_S256x1024_0_0

/-- The output block after the body, from the three input blocks: its one store. -/
def out1_3 (x0 : Vec F S256x16 .f32) (x1 : Vec F S16x1024 .f32) (x2 : Vec F S1x1024 .f32) : Vec F S256x1024 .f32 :=
  View.canon [⟨r1_3, k1_pay1 (View.ld x0 r1_0) (View.ld x1 r1_1) (View.ld x2 r1_2)⟩]

theorem cover1_3 (p0 : Vec F S256x1024 .f32) (y : S256x1024.Idx) :
    ∃ pc ∈ ([⟨r1_3, p0⟩] : List (View.Piece (Elt F) S256x1024 .f32)), y ∈ pc.1.set :=
  View.cover_of_tiled [⟨r1_3, p0⟩] S256x1024.size (by rfl) y

set_option maxHeartbeats 1000000 in
/-- The body on whole staging memrefs: the inputs' kept, the output's at `out1_3` of the inputs'. -/
theorem sound_kernel1 (c : Dev nD) (E : Set ℕ) (i : grid1.Coords) (arg1 : Memref sig .tc .vmem S256x16 .f32) (harg1 : arg1.IsWhole) (arg2 : Memref sig .tc .vmem S16x1024 .f32) (harg2 : arg2.IsWhole) (arg3 : Memref sig .tc .vmem S1x1024 .f32) (harg3 : arg3.IsWhole) (arg4 : Memref sig .tc .vmem S256x1024 .f32) (harg4 : arg4.IsWhole)
    (x0 : Vec F S256x16 .f32) (x1 : Vec F S16x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__final_matmul_kernel i arg1 harg1 arg2 harg2 arg3 harg3 arg4 harg4) K := by
  simp only [cc1__final_matmul_kernel_eq_skeleton]; unfold cc1__final_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The proof data -/

/-- Pipeline 1's proof data on core `c`: the arrays as found; after the body each input's buffer at its
    block, the output's at `out1_3` of the input blocks; the launch's invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end

end Cert.KernelIdeal.Fr

end
-- ==== Proof.KI.Run.lean ====
/-
  The whole run. @main is eight items: the host lines before the first call (the index normalisation,
  the row gather, two reshapes), the first call, four short host stretches (a constant; the weight padded
  with zero columns; the bias reshaped, and a constant; the bias padded), the second call, and the final
  column slice. The buffer contents at each boundary are a fold from the launch memory: a host stretch
  applies its operations; a call replaces its arrays by what its write-backs leave and keeps every other
  buffer. Each call is entered from "every unscoped buffer at the boundary's contents, the generator
  register at some state, nothing owed" and left in the same shape, so the items chain. The result: every
  execution terminates and every unscoped buffer ends at the last fold. No item writes an argument, so the
  fold at an argument walks back to the launch memory.
-/
import proofs.«104422_j25443386262310_1_alg».proof.Proof.KI.Reg0
import proofs.«104422_j25443386262310_1_alg».proof.Proof.KI.Reg1
import proofs.«104422_j25443386262310_1_alg».proof.Proof.Gen.KernelIdeal.Regions
import Idealize.ShloMosaic.Lib.Pipeline.RegionsLoop

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev W6 : Dev nD → Valuation τ sig (Elt F) := fun c => StableHlo.after hostOps1_3 (W5 m c)
abbrev V6 : (c : Dev nD) → (b : Ref sig .tc) → Buf (Elt F) ((c : Thread nD τ).loc b) := fun c b => W6 m c b
def W7 (c : Dev nD) : Valuation τ sig (Elt F) :=
  Pipeline.withArrays spec1 c (W6 m c) fun w => (dat1 (V6 m) c).arrAt w cfg1.N
theorem W7_arr (c : Dev nD) (w : Fin cfg1.W) :
    W7 m c (Proc.devRef .tc (Pipeline.arrRef spec1 w)) = (dat1 (V6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev V7 : (c : Dev nD) → (b : Ref sig .tc) → Buf (Elt F) ((c : Thread nD τ).loc b) := fun c b => W7 m c b
theorem hF1 (c : Dev nD) (w : Fin cfg1.W) : (dat1 (V6 m) c).arrAt w cfg1.N = V7 m c (Pipeline.arrRef spec1 w) :=
  (W7_arr m c w).symm
theorem hrest1 (c : Dev nD) : ∀ b, b ∉ Finset.univ.image (Pipeline.arrRef spec1) → V7 m c b = V6 m c b :=
  fun b hb => W7_of_ne m c b fun w e => hb (Finset.mem_image.mpr ⟨w, Finset.mem_univ _, e⟩)
abbrev W8 : Dev nD → Valuation τ sig (Elt F) := fun c => StableHlo.after hostOps2 (W7 m c)

/-! ## The arguments end as launched -/

theorem W8_main_arg0 (c : Dev nD) : W8 m c (Proc.devRef .tc main_arg0) = m ((c : Thread nD τ).loc main_arg0) :=
  calc W8 m c (Proc.devRef .tc main_arg0)
    _ = W7 m c (Proc.devRef .tc main_arg0) := StableHlo.after_of_writes_sub hostOps2 _ hostOps2_writes (by decide : main_arg0 ∉ hostOps2_W)
    _ = W6 m c (Proc.devRef .tc main_arg0) := W7_of_ne m c main_arg0 (by decide)
    _ = W5 m c (Proc.devRef .tc main_arg0) := StableHlo.after_of_writes_sub hostOps1_3 _ hostOps1_3_writes (by decide : main_arg0 ∉ hostOps1_3_W)
    _ = W4 m c (Proc.devRef .tc main_arg0) := StableHlo.after_of_writes_sub hostOps1_2 _ hostOps1_2_writes (by decide : main_arg0 ∉ hostOps1_2_W)
    _ = W3 m c (Proc.devRef .tc main_arg0) := StableHlo.after_of_writes_sub hostOps1_1 _ hostOps1_1_writes (by decide : main_arg0 ∉ hostOps1_1_W)
    _ = W2 m c (Proc.devRef .tc main_arg0) := StableHlo.after_of_writes_sub hostOps1 _ hostOps1_writes (by decide : main_arg0 ∉ hostOps1_W)
    _ = W1 m c (Proc.devRef .tc main_arg0) := W2_of_ne m c main_arg0 (by decide)
    _ = W0 m c (Proc.devRef .tc main_arg0) := StableHlo.after_of_writes_sub hostOps0 _ hostOps0_writes (by decide : main_arg0 ∉ hostOps0_W)
    _ = m ((c : Thread nD τ).loc main_arg0) := rfl

theorem W8_main_arg1 (c : Dev nD) : W8 m c (Proc.devRef .tc main_arg1) = m ((c : Thread nD τ).loc main_arg1) :=
  calc W8 m c (Proc.devRef .tc main_arg1)
    _ = W7 m c (Proc.devRef .tc main_arg1) := StableHlo.after_of_writes_sub hostOps2 _ hostOps2_writes (by decide : main_arg1 ∉ hostOps2_W)
    _ = W6 m c (Proc.devRef .tc main_arg1) := W7_of_ne m c main_arg1 (by decide)
    _ = W5 m c (Proc.devRef .tc main_arg1) := StableHlo.after_of_writes_sub hostOps1_3 _ hostOps1_3_writes (by decide : main_arg1 ∉ hostOps1_3_W)
    _ = W4 m c (Proc.devRef .tc main_arg1) := StableHlo.after_of_writes_sub hostOps1_2 _ hostOps1_2_writes (by decide : main_arg1 ∉ hostOps1_2_W)
    _ = W3 m c (Proc.devRef .tc main_arg1) := StableHlo.after_of_writes_sub hostOps1_1 _ hostOps1_1_writes (by decide : main_arg1 ∉ hostOps1_1_W)
    _ = W2 m c (Proc.devRef .tc main_arg1) := StableHlo.after_of_writes_sub hostOps1 _ hostOps1_writes (by decide : main_arg1 ∉ hostOps1_W)
    _ = W1 m c (Proc.devRef .tc main_arg1) := W2_of_ne m c main_arg1 (by decide)
    _ = W0 m c (Proc.devRef .tc main_arg1) := StableHlo.after_of_writes_sub hostOps0 _ hostOps0_writes (by decide : main_arg1 ∉ hostOps0_W)
    _ = m ((c : Thread nD τ).loc main_arg1) := rfl

theorem W8_main_arg2 (c : Dev nD) : W8 m c (Proc.devRef .tc main_arg2) = m ((c : Thread nD τ).loc main_arg2) :=
  calc W8 m c (Proc.devRef .tc main_arg2)
    _ = W7 m c (Proc.devRef .tc main_arg2) := StableHlo.after_of_writes_sub hostOps2 _ hostOps2_writes (by decide : main_arg2 ∉ hostOps2_W)
    _ = W6 m c (Proc.devRef .tc main_arg2) := W7_of_ne m c main_arg2 (by decide)
    _ = W5 m c (Proc.devRef .tc main_arg2) := StableHlo.after_of_writes_sub hostOps1_3 _ hostOps1_3_writes (by decide : main_arg2 ∉ hostOps1_3_W)
    _ = W4 m c (Proc.devRef .tc main_arg2) := StableHlo.after_of_writes_sub hostOps1_2 _ hostOps1_2_writes (by decide : main_arg2 ∉ hostOps1_2_W)
    _ = W3 m c (Proc.devRef .tc main_arg2) := StableHlo.after_of_writes_sub hostOps1_1 _ hostOps1_1_writes (by decide : main_arg2 ∉ hostOps1_1_W)
    _ = W2 m c (Proc.devRef .tc main_arg2) := StableHlo.after_of_writes_sub hostOps1 _ hostOps1_writes (by decide : main_arg2 ∉ hostOps1_W)
    _ = W1 m c (Proc.devRef .tc main_arg2) := (W2_arr m c 1).trans (((dat0 (V1 m) c).arrAt_in 1 rfl _).trans (A_eq0 (V1 m) c 1))
    _ = W0 m c (Proc.devRef .tc main_arg2) := StableHlo.after_of_writes_sub hostOps0 _ hostOps0_writes (by decide : main_arg2 ∉ hostOps0_W)
    _ = m ((c : Thread nD τ).loc main_arg2) := rfl

theorem W8_main_arg3 (c : Dev nD) : W8 m c (Proc.devRef .tc main_arg3) = m ((c : Thread nD τ).loc main_arg3) :=
  calc W8 m c (Proc.devRef .tc main_arg3)
    _ = W7 m c (Proc.devRef .tc main_arg3) := StableHlo.after_of_writes_sub hostOps2 _ hostOps2_writes (by decide : main_arg3 ∉ hostOps2_W)
    _ = W6 m c (Proc.devRef .tc main_arg3) := W7_of_ne m c main_arg3 (by decide)
    _ = W5 m c (Proc.devRef .tc main_arg3) := StableHlo.after_of_writes_sub hostOps1_3 _ hostOps1_3_writes (by decide : main_arg3 ∉ hostOps1_3_W)
    _ = W4 m c (Proc.devRef .tc main_arg3) := StableHlo.after_of_writes_sub hostOps1_2 _ hostOps1_2_writes (by decide : main_arg3 ∉ hostOps1_2_W)
    _ = W3 m c (Proc.devRef .tc main_arg3) := StableHlo.after_of_writes_sub hostOps1_1 _ hostOps1_1_writes (by decide : main_arg3 ∉ hostOps1_1_W)
    _ = W2 m c (Proc.devRef .tc main_arg3) := StableHlo.after_of_writes_sub hostOps1 _ hostOps1_writes (by decide : main_arg3 ∉ hostOps1_W)
    _ = W1 m c (Proc.devRef .tc main_arg3) := W2_of_ne m c main_arg3 (by decide)
    _ = W0 m c (Proc.devRef .tc main_arg3) := StableHlo.after_of_writes_sub hostOps0 _ hostOps0_writes (by decide : main_arg3 ∉ hostOps0_W)
    _ = m ((c : Thread nD τ).loc main_arg3) := rfl

theorem W8_main_arg4 (c : Dev nD) : W8 m c (Proc.devRef .tc main_arg4) = m ((c : Thread nD τ).loc main_arg4) :=
  calc W8 m c (Proc.devRef .tc main_arg4)
    _ = W7 m c (Proc.devRef .tc main_arg4) := StableHlo.after_of_writes_sub hostOps2 _ hostOps2_writes (by decide : main_arg4 ∉ hostOps2_W)
    _ = W6 m c (Proc.devRef .tc main_arg4) := W7_of_ne m c main_arg4 (by decide)
    _ = W5 m c (Proc.devRef .tc main_arg4) := StableHlo.after_of_writes_sub hostOps1_3 _ hostOps1_3_writes (by decide : main_arg4 ∉ hostOps1_3_W)
    _ = W4 m c (Proc.devRef .tc main_arg4) := StableHlo.after_of_writes_sub hostOps1_2 _ hostOps1_2_writes (by decide : main_arg4 ∉ hostOps1_2_W)
    _ = W3 m c (Proc.devRef .tc main_arg4) := StableHlo.after_of_writes_sub hostOps1_1 _ hostOps1_1_writes (by decide : main_arg4 ∉ hostOps1_1_W)
    _ = W2 m c (Proc.devRef .tc main_arg4) := StableHlo.after_of_writes_sub hostOps1 _ hostOps1_writes (by decide : main_arg4 ∉ hostOps1_W)
    _ = W1 m c (Proc.devRef .tc main_arg4) := (W2_arr m c 3).trans (((dat0 (V1 m) c).arrAt_in 3 rfl _).trans (A_eq0 (V1 m) c 3))
    _ = W0 m c (Proc.devRef .tc main_arg4) := StableHlo.after_of_writes_sub hostOps0 _ hostOps0_writes (by decide : main_arg4 ∉ hostOps0_W)
    _ = m ((c : Thread nD τ).loc main_arg4) := rfl

theorem W8_main_arg5 (c : Dev nD) : W8 m c (Proc.devRef .tc main_arg5) = m ((c : Thread nD τ).loc main_arg5) :=
  calc W8 m c (Proc.devRef .tc main_arg5)
    _ = W7 m c (Proc.devRef .tc main_arg5) := StableHlo.after_of_writes_sub hostOps2 _ hostOps2_writes (by decide : main_arg5 ∉ hostOps2_W)
    _ = W6 m c (Proc.devRef .tc main_arg5) := W7_of_ne m c main_arg5 (by decide)
    _ = W5 m c (Proc.devRef .tc main_arg5) := StableHlo.after_of_writes_sub hostOps1_3 _ hostOps1_3_writes (by decide : main_arg5 ∉ hostOps1_3_W)
    _ = W4 m c (Proc.devRef .tc main_arg5) := StableHlo.after_of_writes_sub hostOps1_2 _ hostOps1_2_writes (by decide : main_arg5 ∉ hostOps1_2_W)
    _ = W3 m c (Proc.devRef .tc main_arg5) := StableHlo.after_of_writes_sub hostOps1_1 _ hostOps1_1_writes (by decide : main_arg5 ∉ hostOps1_1_W)
    _ = W2 m c (Proc.devRef .tc main_arg5) := StableHlo.after_of_writes_sub hostOps1 _ hostOps1_writes (by decide : main_arg5 ∉ hostOps1_W)
    _ = W1 m c (Proc.devRef .tc main_arg5) := W2_of_ne m c main_arg5 (by decide)
    _ = W0 m c (Proc.devRef .tc main_arg5) := StableHlo.after_of_writes_sub hostOps0 _ hostOps0_writes (by decide : main_arg5 ∉ hostOps0_W)
    _ = m ((c : Thread nD τ).loc main_arg5) := rfl

theorem W8_main_arg6 (c : Dev nD) : W8 m c (Proc.devRef .tc main_arg6) = m ((c : Thread nD τ).loc main_arg6) :=
  calc W8 m c (Proc.devRef .tc main_arg6)
    _ = W7 m c (Proc.devRef .tc main_arg6) := StableHlo.after_of_writes_sub hostOps2 _ hostOps2_writes (by decide : main_arg6 ∉ hostOps2_W)
    _ = W6 m c (Proc.devRef .tc main_arg6) := W7_of_ne m c main_arg6 (by decide)
    _ = W5 m c (Proc.devRef .tc main_arg6) := StableHlo.after_of_writes_sub hostOps1_3 _ hostOps1_3_writes (by decide : main_arg6 ∉ hostOps1_3_W)
    _ = W4 m c (Proc.devRef .tc main_arg6) := StableHlo.after_of_writes_sub hostOps1_2 _ hostOps1_2_writes (by decide : main_arg6 ∉ hostOps1_2_W)
    _ = W3 m c (Proc.devRef .tc main_arg6) := StableHlo.after_of_writes_sub hostOps1_1 _ hostOps1_1_writes (by decide : main_arg6 ∉ hostOps1_1_W)
    _ = W2 m c (Proc.devRef .tc main_arg6) := StableHlo.after_of_writes_sub hostOps1 _ hostOps1_writes (by decide : main_arg6 ∉ hostOps1_W)
    _ = W1 m c (Proc.devRef .tc main_arg6) := W2_of_ne m c main_arg6 (by decide)
    _ = W0 m c (Proc.devRef .tc main_arg6) := StableHlo.after_of_writes_sub hostOps0 _ hostOps0_writes (by decide : main_arg6 ∉ hostOps0_W)
    _ = m ((c : Thread nD τ).loc main_arg6) := rfl

theorem W8_main_arg7 (c : Dev nD) : W8 m c (Proc.devRef .tc main_arg7) = m ((c : Thread nD τ).loc main_arg7) :=
  calc W8 m c (Proc.devRef .tc main_arg7)
    _ = W7 m c (Proc.devRef .tc main_arg7) := StableHlo.after_of_writes_sub hostOps2 _ hostOps2_writes (by decide : main_arg7 ∉ hostOps2_W)
    _ = W6 m c (Proc.devRef .tc main_arg7) := W7_of_ne m c main_arg7 (by decide)
    _ = W5 m c (Proc.devRef .tc main_arg7) := StableHlo.after_of_writes_sub hostOps1_3 _ hostOps1_3_writes (by decide : main_arg7 ∉ hostOps1_3_W)
    _ = W4 m c (Proc.devRef .tc main_arg7) := StableHlo.after_of_writes_sub hostOps1_2 _ hostOps1_2_writes (by decide : main_arg7 ∉ hostOps1_2_W)
    _ = W3 m c (Proc.devRef .tc main_arg7) := StableHlo.after_of_writes_sub hostOps1_1 _ hostOps1_1_writes (by decide : main_arg7 ∉ hostOps1_1_W)
    _ = W2 m c (Proc.devRef .tc main_arg7) := StableHlo.after_of_writes_sub hostOps1 _ hostOps1_writes (by decide : main_arg7 ∉ hostOps1_W)
    _ = W1 m c (Proc.devRef .tc main_arg7) := W2_of_ne m c main_arg7 (by decide)
    _ = W0 m c (Proc.devRef .tc main_arg7) := StableHlo.after_of_writes_sub hostOps0 _ hostOps0_writes (by decide : main_arg7 ∉ hostOps0_W)
    _ = m ((c : Thread nD τ).loc main_arg7) := rfl

/-! ## The proof data family, the thread state, the segments -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V6 m) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (adm (F := F) 0).1 ∗ Pipeline.scopedRest (Pipeline.pin (pcfgs (F := F)) adm 0).spec c) : sProp 𝕄)
        ⊢ (Pipeline.ΦA spec0 c : sProp 𝕄) := by
      unfold Pipeline.ΦA
      iintro ⟨Hp, -, Hr⟩
      isplitl [Hr]; · iexact Hr
      iexact Hp
    exact h.trans (hin0 (V1 m) c)
  hout c := by
    rw [Pipeline.ownSems0_none]
    have h : (Pipeline.ΦA spec0 c : sProp 𝕄)
        ⊢ (iprop((∃ r, prngReg c r) ∗ BI.emp ∗ Pipeline.scopedRest (Pipeline.pin (pcfgs (F := F)) adm 0).spec c) : sProp 𝕄) := by
      unfold Pipeline.ΦA
      iintro ⟨Hr, Hp⟩
      isplitl [Hp]; · iexact Hp
      isplitr; · iempintro
      iexact Hr
    exact (hout0 (V1 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (V6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V6 m c) (V7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .region (reg1 m),
    .host (hseg hostOps2 hostOps2_sub hostOps2_fresh (W7 m)) ]

/-! ## The run -/

set_option backward.isDefEq.respectTransparency.types false in
/-- From any memory with zero counters every weakly fair execution of @main terminates, nothing faulting, and
    every unscoped buffer of every core ends at the last fold's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W8 m c))
    (hch := ⟨fun _ => .rfl, fun _ => .rfl, fun _ => .rfl, fun _ => .rfl, fun _ => .rfl, fun _ => .rfl, fun _ => .rfl, fun _ => .rfl,
      fun c => sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨Hh, HSI⟩
      unfold StableHlo.held
      imodintro
      iapply (pointsTo_read_all (Pipeline.ucRefs τ sig) (fun b => (((c : Thread nD τ)).1, b)) (W8 m c) s')
      isplitl [Hh] <;> iassumption)
    (hQ := fun s h => h)

/-- The frame: every argument array ends holding its launch contents. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c),
     (h c _ (mem_uc main_arg6 (by decide))).trans (W8_main_arg6 m c),
     (h c _ (mem_uc main_arg7 (by decide))).trans (W8_main_arg7 m c)⟩) (run_all m ρ)

end Cert.KernelIdeal.Fr

end
-- ==== Proof.KI.Pieces0.lean ====
/-
  What region 0's three cases leave, as values. Every access of the body is a whole buffer, so a load
  reads the buffer's contents as they are and a store replaces them. Hence: at time block 0 the
  accumulator ends at the update of the point's input blocks over the zero reset value (the reset store
  is read back by the update's load); at the other time blocks at the update over what the point before
  left; and at time block 7 the output block receives exactly the accumulator's new contents.
-/
import proofs.«104422_j25443386262310_1_alg».proof.Proof.KI.Reg0
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := by funext a; fin_cases a <;> rfl
theorem hz3 : (![0, 0, 0] : Fin 3 → Nat) = fun _ => 0 := by funext a; fin_cases a <;> rfl

theorem sout0_A_0_eq (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : cond0_0 i) (hc1 : ¬cond0_1 i)
    (x0 : Vec F S32x1024x16 .f32) (x1 : Vec F S16x1 .f32) (x2 : Vec F S1x1 .f32) (x3 : Vec F S16x16 .f32) (x4 : Vec F S1x16 .f32) :
    sout0_A_0 c i arg2 harg2 arg3 harg3 arg4 harg4 arg5 harg5 arg6 harg6 arg7 harg7 arg8 harg8 hc0 hc1 x0 x1 x2 x3 x4 = k0_pay2 x0 x1 x3 x2 x4 (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S32x16) hz2]
  simp only [View.readAt_eq_ld, harg2.read_unread, harg3.read_unread, harg4.read_unread, harg5.read_unread, harg6.read_unread, harg8.read_unread,
    View.ld_unit_zero (S := S32x1024x16) hz3, View.ld_unit_zero (S := S16x1) hz2, View.ld_unit_zero (S := S1x1) hz2, View.ld_unit_zero (S := S16x16) hz2, View.ld_unit_zero (S := S1x16) hz2, View.ld_unit_zero (S := S32x16) hz2,
    View.readCov_unit_zero (S := S32x16) _ hz2]

theorem sout0_B_0_eq (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : ¬cond0_0 i) (hc1 : ¬cond0_1 i)
    (x0 : Vec F S32x1024x16 .f32) (x1 : Vec F S16x1 .f32) (x2 : Vec F S1x1 .f32) (x3 : Vec F S16x16 .f32) (x4 : Vec F S1x16 .f32) (xs0 : Vec F S32x16 .f32) :
    sout0_B_0 c i arg2 harg2 arg3 harg3 arg4 harg4 arg5 harg5 arg6 harg6 arg7 harg7 arg8 harg8 hc0 hc1 x0 x1 x2 x3 x4 xs0 = k0_pay2 x0 x1 x3 x2 x4 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero (S := S32x16) hz2]
  simp only [View.readAt_eq_ld, harg2.read_unread, harg3.read_unread, harg4.read_unread, harg5.read_unread, harg6.read_unread, harg8.read_unread,
    View.ld_unit_zero (S := S32x1024x16) hz3, View.ld_unit_zero (S := S16x1) hz2, View.ld_unit_zero (S := S1x1) hz2, View.ld_unit_zero (S := S16x16) hz2, View.ld_unit_zero (S := S1x16) hz2, View.ld_unit_zero (S := S32x16) hz2,
    View.readCov_unit_zero (S := S32x16) _ hz2]

theorem sout0_C_0_eq (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : ¬cond0_0 i) (hc1 : cond0_1 i)
    (x0 : Vec F S32x1024x16 .f32) (x1 : Vec F S16x1 .f32) (x2 : Vec F S1x1 .f32) (x3 : Vec F S16x16 .f32) (x4 : Vec F S1x16 .f32) (xs0 : Vec F S32x16 .f32) :
    sout0_C_0 c i arg2 harg2 arg3 harg3 arg4 harg4 arg5 harg5 arg6 harg6 arg7 harg7 arg8 harg8 hc0 hc1 x0 x1 x2 x3 x4 xs0 = k0_pay2 x0 x1 x3 x2 x4 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero (S := S32x16) hz2]
  simp only [View.readAt_eq_ld, harg2.read_unread, harg3.read_unread, harg4.read_unread, harg5.read_unread, harg6.read_unread, harg8.read_unread,
    View.ld_unit_zero (S := S32x1024x16) hz3, View.ld_unit_zero (S := S16x1) hz2, View.ld_unit_zero (S := S1x1) hz2, View.ld_unit_zero (S := S16x16) hz2, View.ld_unit_zero (S := S1x16) hz2, View.ld_unit_zero (S := S32x16) hz2,
    View.readCov_unit_zero (S := S32x16) _ hz2]

theorem out0_C_5_eq (c : Dev nD) (i : grid0.Coords) (arg2 : Memref sig .tc .vmem S32x1024x16 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S16x16 .f32) (harg5 : arg5.IsWhole) (arg6 : Memref sig .tc .vmem S1x16 .f32) (harg6 : arg6.IsWhole) (arg7 : Memref sig .tc .vmem S32x16 .f32) (harg7 : arg7.IsWhole) (arg8 : Memref sig .tc .vmem S32x16 .f32) (harg8 : arg8.IsWhole) (hc0 : ¬cond0_0 i) (hc1 : cond0_1 i)
    (x0 : Vec F S32x1024x16 .f32) (x1 : Vec F S16x1 .f32) (x2 : Vec F S1x1 .f32) (x3 : Vec F S16x16 .f32) (x4 : Vec F S1x16 .f32) (xs0 : Vec F S32x16 .f32) :
    out0_C_5 c i arg2 harg2 arg3 harg3 arg4 harg4 arg5 harg5 arg6 harg6 arg7 harg7 arg8 harg8 hc0 hc1 x0 x1 x2 x3 x4 xs0 = k0_pay2 x0 x1 x3 x2 x4 xs0 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero (S := S32x16) hz2]
  simp only [View.readAt_eq_ld, harg2.read_unread, harg3.read_unread, harg4.read_unread, harg5.read_unread, harg6.read_unread, harg8.read_unread,
    View.ld_unit_zero (S := S32x1024x16) hz3, View.ld_unit_zero (S := S16x1) hz2, View.ld_unit_zero (S := S1x1) hz2, View.ld_unit_zero (S := S16x16) hz2, View.ld_unit_zero (S := S1x16) hz2, View.ld_unit_zero (S := S32x16) hz2,
    View.readCov_unit_zero (S := S32x16) _ hz2]

end Cert.KernelIdeal.Fr

end
-- ==== Proof.LibPlainMatmul.lean ====
/-
  A plain matrix product read at an index, at the ideal values.

  For dimension numbers `d` over shapes [M, K] × [K, N] → [M, N] that contract the left operand's axis 1 with the right
  operand's axis 0 and keep the left rows and the right columns — stated here as the four facts about the record's index
  maps that say so, so that the lemma serves any record, whatever its generated name — the product accumulated into the
  zero splat, read at `(p, o)`, is `∑ k, A (p, k) · B (k, o)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainMatmul

/-- `FloatOps.matmul d prec A B 0 (p, o) = ∑ k : Fin K, A (p, k) * B (k, o)` for a record `d` with one contracted axis of
    extent `K` whose left index at `(i, q)` is `(i 0, q)` and whose right index is `(q, i 1)` (`hl0`, `hl1`, `hr0`, `hr1`:
    for a generated record the first and last are a `dif_neg` / `dif_pos` on its literal axis lists, the middle two are
    `DotDims.lhsIdx_val_of_single` / `rhsIdx_val_of_single`). -/
theorem matmul_zero_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainMatmul

end
-- ==== Proof.KI.Pay.lean ====
/-
  The kernels' arithmetic read at an index, on the extended reals.
  Region 0's reset value is zero everywhere. Its update, from a block of 32 rows × 1024 time steps × 16
  embedding entries, the gate and candidate weights and biases, and the accumulator's previous contents,
  is at (r, h) the previous entry plus the sum over the block's 1024 time steps of
  logistic(x · Wg + bg) · tanh((x · Wu)_h + bu_h): the row-major flattening of (row, step) into 32768
  matmul rows and back is a bijection, a matmul into zero is the plain sum over the contraction index, a
  change of float format is the identity, and a lane sum is a finite sum.
  Region 1's value at (b, n) is  Σ_k m[b, k] · w[k, n] + bias[0, n].
-/
import proofs.«104422_j25443386262310_1_alg».proof.Proof.Gen.KernelIdeal.Skeleton
import proofs.«104422_j25443386262310_1_alg».proof.Proof.LibPlainMatmul
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Idealize.ShloMosaic Idealize.ShloMosaic.TcCoe Idealize.ShloMosaic.ValueIdx
open Idealize.SL Idealize.SL.Sem
open Cert.KernelIdeal Cert.KernelIdeal.Gen
open scoped BigOperators

/-! ## The index maps of region 0's gate product, [32768, 16] × [16, 1]

The product keeps the left operand's rows and the right operand's columns and contracts the left operand's axis 1 with
the right operand's axis 0. The four lemmas below read the two index maps of its dimension numbers on each axis. -/

/-- On axis 0 the left index at a result index and a contraction index is the result's row. -/
theorem dotGate_l0 (i : S32768x1.Idx) (q : dot_S32768x16_S16x1_S32768x1_1_0_0_1_n_n.contr.Idx) :
    (dot_S32768x16_S16x1_S32768x1_1_0_0_1_n_n.lhsIdx i q 0).val = (i 0).val := by
  unfold DotDims.lhsIdx
  rw [dif_neg (show ¬(0 : Fin S32768x16.rank) ∈ dot_S32768x16_S16x1_S32768x1_1_0_0_1_n_n.lhsBatch by decide), dif_pos (show (0 : Fin S32768x16.rank) ∈ dot_S32768x16_S16x1_S32768x1_1_0_0_1_n_n.lhsNonContracting by decide)]
  rfl
/-- On axis 1 the left index is the contraction coordinate. -/
theorem dotGate_l1 (i : S32768x1.Idx) (q : dot_S32768x16_S16x1_S32768x1_1_0_0_1_n_n.contr.Idx) :
    (dot_S32768x16_S16x1_S32768x1_1_0_0_1_n_n.lhsIdx i q 1).val = (q ⟨0, by decide⟩).val :=
  dot_S32768x16_S16x1_S32768x1_1_0_0_1_n_n.lhsIdx_val_of_single rfl i q
/-- On axis 0 the right index is the contraction coordinate. -/
theorem dotGate_r0 (i : S32768x1.Idx) (q : dot_S32768x16_S16x1_S32768x1_1_0_0_1_n_n.contr.Idx) :
    (dot_S32768x16_S16x1_S32768x1_1_0_0_1_n_n.rhsIdx i q 0).val = (q ⟨0, by decide⟩).val :=
  dot_S32768x16_S16x1_S32768x1_1_0_0_1_n_n.rhsIdx_val_of_single rfl i q
/-- On axis 1 the right index is the result's column. -/
theorem dotGate_r1 (i : S32768x1.Idx) (q : dot_S32768x16_S16x1_S32768x1_1_0_0_1_n_n.contr.Idx) :
    (dot_S32768x16_S16x1_S32768x1_1_0_0_1_n_n.rhsIdx i q 1).val = (i 1).val := by
  unfold DotDims.rhsIdx
  rw [dif_neg (show ¬(1 : Fin S16x1.rank) ∈ dot_S32768x16_S16x1_S32768x1_1_0_0_1_n_n.rhsBatch by decide), dif_pos (show (1 : Fin S16x1.rank) ∈ dot_S32768x16_S16x1_S32768x1_1_0_0_1_n_n.rhsNonContracting by decide)]
  rfl

/-! ## The index maps of region 0's candidate product, [32768, 16] × [16, 16]

The product keeps the left operand's rows and the right operand's columns and contracts the left operand's axis 1 with
the right operand's axis 0. The four lemmas below read the two index maps of its dimension numbers on each axis. -/

/-- On axis 0 the left index at a result index and a contraction index is the result's row. -/
theorem dotCand_l0 (i : S32768x16.Idx) (q : dot_S32768x16_S16x16_S32768x16_1_0_0_1_n_n.contr.Idx) :
    (dot_S32768x16_S16x16_S32768x16_1_0_0_1_n_n.lhsIdx i q 0).val = (i 0).val := by
  unfold DotDims.lhsIdx
  rw [dif_neg (show ¬(0 : Fin S32768x16.rank) ∈ dot_S32768x16_S16x16_S32768x16_1_0_0_1_n_n.lhsBatch by decide), dif_pos (show (0 : Fin S32768x16.rank) ∈ dot_S32768x16_S16x16_S32768x16_1_0_0_1_n_n.lhsNonContracting by decide)]
  rfl
/-- On axis 1 the left index is the contraction coordinate. -/
theorem dotCand_l1 (i : S32768x16.Idx) (q : dot_S32768x16_S16x16_S32768x16_1_0_0_1_n_n.contr.Idx) :
    (dot_S32768x16_S16x16_S32768x16_1_0_0_1_n_n.lhsIdx i q 1).val = (q ⟨0, by decide⟩).val :=
  dot_S32768x16_S16x16_S32768x16_1_0_0_1_n_n.lhsIdx_val_of_single rfl i q
/-- On axis 0 the right index is the contraction coordinate. -/
theorem dotCand_r0 (i : S32768x16.Idx) (q : dot_S32768x16_S16x16_S32768x16_1_0_0_1_n_n.contr.Idx) :
    (dot_S32768x16_S16x16_S32768x16_1_0_0_1_n_n.rhsIdx i q 0).val = (q ⟨0, by decide⟩).val :=
  dot_S32768x16_S16x16_S32768x16_1_0_0_1_n_n.rhsIdx_val_of_single rfl i q
/-- On axis 1 the right index is the result's column. -/
theorem dotCand_r1 (i : S32768x16.Idx) (q : dot_S32768x16_S16x16_S32768x16_1_0_0_1_n_n.contr.Idx) :
    (dot_S32768x16_S16x16_S32768x16_1_0_0_1_n_n.rhsIdx i q 1).val = (i 1).val := by
  unfold DotDims.rhsIdx
  rw [dif_neg (show ¬(1 : Fin S16x16.rank) ∈ dot_S32768x16_S16x16_S32768x16_1_0_0_1_n_n.rhsBatch by decide), dif_pos (show (1 : Fin S16x16.rank) ∈ dot_S32768x16_S16x16_S32768x16_1_0_0_1_n_n.rhsNonContracting by decide)]
  rfl

/-! ## The index maps of region 1's product, [256, 16] × [16, 1024]

The product keeps the left operand's rows and the right operand's columns and contracts the left operand's axis 1 with
the right operand's axis 0. The four lemmas below read the two index maps of its dimension numbers on each axis. -/

/-- On axis 0 the left index at a result index and a contraction index is the result's row. -/
theorem dotOut_l0 (i : S256x1024.Idx) (q : dot_S256x16_S16x1024_S256x1024_1_0_0_1_n_n.contr.Idx) :
    (dot_S256x16_S16x1024_S256x1024_1_0_0_1_n_n.lhsIdx i q 0).val = (i 0).val := by
  unfold DotDims.lhsIdx
  rw [dif_neg (show ¬(0 : Fin S256x16.rank) ∈ dot_S256x16_S16x1024_S256x1024_1_0_0_1_n_n.lhsBatch by decide), dif_pos (show (0 : Fin S256x16.rank) ∈ dot_S256x16_S16x1024_S256x1024_1_0_0_1_n_n.lhsNonContracting by decide)]
  rfl
/-- On axis 1 the left index is the contraction coordinate. -/
theorem dotOut_l1 (i : S256x1024.Idx) (q : dot_S256x16_S16x1024_S256x1024_1_0_0_1_n_n.contr.Idx) :
    (dot_S256x16_S16x1024_S256x1024_1_0_0_1_n_n.lhsIdx i q 1).val = (q ⟨0, by decide⟩).val :=
  dot_S256x16_S16x1024_S256x1024_1_0_0_1_n_n.lhsIdx_val_of_single rfl i q
/-- On axis 0 the right index is the contraction coordinate. -/
theorem dotOut_r0 (i : S256x1024.Idx) (q : dot_S256x16_S16x1024_S256x1024_1_0_0_1_n_n.contr.Idx) :
    (dot_S256x16_S16x1024_S256x1024_1_0_0_1_n_n.rhsIdx i q 0).val = (q ⟨0, by decide⟩).val :=
  dot_S256x16_S16x1024_S256x1024_1_0_0_1_n_n.rhsIdx_val_of_single rfl i q
/-- On axis 1 the right index is the result's column. -/
theorem dotOut_r1 (i : S256x1024.Idx) (q : dot_S256x16_S16x1024_S256x1024_1_0_0_1_n_n.contr.Idx) :
    (dot_S256x16_S16x1024_S256x1024_1_0_0_1_n_n.rhsIdx i q 1).val = (i 1).val := by
  unfold DotDims.rhsIdx
  rw [dif_neg (show ¬(1 : Fin S16x1024.rank) ∈ dot_S256x16_S16x1024_S256x1024_1_0_0_1_n_n.rhsBatch by decide), dif_pos (show (1 : Fin S16x1024.rank) ∈ dot_S256x16_S16x1024_S256x1024_1_0_0_1_n_n.rhsNonContracting by decide)]
  rfl

/-! ## The layout operations and the lane sum of region 0, read at an index -/

/-- The matmul row that holds time step s of block row r: the row-major position of (r, s) in a 32 × 1024 grid. -/
def rowOf (r : Fin 32) (s : Fin 1024) : Fin 32768 := ⟨1024 * r.val + s.val, by have := r.isLt; have := s.isLt; omega⟩

/-- The flattening of a [32, 1024, 16] vector to [32768, 16] read at row 1024·r + s is the vector at (r, s, ·). -/
theorem flatten_apply {α : Type} (x : S32x1024x16.Idx → α) (r : Fin 32) (s : Fin 1024) (k : Fin 16) :
    shapeCast S32768x16 x shapeCasts_S32x1024x16_S32768x16 (ix2 (rowOf r s) k) = x (ix3 r s k) :=
  shapeCast_apply x _ (ix2 (rowOf r s) k) (ix3 r s k) (by
    rw [Shape.rowMajor_val_three, Shape.rowMajor_val_two]
    show (r.val * 1024 + s.val) * 16 + k.val = (1024 * r.val + s.val) * 16 + k.val
    omega)

/-- The unflattening of a [32768, 16] vector to [32, 1024, 16] read at (r, s, ·) is the vector at row 1024·r + s. -/
theorem unflatten_apply {α : Type} (y : S32768x16.Idx → α) (r : Fin 32) (s : Fin 1024) (h : Fin 16) :
    shapeCast S32x1024x16 y shapeCasts_S32768x16_S32x1024x16 (ix3 r s h) = y (ix2 (rowOf r s) h) :=
  shapeCast_apply y _ (ix3 r s h) (ix2 (rowOf r s) h) (by
    rw [Shape.rowMajor_val_three, Shape.rowMajor_val_two]
    show (1024 * r.val + s.val) * 16 + h.val = (r.val * 1024 + s.val) * 16 + h.val
    omega)

/-- A [1, 1] vector broadcast to [32768, 1] reads its one entry everywhere. -/
theorem bcastScalar_apply {α : Type} (x : S1x1.Idx → α) (p : Fin 32768) :
    broadcastTo S32768x1 x broadcasts_S1x1_S32768x1 (ix2 p (0 : Fin 1)) = x (ix2 (0 : Fin 1) (0 : Fin 1)) :=
  broadcastTo_apply x _ _ _ (fun a => by match a with | ⟨0, _⟩ => rfl | ⟨1, _⟩ => rfl)

/-- A [1, 16] row broadcast to [32768, 16] reads the row's entry of the same column. -/
theorem bcastRow_apply {α : Type} (x : S1x16.Idx → α) (p : Fin 32768) (h : Fin 16) :
    broadcastTo S32768x16 x broadcasts_S1x16_S32768x16 (ix2 p h) = x (ix2 (0 : Fin 1) h) :=
  broadcastTo_apply x _ _ _ (fun a => by match a with | ⟨0, _⟩ => rfl | ⟨1, _⟩ => rfl)

/-- A [32768, 1] column broadcast to [32768, 16] reads the column's entry of the same row. -/
theorem bcastCol_apply {α : Type} (x : S32768x1.Idx → α) (p : Fin 32768) (h : Fin 16) :
    broadcastTo S32768x16 x broadcasts_S32768x1_S32768x16 (ix2 p h) = x (ix2 p (0 : Fin 1)) :=
  broadcastTo_apply x _ _ _ (fun a => by match a with | ⟨0, _⟩ => rfl | ⟨1, _⟩ => rfl)

/-- The lane sum over the 1024 time steps of a [32, 1024, 16] vector, read at (r, h), is the finite sum over s of the
    vector at (r, s, h). -/
theorem laneSum_apply (v : FVec Ideal S32x1024x16 .f32) (r : Fin 32) (h : Fin 16) :
    multiReduction (F := Ideal) .add [1] S32x16 v 0x00000000#32 reduces_S32x1024x16_S32x16 (.inl rfl) rfl (ix2 r h)
      = ∑ s : Fin 1024, v (ix3 r s h) := by
  refine (Ideal.multiReduction_add_single v 0x00000000#32 reduces_S32x1024x16_S32x16 (.inl rfl) rfl (ix2 r h)).trans ?_
  refine Finset.sum_congr rfl fun s _ => congrArg v ?_
  exact funext fun a => Fin.ext (by match a with | ⟨0, _⟩ => rfl | ⟨1, _⟩ => rfl | ⟨2, _⟩ => rfl)

/-! ## The three payloads -/

/-- The reset value of region 0's accumulator is zero. -/
theorem pay1_apply (i : S32x16.Idx) : k0_pay1 (F := Ideal) i = 0 := by
  unfold k0_pay1
  rw [shapeCast_self, broadcast_apply]
  exact Ideal.ofBits_zero_f32

/-- Region 0's update at (r, h). -/
theorem pay2_apply (x0 : Vec Ideal S32x1024x16 .f32) (x1 : Vec Ideal S16x1 .f32) (x2 : Vec Ideal S1x1 .f32)
    (x3 : Vec Ideal S16x16 .f32) (x4 : Vec Ideal S1x16 .f32) (acc : Vec Ideal S32x16 .f32) (r : Fin 32) (h : Fin 16) :
    k0_pay2 (F := Ideal) x0 x1 x3 x2 x4 acc (ix2 r h)
      = acc (ix2 r h) + ∑ s : Fin 1024,
          (Ideal.logistic ((∑ k : Fin 16, x0 (ix3 r s k) * x1 (ix2 k (0 : Fin 1))) + x2 (ix2 (0 : Fin 1) (0 : Fin 1)))
            * Ideal.tanh ((∑ k : Fin 16, x0 (ix3 r s k) * x3 (ix2 k h)) + x4 (ix2 (0 : Fin 1) h))) := by
  unfold k0_pay2
  rw [shapeCast_self, addf_apply]
  refine congrArg (acc (ix2 r h) + ·) ?_
  refine (laneSum_apply _ r h).trans (Finset.sum_congr rfl fun s _ => ?_)
  rw [unflatten_apply, mulf_apply, bcastCol_apply, shapeCast_self, shapeCast_self, shapeCast_self]
  refine congrArg₂ (· * ·) (congrArg Ideal.logistic ?_) (congrArg Ideal.tanh ?_)
  · rw [addf_apply, bcastScalar_apply]
    refine congrArg (· + x2 (ix2 (0 : Fin 1) (0 : Fin 1))) ?_
    refine (Cert.LibPlainMatmul.matmul_zero_apply dot_S32768x16_S16x1_S32768x1_1_0_0_1_n_n none rfl rfl
      dotGate_l0 dotGate_l1 dotGate_r0 dotGate_r1 _ _ (rowOf r s) (0 : Fin 1)).trans ?_
    refine Finset.sum_congr rfl fun k _ => ?_
    rw [flatten_apply]
    rfl
  · rw [addf_apply, bcastRow_apply]
    refine congrArg (· + x4 (ix2 (0 : Fin 1) h)) ?_
    refine (Cert.LibPlainMatmul.matmul_zero_apply dot_S32768x16_S16x16_S32768x16_1_0_0_1_n_n none rfl rfl
      dotCand_l0 dotCand_l1 dotCand_r0 dotCand_r1 _ _ (rowOf r s) h).trans ?_
    refine Finset.sum_congr rfl fun k _ => ?_
    rw [flatten_apply]
    rfl

/-- Region 1's value at (b, n). -/
theorem pay1k_apply (v0 : Vec Ideal S256x16 .f32) (v3 : Vec Ideal S16x1024 .f32) (v7 : Vec Ideal S1x1024 .f32)
    (b : Fin 256) (n : Fin 1024) :
    k1_pay1 (F := Ideal) v0 v3 v7 (ix2 b n) = (∑ k : Fin 16, v0 (ix2 b k) * v3 (ix2 k n)) + v7 (ix2 (0 : Fin 1) n) := by
  unfold k1_pay1
  rw [addf_apply, shapeCast_self, shapeCast_self, shapeCast_self]
  refine congrArg₂ (· + ·) ?_ ?_
  · exact Cert.LibPlainMatmul.matmul_zero_apply dot_S256x16_S16x1024_S256x1024_1_0_0_1_n_n none rfl rfl
      dotOut_l0 dotOut_l1 dotOut_r0 dotOut_r1 (truncf .bf16 v0 bitsLt_bf16_f32) (truncf .bf16 v3 bitsLt_bf16_f32) b n
  · exact broadcastTo_apply v7 broadcasts_S1x1024_S256x1024 (ix2 b n) (ix2 (0 : Fin 1) n)
      (fun a => by match a with | ⟨0, _⟩ => rfl | ⟨1, _⟩ => rfl)

end Cert.KernelIdeal.Val

end
-- ==== Proof.KI.Blocks.lean ====
/-
  The windows' blocks read at an index. Region 0's point t = 8·b + j stages rows 32·b … 32·b + 31 and time
  steps 1024·j … 1024·j + 1023 of the gathered array, and the four small operands whole. Region 1's point
  n stages the accumulated memory whole and columns 1024·n … 1024·n + 1023 of the padded weight and bias.
  A block's coordinate is always (block index) × (block size) + (coordinate inside the block).
-/
import proofs.«104422_j25443386262310_1_alg».proof.Proof.KI.Reg0
import proofs.«104422_j25443386262310_1_alg».proof.Proof.KI.Reg1
import Idealize.ShloMosaic.Lib.ValueIdx
import Idealize.ShloMosaic.Lib.Pipeline.Value

set_option maxRecDepth 16384

noncomputable section

namespace Cert.KernelIdeal.Val

open Idealize.ShloMosaic Idealize.ShloMosaic.TcCoe Idealize.ShloMosaic.ValueIdx
open Idealize.SL Idealize.SL.Sem
open Cert.KernelIdeal Cert.KernelIdeal.Gen
open scoped BigOperators

open Cert.KernelIdeal.Fr

variable {F : FTy → Type} [FloatOps F]
variable (V : (c : Dev nD) → (b : Ref sig .tc) → Buf (Elt F) ((c : Thread nD τ).loc b))

/-! ## The arrays the two calls read, at their literal types -/

abbrev arr6 (c : Dev nD) : Vec F S256x8192x16 .f32 := V c main_v6
abbrev arr2 (c : Dev nD) : Vec F S16x1 .f32 := V c main_arg2
abbrev arr7 (c : Dev nD) : Vec F S1x1 .f32 := V c main_v7
abbrev arr4 (c : Dev nD) : Vec F S16x16 .f32 := V c main_arg4
abbrev arr8 (c : Dev nD) : Vec F S1x16 .f32 := V c main_v8
abbrev arr9 (c : Dev nD) : Vec F S256x16 .f32 := V c main_v9
abbrev arr10 (c : Dev nD) : Vec F S16x51200 .f32 := V c main_v10
abbrev arr12 (c : Dev nD) : Vec F S1x51200 .f32 := V c main_v12

/-! ## The block indices over the two grids -/

/-- Region 0's block indices at every grid point: the gathered array's block is at (t / 8, t % 8, 0) and
    the four small operands are single blocks at the origin. -/
theorem idx0 : ∀ t : Fin cfg0.N,
    win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Region 1's block indices at every grid point: the memory is a single block at the origin and the
    padded weight and bias have their block at (0, t). -/
theorem idx1 : ∀ t : Fin cfg1.N,
    win1_0.index t (0 : Fin 2) = 0 ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = t.val :=
  (by decide +kernel : ∀ t : Fin grid1.N, _)

/-! ## Region 0 -/

theorem iblk0_0_apply (c : Dev nD) (t : Fin cfg0.N) (r : Fin 32) (s : Fin 1024) (k : Fin 16) :
    (iblk0 V c 0 t : Vec F S32x1024x16 .f32) (ix3 r s k)
      = arr6 V c (ix3 (⟨32 * (t.val / 8) + r.val, by have := t.isLt; have : cfg0.N = 64 := N_0; omega⟩ : Fin 256) (⟨1024 * (t.val % 8) + s.val, by omega⟩ : Fin 8192) k) := by
  obtain ⟨e0, e1, e2, -⟩ := idx0 t
  show V c main_v6 (((cfg0.win 0).blk t).view.emb (ix3 r s k)) = V c main_v6 _
  refine congrArg (V c main_v6) ?_
  funext a; apply Fin.ext
  match a with
  | ⟨0, _⟩ => show win0_0.index t (0 : Fin 3) * 32 + 1 * r.val = 32 * (t.val / 8) + r.val; omega
  | ⟨1, _⟩ => show win0_0.index t (1 : Fin 3) * 1024 + 1 * s.val = 1024 * (t.val % 8) + s.val; omega
  | ⟨2, _⟩ => show win0_0.index t (2 : Fin 3) * 16 + 1 * k.val = k.val; omega

theorem iblk0_1_eq (c : Dev nD) (t : Fin cfg0.N) : (iblk0 V c 1 t : Vec F S16x1 .f32) = arr2 V c := by
  obtain ⟨-, -, -, e0, e1, -⟩ := idx0 t
  funext y
  show V c main_arg2 (((cfg0.win 1).blk t).view.emb y) = V c main_arg2 y
  refine congrArg (V c main_arg2) ?_
  funext a; apply Fin.ext
  match a with
  | ⟨0, _⟩ => show win0_1.index t (0 : Fin 2) * 16 + 1 * (y 0).val = (y 0).val; omega
  | ⟨1, _⟩ => show win0_1.index t (1 : Fin 2) * 1 + 1 * (y 1).val = (y 1).val; omega
theorem iblk0_2_eq (c : Dev nD) (t : Fin cfg0.N) : (iblk0 V c 2 t : Vec F S1x1 .f32) = arr7 V c := by
  obtain ⟨-, -, -, -, -, e0, e1, -⟩ := idx0 t
  funext y
  show V c main_v7 (((cfg0.win 2).blk t).view.emb y) = V c main_v7 y
  refine congrArg (V c main_v7) ?_
  funext a; apply Fin.ext
  match a with
  | ⟨0, _⟩ => show win0_2.index t (0 : Fin 2) * 1 + 1 * (y 0).val = (y 0).val; omega
  | ⟨1, _⟩ => show win0_2.index t (1 : Fin 2) * 1 + 1 * (y 1).val = (y 1).val; omega
theorem iblk0_3_eq (c : Dev nD) (t : Fin cfg0.N) : (iblk0 V c 3 t : Vec F S16x16 .f32) = arr4 V c := by
  obtain ⟨-, -, -, -, -, -, -, e0, e1, -⟩ := idx0 t
  funext y
  show V c main_arg4 (((cfg0.win 3).blk t).view.emb y) = V c main_arg4 y
  refine congrArg (V c main_arg4) ?_
  funext a; apply Fin.ext
  match a with
  | ⟨0, _⟩ => show win0_3.index t (0 : Fin 2) * 16 + 1 * (y 0).val = (y 0).val; omega
  | ⟨1, _⟩ => show win0_3.index t (1 : Fin 2) * 16 + 1 * (y 1).val = (y 1).val; omega
theorem iblk0_4_eq (c : Dev nD) (t : Fin cfg0.N) : (iblk0 V c 4 t : Vec F S1x16 .f32) = arr8 V c := by
  obtain ⟨-, -, -, -, -, -, -, -, -, e0, e1⟩ := idx0 t
  funext y
  show V c main_v8 (((cfg0.win 4).blk t).view.emb y) = V c main_v8 y
  refine congrArg (V c main_v8) ?_
  funext a; apply Fin.ext
  match a with
  | ⟨0, _⟩ => show win0_4.index t (0 : Fin 2) * 1 + 1 * (y 0).val = (y 0).val; omega
  | ⟨1, _⟩ => show win0_4.index t (1 : Fin 2) * 16 + 1 * (y 1).val = (y 1).val; omega

/-! ## Region 1 -/

theorem iblk1_0_eq (c : Dev nD) (t : Fin cfg1.N) : (iblk1 V c 0 t : Vec F S256x16 .f32) = arr9 V c := by
  obtain ⟨e0, e1, -⟩ := idx1 t
  funext y
  show V c main_v9 (((cfg1.win 0).blk t).view.emb y) = V c main_v9 y
  refine congrArg (V c main_v9) ?_
  funext a; apply Fin.ext
  match a with
  | ⟨0, _⟩ => show win1_0.index t (0 : Fin 2) * 256 + 1 * (y 0).val = (y 0).val; omega
  | ⟨1, _⟩ => show win1_0.index t (1 : Fin 2) * 16 + 1 * (y 1).val = (y 1).val; omega

theorem iblk1_1_apply (c : Dev nD) (t : Fin cfg1.N) (k : Fin 16) (n : Fin 1024) :
    (iblk1 V c 1 t : Vec F S16x1024 .f32) (ix2 k n)
      = arr10 V c (ix2 k (⟨1024 * t.val + n.val, by have := t.isLt; have : cfg1.N = 50 := N_1; omega⟩ : Fin 51200)) := by
  obtain ⟨-, -, e0, e1, -⟩ := idx1 t
  show V c main_v10 (((cfg1.win 1).blk t).view.emb (ix2 k n)) = V c main_v10 _
  refine congrArg (V c main_v10) ?_
  funext a; apply Fin.ext
  match a with
  | ⟨0, _⟩ => show win1_1.index t (0 : Fin 2) * 16 + 1 * k.val = k.val; omega
  | ⟨1, _⟩ => show win1_1.index t (1 : Fin 2) * 1024 + 1 * n.val = 1024 * t.val + n.val; omega

theorem iblk1_2_apply (c : Dev nD) (t : Fin cfg1.N) (n : Fin 1024) :
    (iblk1 V c 2 t : Vec F S1x1024 .f32) (ix2 (0 : Fin 1) n)
      = arr12 V c (ix2 (0 : Fin 1) (⟨1024 * t.val + n.val, by have := t.isLt; have : cfg1.N = 50 := N_1; omega⟩ : Fin 51200)) := by
  obtain ⟨-, -, -, -, e0, e1⟩ := idx1 t
  show V c main_v12 (((cfg1.win 2).blk t).view.emb (ix2 (0 : Fin 1) n)) = V c main_v12 _
  refine congrArg (V c main_v12) ?_
  funext a; apply Fin.ext
  match a with
  | ⟨0, _⟩ => show win1_2.index t (0 : Fin 2) * 1 + 1 * (0 : Fin 1).val = (0 : Fin 1).val; omega
  | ⟨1, _⟩ => show win1_2.index t (1 : Fin 2) * 1024 + 1 * n.val = 1024 * t.val + n.val; omega

end Cert.KernelIdeal.Val

end
-- ==== Proof.Spec.lean ====
/-
  What both programs compute, as one function of the argument arrays, on the extended reals.
  X is the gathered embedding array [256, 8192, 16] (both programs gather it by the same host lines, so
  it enters here as an array). For batch row b and hidden unit h the accumulated memory is the sum over
  the 8192 time steps t of  logistic(x_t · Wg + bg) · tanh((x_t · Wu)_h + bu_h),  and the result at
  (b, n) is  memory_b · Wo[:, n] + bo_n.  The kernel adds the time steps in eight blocks of 1024, each
  block's sum added to a running total; `firstSteps` is that running total, and on any commutative
  monoid it reaches the whole sum after eight blocks.
-/
import Idealize.ShloMosaic.PureOps.Ideal
import Idealize.ShloMosaic.PureOps.Ideal.Laws
import Idealize.ShloMosaic.Lib.ValueIdx
import Mathlib.Algebra.BigOperators.Intervals

noncomputable section

namespace Cert.Gated

open Idealize.ShloMosaic Idealize.ShloMosaic.ValueIdx
open scoped BigOperators

/-- One time step's contribution to hidden unit `h` of batch row `b`. -/
def term (X : (⟨3, ![256, 8192, 16]⟩ : Shape).Idx → EReal) (Wg : (⟨2, ![16, 1]⟩ : Shape).Idx → EReal)
    (bg : (⟨1, ![1]⟩ : Shape).Idx → EReal) (Wu : (⟨2, ![16, 16]⟩ : Shape).Idx → EReal) (bu : (⟨1, ![16]⟩ : Shape).Idx → EReal)
    (b : Fin 256) (t : Fin 8192) (h : Fin 16) : EReal :=
  Ideal.logistic ((∑ k : Fin 16, X (ix3 b t k) * Wg (ix2 k (0 : Fin 1))) + bg (ix1 (0 : Fin 1)))
    * Ideal.tanh ((∑ k : Fin 16, X (ix3 b t k) * Wu (ix2 k h)) + bu (ix1 h))

/-- The accumulated memory: the contributions of all 8192 time steps. -/
def mem (X : (⟨3, ![256, 8192, 16]⟩ : Shape).Idx → EReal) (Wg : (⟨2, ![16, 1]⟩ : Shape).Idx → EReal)
    (bg : (⟨1, ![1]⟩ : Shape).Idx → EReal) (Wu : (⟨2, ![16, 16]⟩ : Shape).Idx → EReal) (bu : (⟨1, ![16]⟩ : Shape).Idx → EReal)
    (b : Fin 256) (h : Fin 16) : EReal :=
  ∑ t : Fin 8192, term X Wg bg Wu bu b t h

/-- The result: the memory projected onto the vocabulary, plus the output bias. -/
def out (X : (⟨3, ![256, 8192, 16]⟩ : Shape).Idx → EReal) (Wg : (⟨2, ![16, 1]⟩ : Shape).Idx → EReal)
    (bg : (⟨1, ![1]⟩ : Shape).Idx → EReal) (Wu : (⟨2, ![16, 16]⟩ : Shape).Idx → EReal) (bu : (⟨1, ![16]⟩ : Shape).Idx → EReal)
    (Wo : (⟨2, ![16, 50257]⟩ : Shape).Idx → EReal) (bo : (⟨1, ![50257]⟩ : Shape).Idx → EReal) :
    (⟨2, ![256, 50257]⟩ : Shape).Idx → EReal :=
  fun i => (∑ k : Fin 16, mem X Wg bg Wu bu (i 0) k * Wo (ix2 k (i 1))) + bo (ix1 (i 1))

theorem out_apply (X : (⟨3, ![256, 8192, 16]⟩ : Shape).Idx → EReal) (Wg : (⟨2, ![16, 1]⟩ : Shape).Idx → EReal)
    (bg : (⟨1, ![1]⟩ : Shape).Idx → EReal) (Wu : (⟨2, ![16, 16]⟩ : Shape).Idx → EReal) (bu : (⟨1, ![16]⟩ : Shape).Idx → EReal)
    (Wo : (⟨2, ![16, 50257]⟩ : Shape).Idx → EReal) (bo : (⟨1, ![50257]⟩ : Shape).Idx → EReal) (b : Fin 256) (n : Fin 50257) :
    out X Wg bg Wu bu Wo bo (ix2 b n) = (∑ k : Fin 16, mem X Wg bg Wu bu b k * Wo (ix2 k n)) + bo (ix1 n) := rfl

/-! ## Eight blocks of 1024 time steps -/

section
variable {M : Type*} [AddCommMonoid M]

/-- The sum of the first `1024 · j` time steps. -/
def firstSteps (f : Fin 8192 → M) (j : ℕ) : M :=
  ∑ i ∈ Finset.range (1024 * j), if h : i < 8192 then f ⟨i, h⟩ else 0

theorem firstSteps_zero (f : Fin 8192 → M) : firstSteps f 0 = 0 := by
  simp [firstSteps]

/-- One more block: the running total plus the block's own sum. -/
theorem firstSteps_succ (f : Fin 8192 → M) (j : ℕ) (hj : j < 8) :
    firstSteps f (j + 1) = firstSteps f j + ∑ s : Fin 1024, f ⟨1024 * j + s.val, by have := s.isLt; omega⟩ := by
  unfold firstSteps
  rw [Nat.mul_succ, Finset.sum_range_add]
  refine congrArg _ ?_
  rw [Finset.sum_range]
  exact Finset.sum_congr rfl fun s _ => by
    have hs := s.isLt
    rw [dif_pos (by omega : 1024 * j + s.val < 8192)]

/-- After eight blocks: every time step. -/
theorem firstSteps_eight (f : Fin 8192 → M) : firstSteps f 8 = ∑ t : Fin 8192, f t := by
  unfold firstSteps
  rw [show 1024 * 8 = 8192 from rfl, Finset.sum_range]
  exact Finset.sum_congr rfl fun t _ => by rw [dif_pos t.isLt]

end

end Cert.Gated

end
-- ==== Proof.KI.Final0.lean ====
/-
  Region 0's result array. By induction along a row block's eight time blocks, after point t = 8·b + j the
  accumulator entry (r, h) is the sum of the first 1024·(j + 1) time steps' contributions for batch row
  32·b + r (the reset at j = 0 starts it from zero, every later point adds its block's 1024 steps to what the
  point before left). The output block of row block b is written back once, at j = 7, with the full sum;
  the eight row blocks tile the 256 rows, so the array ends holding the accumulated memory.
  Stated at any entry contents V; the gate bias and the candidate bias enter through their reshaped copies.
-/
import proofs.«104422_j25443386262310_1_alg».proof.Proof.KI.Pieces0
import proofs.«104422_j25443386262310_1_alg».proof.Proof.KI.Pay
import proofs.«104422_j25443386262310_1_alg».proof.Proof.KI.Blocks
import proofs.«104422_j25443386262310_1_alg».proof.Proof.Spec
import Idealize.ShloMosaic.Lib.Pipeline.Value

set_option maxRecDepth 16384

noncomputable section

namespace Cert.KernelIdeal.Val

open Idealize.ShloMosaic Idealize.ShloMosaic.TcCoe Idealize.ShloMosaic.ValueIdx
open Idealize.SL Idealize.SL.Sem
open Cert.KernelIdeal Cert.KernelIdeal.Gen
open scoped BigOperators

open Cert.KernelIdeal.Fr

variable (V : (c : Dev nD) → (b : Ref sig .tc) → Buf (Elt Ideal) ((c : Thread nD τ).loc b))

/-- One point's update at entry (r, h): the previous entry plus the specification's contributions of the point's
    1024 time steps for batch row 32·(t / 8) + r. -/
theorem step_apply (c : Dev nD) (bg : Vec Ideal S1 .f32) (bu : Vec Ideal S16 .f32)
    (hbg : arr7 V c (ix2 (0 : Fin 1) (0 : Fin 1)) = bg (ix1 (0 : Fin 1)))
    (hbu : ∀ h : Fin 16, arr8 V c (ix2 (0 : Fin 1) h) = bu (ix1 h))
    (t : Fin cfg0.N) (r : Fin 32) (h : Fin 16) (acc : Vec Ideal S32x16 .f32) :
    k0_pay2 (F := Ideal) (iblk0 V c 0 t : Vec Ideal S32x1024x16 .f32) (iblk0 V c 1 t : Vec Ideal S16x1 .f32)
        (iblk0 V c 3 t : Vec Ideal S16x16 .f32) (iblk0 V c 2 t : Vec Ideal S1x1 .f32) (iblk0 V c 4 t : Vec Ideal S1x16 .f32) acc (ix2 r h)
      = acc (ix2 r h) + ∑ s : Fin 1024, Cert.Gated.term (arr6 V c) (arr2 V c) bg (arr4 V c) bu
          (⟨32 * (t.val / 8) + r.val, by have := t.isLt; have : cfg0.N = 64 := N_0; omega⟩ : Fin 256)
          (⟨1024 * (t.val % 8) + s.val, by have := s.isLt; omega⟩ : Fin 8192) h := by
  rw [pay2_apply]
  refine congrArg _ (Finset.sum_congr rfl fun s _ => ?_)
  unfold Cert.Gated.term
  have e1 : (iblk0 V c 1 t : Vec Ideal S16x1 .f32) = arr2 V c := iblk0_1_eq V c t
  have e2 : (iblk0 V c 2 t : Vec Ideal S1x1 .f32) = arr7 V c := iblk0_2_eq V c t
  have e3 : (iblk0 V c 3 t : Vec Ideal S16x16 .f32) = arr4 V c := iblk0_3_eq V c t
  have e4 : (iblk0 V c 4 t : Vec Ideal S1x16 .f32) = arr8 V c := iblk0_4_eq V c t
  have g1 : ∀ k : Fin 16, iblk0 V c 1 t (ix2 k (0 : Fin 1)) = arr2 V c (ix2 k (0 : Fin 1)) := fun k => congrFun e1 _
  have g2 : iblk0 V c 2 t (ix2 (0 : Fin 1) (0 : Fin 1)) = bg (ix1 (0 : Fin 1)) := (congrFun e2 _).trans hbg
  have g3 : ∀ k : Fin 16, iblk0 V c 3 t (ix2 k h) = arr4 V c (ix2 k h) := fun k => congrFun e3 _
  have g4 : iblk0 V c 4 t (ix2 (0 : Fin 1) h) = bu (ix1 h) := (congrFun e4 _).trans (hbu h)
  have g0 : ∀ k : Fin 16, iblk0 V c 0 t (ix3 r s k)
      = arr6 V c (ix3 (⟨32 * (t.val / 8) + r.val, by have := t.isLt; have : cfg0.N = 64 := N_0; omega⟩ : Fin 256)
          (⟨1024 * (t.val % 8) + s.val, by have := s.isLt; omega⟩ : Fin 8192) k) := fun k => iblk0_0_apply V c t r s k
  rw [g2, g4]
  simp only [g0, g1, g3]

/-- The accumulator after position `n`, entry (r, h), by induction on the position: at a multiple of 8 the reset
    starts the running total from zero, elsewhere the point adds its block to what the point before left. -/
theorem scAt0_run (c : Dev nD) (bg : Vec Ideal S1 .f32) (bu : Vec Ideal S16 .f32)
    (hbg : arr7 V c (ix2 (0 : Fin 1) (0 : Fin 1)) = bg (ix1 (0 : Fin 1)))
    (hbu : ∀ h : Fin 16, arr8 V c (ix2 (0 : Fin 1) h) = bu (ix1 h)) :
    ∀ (n : ℕ) (hn : n < cfg0.N) (r : Fin 32) (h : Fin 16),
      scAt0 V c n hn (ix2 r h)
        = Cert.Gated.firstSteps (fun tt : Fin 8192 => Cert.Gated.term (arr6 V c) (arr2 V c) bg (arr4 V c) bu
            (⟨32 * (n / 8) + r.val, by have : cfg0.N = 64 := N_0; omega⟩ : Fin 256) tt h) (n % 8 + 1) := by
  intro n
  induction n using Nat.strong_induction_on with
  | _ n ih =>
    intro hn r h
    have hN : cfg0.N = 64 := N_0
    have hr := r.isLt
    rw [Cert.Gated.firstSteps_succ _ (n % 8) (by omega)]
    by_cases h0 : n % 8 = 0
    · have hc1 : ¬cond0_1 (grid0.coords ⟨n, hn⟩) := fun hc => by
        have := (hcond0_1 ⟨n, hn⟩).mp hc; dsimp only at this; omega
      refine (congrFun (scAt0_A V c ⟨n, hn⟩ h0 hc1) (ix2 r h)).trans ?_
      refine (congrFun (sout0_A_0_eq (F := Ideal) ..) (ix2 r h)).trans ?_
      refine (step_apply V c bg bu hbg hbu ⟨n, hn⟩ r h _).trans ?_
      refine congrArg₂ (· + ·) ?_ rfl
      rw [pay1_apply, h0, Cert.Gated.firstSteps_zero]
    · have e8 : (n - 1) / 8 = n / 8 := by omega
      have em : (n - 1) % 8 + 1 = n % 8 := by omega
      have hprev := ih (n - 1) (by omega) (by omega) r h
      have hacc : scAt0 V c (n - 1) (Nat.lt_of_le_of_lt (Nat.sub_le _ _) hn) (ix2 r h)
          = Cert.Gated.firstSteps (fun tt : Fin 8192 => Cert.Gated.term (arr6 V c) (arr2 V c) bg (arr4 V c) bu
            (⟨32 * (n / 8) + r.val, by omega⟩ : Fin 256) tt h) (n % 8) :=
        hprev.trans (congrArg₂ (fun (b : Fin 256) (j : ℕ) => Cert.Gated.firstSteps (fun tt : Fin 8192 =>
          Cert.Gated.term (arr6 V c) (arr2 V c) bg (arr4 V c) bu b tt h) j) (Fin.ext (by show 32 * ((n - 1) / 8) + r.val = 32 * (n / 8) + r.val; omega)) em)
      by_cases h1 : n % 8 = 7
      · refine (congrFun (scAt0_C V c ⟨n, hn⟩ h0 h1) (ix2 r h)).trans ?_
        refine (congrFun (sout0_C_0_eq (F := Ideal) ..) (ix2 r h)).trans ?_
        refine (step_apply V c bg bu hbg hbu ⟨n, hn⟩ r h _).trans ?_
        exact congrArg₂ (· + ·) hacc rfl
      · refine (congrFun (scAt0_B V c ⟨n, hn⟩ h0 h1) (ix2 r h)).trans ?_
        refine (congrFun (sout0_B_0_eq (F := Ideal) ..) (ix2 r h)).trans ?_
        refine (step_apply V c bg bu hbg hbu ⟨n, hn⟩ r h _).trans ?_
        exact congrArg₂ (· + ·) hacc rfl

/-- The accumulator after point `t`, entry (r, h): the first 1024·(t mod 8 + 1) time steps of row 32·(t / 8) + r. -/
theorem scAt0_apply (c : Dev nD) (bg : Vec Ideal S1 .f32) (bu : Vec Ideal S16 .f32)
    (hbg : arr7 V c (ix2 (0 : Fin 1) (0 : Fin 1)) = bg (ix1 (0 : Fin 1)))
    (hbu : ∀ h : Fin 16, arr8 V c (ix2 (0 : Fin 1) h) = bu (ix1 h))
    (t : Fin cfg0.N) (r : Fin 32) (h : Fin 16) :
    scAt0 V c t.val t.isLt (ix2 r h)
      = Cert.Gated.firstSteps (fun tt : Fin 8192 => Cert.Gated.term (arr6 V c) (arr2 V c) bg (arr4 V c) bu
          (⟨32 * (t.val / 8) + r.val, by have := t.isLt; have : cfg0.N = 64 := N_0; omega⟩ : Fin 256) tt h) (t.val % 8 + 1) := by
  exact scAt0_run V c bg bu hbg hbu t.val t.isLt r h

/-- At the last time block of a row block the output block's entry (r, h) is the whole sum over the 8192 time steps
    for batch row 32·(t / 8) + r: the first seven blocks' running total plus the eighth block. -/
theorem outAt0_apply (c : Dev nD) (bg : Vec Ideal S1 .f32) (bu : Vec Ideal S16 .f32)
    (hbg : arr7 V c (ix2 (0 : Fin 1) (0 : Fin 1)) = bg (ix1 (0 : Fin 1)))
    (hbu : ∀ h : Fin 16, arr8 V c (ix2 (0 : Fin 1) h) = bu (ix1 h))
    (t : Fin cfg0.N) (h7 : t.val % 8 = 7) (r : Fin 32) (h : Fin 16) :
    outAt0 V c t (ix2 r h)
      = Cert.Gated.mem (arr6 V c) (arr2 V c) bg (arr4 V c) bu
          (⟨32 * (t.val / 8) + r.val, by have := t.isLt; have : cfg0.N = 64 := N_0; omega⟩ : Fin 256) h := by
  have hN : cfg0.N = 64 := N_0
  have ht := t.isLt
  have hr := r.isLt
  have h0 : ¬t.val % 8 = 0 := by omega
  have hc0 : ¬cond0_0 (grid0.coords t) := fun hc => h0 ((hcond0_0 t).mp hc)
  refine (congrFun (outAt0_C V c t hc0 h7) (ix2 r h)).trans ?_
  refine (congrFun (out0_C_5_eq (F := Ideal) ..) (ix2 r h)).trans ?_
  refine (step_apply V c bg bu hbg hbu t r h _).trans ?_
  refine Eq.trans ?_ (Cert.Gated.firstSteps_eight (fun tt : Fin 8192 => Cert.Gated.term (arr6 V c) (arr2 V c) bg (arr4 V c) bu
    (⟨32 * (t.val / 8) + r.val, by omega⟩ : Fin 256) tt h))
  refine Eq.trans ?_ (Cert.Gated.firstSteps_succ _ 7 (by omega)).symm
  refine congrArg₂ (· + ·) ?_ ?_
  · refine (scAt0_run V c bg bu hbg hbu (t.val - 1) (Nat.lt_of_le_of_lt (Nat.sub_le _ _) t.isLt) r h).trans ?_
    exact congrArg₂ (fun (b : Fin 256) (j : ℕ) => Cert.Gated.firstSteps (fun tt : Fin 8192 =>
      Cert.Gated.term (arr6 V c) (arr2 V c) bg (arr4 V c) bu b tt h) j)
      (Fin.ext (by show 32 * ((t.val - 1) / 8) + r.val = 32 * (t.val / 8) + r.val; omega)) (by omega)
  · refine Finset.sum_congr rfl fun s _ => ?_
    exact congrArg (fun tt : Fin 8192 => Cert.Gated.term (arr6 V c) (arr2 V c) bg (arr4 V c) bu
      (⟨32 * (t.val / 8) + r.val, by omega⟩ : Fin 256) tt h)
      (Fin.ext (by show 1024 * (t.val % 8) + s.val = 1024 * 7 + s.val; omega))

/-- The specification's memory as an array over the 256 batch rows and 16 hidden units. -/
abbrev G0 (c : Dev nD) (bg : Vec Ideal S1 .f32) (bu : Vec Ideal S16 .f32) : Vec Ideal S256x16 .f32 :=
  fun i => Cert.Gated.mem (arr6 V c) (arr2 V c) bg (arr4 V c) bu (i 0) (i 1)

/-- The output window's block at point t = 8·b + j, decided over the 64 points: block index (b, 0), and the block lies
    whole inside the array, 32 rows by 16 columns. -/
theorem out_facts : ∀ t : Fin cfg0.N, win0_5.index t (0 : Fin 2) = t.val / 8 ∧ win0_5.index t (1 : Fin 2) = 0
    ∧ win0_5.xsize (grid0.coords t) (0 : Fin 2) = 32 ∧ win0_5.xsize (grid0.coords t) (1 : Fin 2) = 16 :=
  (by decide +kernel : ∀ t : Fin grid0.N, win0_5.index t (0 : Fin 2) = t.val / 8 ∧ win0_5.index t (1 : Fin 2) = 0
    ∧ win0_5.xsize (grid0.coords t) (0 : Fin 2) = 32 ∧ win0_5.xsize (grid0.coords t) (1 : Fin 2) = 16)

/-- What a flushing point writes back is its block of the specification's memory. -/
theorem flushed0_eq (c : Dev nD) (bg : Vec Ideal S1 .f32) (bu : Vec Ideal S16 .f32)
    (hbg : arr7 V c (ix2 (0 : Fin 1) (0 : Fin 1)) = bg (ix1 (0 : Fin 1)))
    (hbu : ∀ h : Fin 16, arr8 V c (ix2 (0 : Fin 1) h) = bu (ix1 h))
    (t : Fin cfg0.N) (hf : (cfg0.win 5).flush t = true) :
    (dat0 V c).flushed 5 t = ((cfg0.win 5).blk t).view.read (Elt Ideal) (G0 V c bg bu) := by
  have hN : cfg0.N = 64 := N_0
  have ht := t.isLt
  have h7 : t.val % 8 = 7 := (flush0_5 t).mp hf
  obtain ⟨i0, i1, x0, x1⟩ := out_facts t
  funext j
  have hj0 : (j 0).val < 32 := x0 ▸ (j 0).isLt
  have hj1 : (j 1).val < 16 := x1 ▸ (j 1).isLt
  show (cfg0.win 5).cut (grid0.coords t) ((dat0 V c).after 5 t) j = _
  rw [after0_5]
  show outAt0 V c t ((cfg0.win 5).xinj (grid0.coords t) j) = G0 V c bg bu (((cfg0.win 5).blk t).view.emb j)
  have e : (cfg0.win 5).xinj (grid0.coords t) j = ix2 (⟨(j 0).val, hj0⟩ : Fin 32) (⟨(j 1).val, hj1⟩ : Fin 16) := by
    funext a; match a with | ⟨0, _⟩ => rfl | ⟨1, _⟩ => rfl
  rw [e, outAt0_apply V c bg bu hbg hbu t h7]
  refine congrArg₂ (fun (b : Fin 256) (h : Fin 16) => Cert.Gated.mem (arr6 V c) (arr2 V c) bg (arr4 V c) bu b h)
    (Fin.ext ?_) (Fin.ext ?_)
  · show 32 * (t.val / 8) + (j 0).val = win0_5.index t (0 : Fin 2) * 32 + 1 * (j 0).val
    rw [i0]; omega
  · show (j 1).val = win0_5.index t (1 : Fin 2) * 16 + 1 * (j 1).val
    rw [i1]; omega

/-- Batch row b lies in the block written back at point 8·(b / 32) + 7, so the flushed blocks cover the array. -/
theorem cover0 (c : Dev nD) (i : ((cfg0.win 5).arr.view.loc (c.tc : Thread nD τ)).2.ty.Idx) :
    ∃ t : Fin cfg0.N, (cfg0.win 5).flush t = true ∧ i ∈ ((cfg0.win 5).blk t).view.set := by
  have hN : cfg0.N = 64 := N_0
  have hi0 : (i 0 : Nat) < 256 := (i 0).isLt
  have hi1 : (i 1 : Nat) < 16 := (i 1).isLt
  let t : Fin cfg0.N := ⟨8 * ((i 0 : Nat) / 32) + 7, by omega⟩
  have tv : t.val = 8 * ((i 0 : Nat) / 32) + 7 := rfl
  obtain ⟨i0, i1, x0, x1⟩ := out_facts t
  refine ⟨t, (flush0_5 t).mpr (by rw [tv]; omega), ?_⟩
  show i ∈ ((View.whole main_v9).slice (win0_5.rect t)).set
  rw [View.set_slice_whole, Rect.mem_set_unit]
  intro a
  match a with
  | ⟨0, _⟩ =>
    show win0_5.index t (0 : Fin 2) * 32 ≤ (i 0 : Nat) ∧ (i 0 : Nat) < win0_5.index t (0 : Fin 2) * 32 + win0_5.xsize (grid0.coords t) (0 : Fin 2)
    rw [i0, x0, tv]; omega
  | ⟨1, _⟩ =>
    show win0_5.index t (1 : Fin 2) * 16 ≤ (i 1 : Nat) ∧ (i 1 : Nat) < win0_5.index t (1 : Fin 2) * 16 + win0_5.xsize (grid0.coords t) (1 : Fin 2)
    rw [i1, x1]; omega

/-- Region 0's result array is the accumulated memory. -/
theorem final0 (c : Dev nD) (bg : Vec Ideal S1 .f32) (bu : Vec Ideal S16 .f32)
    (hbg : arr7 V c (ix2 (0 : Fin 1) (0 : Fin 1)) = bg (ix1 (0 : Fin 1)))
    (hbu : ∀ h : Fin 16, arr8 V c (ix2 (0 : Fin 1) h) = bu (ix1 h))
    (b : Fin 256) (h : Fin 16) :
    ((dat0 V c).arrAt 5 cfg0.N : Vec Ideal S256x16 .f32) (ix2 b h)
      = Cert.Gated.mem (arr6 V c) (arr2 V c) bg (arr4 V c) bu b h := by
  exact congrFun ((dat0 V c).arrAt_eq_of_cover 5 (G0 V c bg bu) (flushed0_eq V c bg bu hbg hbu) (cover0 c)) (ix2 b h)

end Cert.KernelIdeal.Val

end
-- ==== Proof.KI.Final1.lean ====
/-
  Region 1's result array. Point n writes back, once, columns 1024·n … 1024·n + 1023: at (b, 1024·n + q) the
  product of memory row b with the padded weight's column plus the padded bias there. The 50 column blocks
  tile the 51200 columns, so the array ends holding, at every (b, n),  Σ_k mem[b, k] · W[k, n] + bias[0, n].
  Stated at any entry contents V.
-/
import proofs.«104422_j25443386262310_1_alg».proof.Proof.KI.Pay
import proofs.«104422_j25443386262310_1_alg».proof.Proof.KI.Blocks
import Idealize.ShloMosaic.Lib.Pipeline.Value

set_option maxRecDepth 16384

noncomputable section

namespace Cert.KernelIdeal.Val

open Idealize.ShloMosaic Idealize.ShloMosaic.TcCoe Idealize.ShloMosaic.ValueIdx
open Idealize.SL Idealize.SL.Sem
open Cert.KernelIdeal Cert.KernelIdeal.Gen
open scoped BigOperators

open Cert.KernelIdeal.Fr

variable (V : (c : Dev nD) → (b : Ref sig .tc) → Buf (Elt Ideal) ((c : Thread nD τ).loc b))

/-- The offsets of an access to a whole rank-2 buffer are zero on both axes. -/
theorem final1_offsets_zero : (![0, 0] : Fin 2 → Nat) = fun _ => 0 := funext fun a => by fin_cases a <;> rfl

/-- The projection as one function of the three arrays: at (b, n) the product of memory row b with weight
    column n, plus the bias at n. -/
abbrev final1_fn (a9 : Vec Ideal S256x16 .f32) (a10 : Vec Ideal S16x51200 .f32) (a12 : Vec Ideal S1x51200 .f32) :
    Vec Ideal S256x51200 .f32 :=
  fun i => (∑ k : Fin 16, a9 (ix2 (i 0 : Fin 256) k) * a10 (ix2 k (i 1 : Fin 51200))) + a12 (ix2 (0 : Fin 1) (i 1 : Fin 51200))

/-- The output window's block index at point t is (0, t), decided over the 50 points. -/
theorem final1_index : ∀ t : Fin cfg1.N, win1_3.index t (0 : Fin 2) = 0 ∧ win1_3.index t (1 : Fin 2) = t.val :=
  (by decide +kernel : ∀ t : Fin grid1.N, win1_3.index t (0 : Fin 2) = 0 ∧ win1_3.index t (1 : Fin 2) = t.val)

/-- One entry of the block that point t computes. When the first input block is the memory, the second is
    columns 1024·t … of the weight and the third is columns 1024·t … of the bias, the payload at the block's
    index y is the projection at the array index i that has y's row and column 1024·t + y's column. -/
theorem final1_block_entry (a9 : Vec Ideal S256x16 .f32) (a10 : Vec Ideal S16x51200 .f32) (a12 : Vec Ideal S1x51200 .f32)
    (x0 : Vec Ideal S256x16 .f32) (x1 : Vec Ideal S16x1024 .f32) (x2 : Vec Ideal S1x1024 .f32) (t : ℕ) (ht : t < 50)
    (h0 : x0 = a9)
    (h1 : ∀ (k : Fin 16) (q : Fin 1024), x1 (ix2 k q) = a10 (ix2 k (⟨1024 * t + q.val, by omega⟩ : Fin 51200)))
    (h2 : ∀ q : Fin 1024, x2 (ix2 (0 : Fin 1) q) = a12 (ix2 (0 : Fin 1) (⟨1024 * t + q.val, by omega⟩ : Fin 51200)))
    (y : S256x1024.Idx) (i : S256x51200.Idx) (hi0 : (i 0).val = (y 0).val) (hi1 : (i 1).val = 1024 * t + (y 1).val) :
    k1_pay1 (F := Ideal) x0 x1 x2 y = final1_fn a9 a10 a12 i := by
  obtain ⟨b, q, rfl⟩ : ∃ (b : Fin 256) (q : Fin 1024), y = ix2 b q := ⟨y 0, y 1, eq_ix2 y⟩
  have e0 : (i 0 : Fin 256) = b := Fin.ext hi0
  have e1 : (i 1 : Fin 51200) = (⟨1024 * t + q.val, by omega⟩ : Fin 51200) := Fin.ext hi1
  show _ = (∑ k : Fin 16, a9 (ix2 (i 0 : Fin 256) k) * a10 (ix2 k (i 1 : Fin 51200))) + a12 (ix2 (0 : Fin 1) (i 1 : Fin 51200))
  rw [e0, e1, pay1k_apply, h0]
  simp only [h1, h2]

/-- What point t writes back is its block of the projection of the three arrays. -/
theorem final1_flushed_eq (c : Dev nD) (t : Fin cfg1.N) :
    (dat1 V c).flushed 3 t
      = ((cfg1.win 3).blk t).view.read (Elt Ideal) (final1_fn (arr9 V c) (arr10 V c) (arr12 V c)) := by
  show (cfg1.win 3).cut (grid1.coords t) ((dat1 V c).after 3 t) = _
  rw [after1_3]
  unfold out1_3
  rw [View.canon_unit_zero final1_offsets_zero]
  simp only [View.ld_unit_zero (S := S256x16) final1_offsets_zero, View.ld_unit_zero (S := S16x1024) final1_offsets_zero,
    View.ld_unit_zero (S := S1x1024) final1_offsets_zero]
  obtain ⟨e0, e1⟩ := final1_index t
  have hN : cfg1.N = 50 := N_1
  funext j
  refine final1_block_entry (arr9 V c) (arr10 V c) (arr12 V c) (iblk1 V c 0 t) (iblk1 V c 1 t) (iblk1 V c 2 t) t.val
    (by have := t.isLt; omega) (iblk1_0_eq V c t) (fun k q => iblk1_1_apply V c t k q) (fun q => iblk1_2_apply V c t q)
    ((cfg1.win 3).xinj (grid1.coords t) j) (((cfg1.win 3).blk t).view.emb j) ?_ ?_
  · show win1_3.index t (0 : Fin 2) * 256 + 1 * (j 0).val = (j 0).val
    omega
  · show win1_3.index t (1 : Fin 2) * 1024 + 1 * (j 1).val = 1024 * t.val + (j 1).val
    omega

/-- An index of the result array is in point t's block iff each coordinate is in the block's range on its axis. -/
theorem final1_mem_blk (t : Fin cfg1.N) (i : S256x51200.Idx) :
    i ∈ ((cfg1.win 3).blk t).view.set ↔ ∀ a : Fin 2, win1_3.index t a * S256x1024.size a ≤ (i a).val ∧ (i a).val < win1_3.index t a * S256x1024.size a + S256x1024.size a := by
  show i ∈ ((View.whole main_v13).slice (win1_3.rect t)).set ↔ _
  rw [View.set_slice_whole, Rect.mem_set_unit]
  exact Iff.rfl

/-- The 50 column blocks tile the array: column n lies in the block of point n / 1024. -/
theorem final1_covered (i : S256x51200.Idx) :
    ∃ t : Fin cfg1.N, (cfg1.win 3).flush t = true ∧ i ∈ ((cfg1.win 3).blk t).view.set := by
  have hi0 : (i 0).val < 256 := (i 0).isLt
  have hi1 : (i 1).val < 51200 := (i 1).isLt
  have hN : cfg1.N = 50 := N_1
  have ht : (i 1).val / 1024 < cfg1.N := by omega
  obtain ⟨e0, e1⟩ := final1_index ⟨(i 1).val / 1024, ht⟩
  refine ⟨⟨(i 1).val / 1024, ht⟩, flush1_3 _, ?_⟩
  rw [final1_mem_blk]
  intro a
  match a with
  | ⟨0, _⟩ =>
    show win1_3.index ⟨(i 1).val / 1024, ht⟩ (0 : Fin 2) * 256 ≤ (i 0).val ∧ (i 0).val < win1_3.index ⟨(i 1).val / 1024, ht⟩ (0 : Fin 2) * 256 + 256
    omega
  | ⟨1, _⟩ =>
    show win1_3.index ⟨(i 1).val / 1024, ht⟩ (1 : Fin 2) * 1024 ≤ (i 1).val ∧ (i 1).val < win1_3.index ⟨(i 1).val / 1024, ht⟩ (1 : Fin 2) * 1024 + 1024
    have e1' : win1_3.index ⟨(i 1).val / 1024, ht⟩ (1 : Fin 2) = (i 1).val / 1024 := e1
    omega

theorem final1 (c : Dev nD) (b : Fin 256) (n : Fin 51200) :
    ((dat1 V c).arrAt 3 cfg1.N : Vec Ideal S256x51200 .f32) (ix2 b n)
      = (∑ k : Fin 16, arr9 V c (ix2 b k) * arr10 V c (ix2 k n))
        + arr12 V c (ix2 (0 : Fin 1) n) :=
  congrFun ((dat1 V c).arrAt_eq_of_cover 3 (final1_fn (arr9 V c) (arr10 V c) (arr12 V c))
    (fun t _ => final1_flushed_eq V c t) final1_covered) (ix2 b n)

end Cert.KernelIdeal.Val

end
-- ==== Proof.KI.Host.lean ====
/-
  What the host lines leave in the buffers the two calls read, and what the last line makes of the second
  call's result. Before the first call: the gathered array is the row gather of the embedding table at the
  normalised indices; the gate bias and the candidate bias are reshaped copies of their arguments; the two
  weight matrices are the arguments themselves. Between the calls: nothing writes the first call's result;
  the output weight and the output bias are padded on the right with 943 columns, so a column below 50257
  is the argument's. After the second call: the result is the first 50257 columns of the padded product.
-/
import proofs.«104422_j25443386262310_1_alg».proof.Proof.KI.Run
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost

set_option maxRecDepth 16384

noncomputable section

namespace Cert.KernelIdeal.Val

open Idealize.ShloMosaic Idealize.ShloMosaic.TcCoe Idealize.ShloMosaic.ValueIdx
open Idealize.SL Idealize.SL.Sem
open Cert.KernelIdeal Cert.KernelIdeal.Gen
open scoped BigOperators

open Cert.KernelIdeal.Fr

variable (m : (ℓ : Loc nD τ sig) → Buf (Elt Ideal) ℓ)

/-- The gathered array both calls' host prefix builds from the index argument and the embedding table. -/
def gathered (x0 : Vec Ideal S256x8192 .i32) (x1 : Vec Ideal S50257x16 .f32) : Vec Ideal S256x8192x16 .f32 :=
  Host.gather gather_S50257x16_S256x8192x1_S256x8192x16_2_0_n_n_0_2_116 x1
    (broadcastInDim S256x8192x1 ![0, 1] bcast_S256x8192_S256x8192x1_0_1
      (select (cmpi .slt x0 (broadcastInDim S256x8192 ![] bcast_S_S256x8192 (constantI S_ 32 0#32)))
        (addi x0 (broadcastInDim S256x8192 ![] bcast_S_S256x8192 (constantI S_ 32 50257#32))) x0))

/-- No host line before the output weight's padding writes the output weight argument, and the first call does not
    own it, so the fold after the first call still holds the launch contents there. -/
private theorem W2_arg6 (c : Dev nD) : Fr.W2 m c (Proc.devRef .tc main_arg6) = m ((c : Thread nD τ).loc main_arg6) :=
  (Fr.W2_of_ne m c main_arg6 (by decide)).trans
    (StableHlo.after_of_writes_sub hostOps0 _ hostOps0_writes (by decide : main_arg6 ∉ hostOps0_W))

/-- The same for the output bias argument. -/
private theorem W2_arg7 (c : Dev nD) : Fr.W2 m c (Proc.devRef .tc main_arg7) = m ((c : Thread nD τ).loc main_arg7) :=
  (Fr.W2_of_ne m c main_arg7 (by decide)).trans
    (StableHlo.after_of_writes_sub hostOps0 _ hostOps0_writes (by decide : main_arg7 ∉ hostOps0_W))

theorem V1_v6 (c : Dev nD) :
    (Fr.V1 m c main_v6 : Vec Ideal S256x8192x16 .f32)
      = gathered (m ((c : Thread nD τ).loc main_arg0)) (m ((c : Thread nD τ).loc main_arg1)) := by
  dsimp only [Fr.V1, Fr.W1, Fr.W0, hostOps0]
  after_results
  rfl

theorem V1_arg2 (c : Dev nD) : Fr.V1 m c main_arg2 = m ((c : Thread nD τ).loc main_arg2) := by
  exact StableHlo.after_of_writes_sub hostOps0 _ hostOps0_writes (by decide : main_arg2 ∉ hostOps0_W)
theorem V1_arg4 (c : Dev nD) : Fr.V1 m c main_arg4 = m ((c : Thread nD τ).loc main_arg4) := by
  exact StableHlo.after_of_writes_sub hostOps0 _ hostOps0_writes (by decide : main_arg4 ∉ hostOps0_W)

theorem V1_v7_apply (c : Dev nD) :
    (Fr.V1 m c main_v7 : Vec Ideal S1x1 .f32) (ix2 (0 : Fin 1) (0 : Fin 1)) = (m ((c : Thread nD τ).loc main_arg3) : Vec Ideal S1 .f32) (ix1 (0 : Fin 1)) := by
  dsimp only [Fr.V1, Fr.W1, Fr.W0, hostOps0]
  after_results
  exact shapeCast_a_1a_apply (m ((c : Thread nD τ).loc main_arg3) : Vec Ideal S1 .f32) shapeCasts_S1_S1x1 (0 : Fin 1) (0 : Fin 1)
theorem V1_v8_apply (c : Dev nD) (h : Fin 16) :
    (Fr.V1 m c main_v8 : Vec Ideal S1x16 .f32) (ix2 (0 : Fin 1) h) = (m ((c : Thread nD τ).loc main_arg5) : Vec Ideal S16 .f32) (ix1 h) := by
  dsimp only [Fr.V1, Fr.W1, Fr.W0, hostOps0]
  after_results
  exact shapeCast_a_1a_apply (m ((c : Thread nD τ).loc main_arg5) : Vec Ideal S16 .f32) shapeCasts_S16_S1x16 (0 : Fin 1) h

/-- Nothing between the calls writes the first call's result. -/
theorem V6_v9 (c : Dev nD) : Fr.V6 m c main_v9 = (dat0 (Fr.V1 m) c).arrAt 5 cfg0.N := by
  calc Fr.V6 m c main_v9
    _ = Fr.W5 m c (Proc.devRef .tc main_v9) := StableHlo.after_of_writes_sub hostOps1_3 _ hostOps1_3_writes (by decide : main_v9 ∉ hostOps1_3_W)
    _ = Fr.W4 m c (Proc.devRef .tc main_v9) := StableHlo.after_of_writes_sub hostOps1_2 _ hostOps1_2_writes (by decide : main_v9 ∉ hostOps1_2_W)
    _ = Fr.W3 m c (Proc.devRef .tc main_v9) := StableHlo.after_of_writes_sub hostOps1_1 _ hostOps1_1_writes (by decide : main_v9 ∉ hostOps1_1_W)
    _ = Fr.W2 m c (Proc.devRef .tc main_v9) := StableHlo.after_of_writes_sub hostOps1 _ hostOps1_writes (by decide : main_v9 ∉ hostOps1_W)
    _ = (dat0 (Fr.V1 m) c).arrAt 5 cfg0.N := Fr.W2_arr m c 5

theorem V6_v10_apply (c : Dev nD) (k : Fin 16) (n : Fin 50257) :
    (Fr.V6 m c main_v10 : Vec Ideal S16x51200 .f32) (ix2 k (⟨n.val, by omega⟩ : Fin 51200))
      = (m ((c : Thread nD τ).loc main_arg6) : Vec Ideal S16x50257 .f32) (ix2 k n) := by
  have e : (Fr.V6 m c main_v10 : Vec Ideal S16x51200 .f32) = Fr.W4 m c (Proc.devRef .tc main_v10) :=
    (StableHlo.after_of_writes_sub hostOps1_3 _ hostOps1_3_writes (by decide : main_v10 ∉ hostOps1_3_W)).trans
      (StableHlo.after_of_writes_sub hostOps1_2 _ hostOps1_2_writes (by decide : main_v10 ∉ hostOps1_2_W))
  rw [e]
  dsimp only [Fr.W4, hostOps1_1]
  after_results
  -- The column lies below 50257, so the padded array read there is the operand at the same row and column.
  refine (pad_apply_of_inside ![0, 0] ![0, 943] ![0, 0]
    (Fr.W2 m c (Proc.devRef .tc main_arg6) : Vec Ideal S16x50257 .f32) _ pads_S16x50257_S16x51200_000_09430 h_S_
    (ix2 k (⟨n.val, by omega⟩ : Fin 51200)) (ix2 k n) (fun a => ?_)).trans ?_
  · match a with
    | ⟨0, _⟩ => show k.val = 0 + k.val * (0 + 1); omega
    | ⟨1, _⟩ => show n.val = 0 + n.val * (0 + 1); omega
  · exact congrFun (W2_arg6 m c) _
theorem V6_v12_apply (c : Dev nD) (n : Fin 50257) :
    (Fr.V6 m c main_v12 : Vec Ideal S1x51200 .f32) (ix2 (0 : Fin 1) (⟨n.val, by omega⟩ : Fin 51200))
      = (m ((c : Thread nD τ).loc main_arg7) : Vec Ideal S50257 .f32) (ix1 n) := by
  dsimp only [Fr.V6, Fr.W6, hostOps1_3]
  after_results
  -- The column lies below 50257, so the padded array read there is the reshaped bias at the same column, and the
  -- reshape of a vector to a one-row matrix reads the vector at that column.
  refine (pad_apply_of_inside ![0, 0] ![0, 943] ![0, 0]
    (shapeCast S1x50257 (Fr.W2 m c (Proc.devRef .tc main_arg7) : Vec Ideal S50257 .f32) shapeCasts_S50257_S1x50257) _
    pads_S1x50257_S1x51200_000_09430 h_S_
    (ix2 (0 : Fin 1) (⟨n.val, by omega⟩ : Fin 51200)) (ix2 (0 : Fin 1) n) (fun a => ?_)).trans ?_
  · match a with
    | ⟨0, _⟩ => rfl
    | ⟨1, _⟩ => show n.val = 0 + n.val * (0 + 1); omega
  · refine (shapeCast_a_1a_apply _ shapeCasts_S50257_S1x50257 (0 : Fin 1) n).trans ?_
    exact congrFun (W2_arg7 m c) _

/-- The result: the first 50257 columns of the second call's array. -/
theorem W8_v14_apply (c : Dev nD) (b : Fin 256) (n : Fin 50257) :
    (Fr.W8 m c (Proc.devRef .tc main_v14) : Vec Ideal S256x50257 .f32) (ix2 b n)
      = ((dat1 (Fr.V6 m) c).arrAt 3 cfg1.N : Vec Ideal S256x51200 .f32) (ix2 b (⟨n.val, by omega⟩ : Fin 51200)) := by
  dsimp only [Fr.W8, hostOps2]
  after_results
  -- The slice starts at column zero, so it reads the second call's array at the same row and column.
  refine (slice2_axis1_apply 0 (Fr.W7 m c (Proc.devRef .tc main_v13) : Vec Ideal S256x51200 .f32)
    slices_S256x51200_S256x50257_0_0 b n (⟨n.val, by omega⟩ : Fin 51200) (Nat.zero_add _).symm).trans ?_
  exact congrFun (Fr.W7_arr m c 3) _

end Cert.KernelIdeal.Val

end
-- ==== Proof.KI.Bridge.lean ====
/-
  The idealized kernel program's result is the specification's function of its arguments. The result buffer
  is the first 50257 columns of the second call's array; that array holds, at every column, memory · padded
  weight column + padded bias; below column 50257 the padded weight and bias are the arguments themselves;
  and the memory the second call reads is the first call's result, which is the accumulated memory of the
  gathered array, the two weight matrices and the two biases.
-/
import proofs.«104422_j25443386262310_1_alg».proof.Proof.KI.Final0
import proofs.«104422_j25443386262310_1_alg».proof.Proof.KI.Final1
import proofs.«104422_j25443386262310_1_alg».proof.Proof.KI.Host
import proofs.«104422_j25443386262310_1_alg».proof.Proof.Spec

set_option maxRecDepth 16384

noncomputable section

namespace Cert.KernelIdeal.Val

open Idealize.ShloMosaic Idealize.ShloMosaic.TcCoe Idealize.ShloMosaic.ValueIdx
open Idealize.SL Idealize.SL.Sem
open Cert.KernelIdeal Cert.KernelIdeal.Gen
open scoped BigOperators

open Cert.KernelIdeal.Fr

variable (m : (ℓ : Loc nD τ sig) → Buf (Elt Ideal) ℓ)

/-- The first call's result, as the second call finds it, is the accumulated memory. -/
theorem memory_eq (c : Dev nD) (b : Fin 256) (k : Fin 16) :
    arr9 (Fr.V6 m) c (ix2 b k)
      = Cert.Gated.mem (gathered (m ((c : Thread nD τ).loc main_arg0)) (m ((c : Thread nD τ).loc main_arg1))) (m ((c : Thread nD τ).loc main_arg2)) (m ((c : Thread nD τ).loc main_arg3))
          (m ((c : Thread nD τ).loc main_arg4)) (m ((c : Thread nD τ).loc main_arg5)) b k := by
  have h9 : arr9 (Fr.V6 m) c = ((dat0 (Fr.V1 m) c).arrAt 5 cfg0.N : Vec Ideal S256x16 .f32) := V6_v9 m c
  have h6 : arr6 (Fr.V1 m) c = gathered (m ((c : Thread nD τ).loc main_arg0)) (m ((c : Thread nD τ).loc main_arg1)) := V1_v6 m c
  have h2 : arr2 (Fr.V1 m) c = (m ((c : Thread nD τ).loc main_arg2)) := V1_arg2 m c
  have h4 : arr4 (Fr.V1 m) c = (m ((c : Thread nD τ).loc main_arg4)) := V1_arg4 m c
  rw [h9, final0 (Fr.V1 m) c (m ((c : Thread nD τ).loc main_arg3)) (m ((c : Thread nD τ).loc main_arg5)) (V1_v7_apply m c) (V1_v8_apply m c) b k, h6, h2, h4]

/-- The kernel program's result buffer, entry by entry. -/
theorem kernel_result (c : Dev nD) :
    (Fr.W8 m c (Proc.devRef .tc main_v14) : Vec Ideal S256x50257 .f32)
      = Cert.Gated.out (gathered (m ((c : Thread nD τ).loc main_arg0)) (m ((c : Thread nD τ).loc main_arg1))) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7)) := by
  funext i
  obtain ⟨b, n, rfl⟩ : ∃ (b : Fin 256) (n : Fin 50257), i = ix2 b n := ⟨i 0, i 1, eq_ix2 i⟩
  rw [W8_v14_apply m c b n, final1 (Fr.V6 m) c b _, Cert.Gated.out_apply]
  refine congrArg₂ (· + ·) (Finset.sum_congr rfl fun k _ => ?_) ?_
  · exact congrArg₂ (· * ·) (memory_eq m c b k) (V6_v10_apply m c k n)
  · exact V6_v12_apply m c n

end Cert.KernelIdeal.Val

end
-- ==== Proof.RefValue.lean ====
/-
  The reference's result, index by index: it is the specification's function of the gathered array and the
  seven float arguments. The gate is printed as 1 / (1 + exp(−z)), which on the extended reals is the
  logistic function by definition; the three contractions are plain sums over the 16 hidden units; the sum
  over time is the initial zero plus the sum over the 8192 steps.
-/
import proofs.«104422_j25443386262310_1_alg».proof.Proof.Gen.ReferenceIdeal.Read
import proofs.«104422_j25443386262310_1_alg».proof.Proof.Spec
import Idealize.ShloMosaic.PureOps.Ideal.Laws
import Idealize.ShloMosaic.Lib.ValueIdx
import Idealize.ShloMosaic.Lib.Pipeline.Value

set_option maxRecDepth 16384

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.Read
open scoped BigOperators

/-- The bit pattern 0x3F800000 is the real number one. -/
theorem one_f32 : Ideal.ofBits .f32 0x3F800000#32 = 1 := by
  simp [Ideal.ofBits, Ideal.ieee]
  rw [← EReal.coe_mul]
  norm_num

/-- The gate at batch row b and time step t, broadcast over the hidden units, is the logistic function of
    the gathered row's product with the gate weights plus the gate bias. -/
theorem gate_apply (x0 : (⟨S256x8192, .i32⟩ : BufTy).Contents (Elt Ideal)) (x1 : (⟨S50257x16, .f32⟩ : BufTy).Contents (Elt Ideal))
    (x2 : (⟨S16x1, .f32⟩ : BufTy).Contents (Elt Ideal)) (x3 : (⟨S1, .f32⟩ : BufTy).Contents (Elt Ideal))
    (b : Fin 256) (t : Fin 8192) (h : Fin 16) :
    val_main_v22 (F := Ideal) x0 x1 x2 x3 (ix3 b t h)
      = Ideal.logistic ((∑ k : Fin 16, val_main_v6 (F := Ideal) x0 x1 (ix3 b t k) * x2 (ix2 k (0 : Fin 1)))
          + x3 (ix1 (0 : Fin 1))) := by
  have e1 : ∀ k : Fin 16, lidx_main_v7 (idx_main_v22 (ix3 b t h)) k = ix3 b t k := fun k =>
    funext fun a => Fin.ext (by match a with | ⟨0, _⟩ => rfl | ⟨1, _⟩ => rfl | ⟨2, _⟩ => rfl)
  have e2 : ∀ k : Fin 16, ridx_main_v7 (idx_main_v22 (ix3 b t h)) k = ix2 k (0 : Fin 1) := fun k =>
    funext fun a => Fin.ext (by match a with | ⟨0, _⟩ => rfl | ⟨1, _⟩ => rfl)
  have e3 : idx_main_v8 (idx_main_v9 (idx_main_v22 (ix3 b t h))) = ix1 (0 : Fin 1) :=
    funext fun a => Fin.ext (by match a with | ⟨0, _⟩ => rfl)
  rw [val_main_v22_apply, val_main_v16_apply, val_main_v15_apply, val_main_cst_1_apply, val_main_v14_apply,
    val_main_v13_apply, val_main_cst_apply, val_main_v12_apply, val_main_v11_apply, val_main_v10_apply,
    val_main_v7_apply, val_main_v9_apply, val_main_v8_apply, e3]
  simp only [e1, e2, Ideal.hostDivf_def, Ideal.hostUnary_exp_def, Ideal.hostNegf_def, Ideal.negf_def, Ideal.addf_def,
    Ideal.ofBits_def, one_f32, Ideal.logistic]

/-- The candidate at batch row b, time step t and hidden unit h is the hyperbolic tangent of the gathered
    row's product with column h of the update weights plus the update bias at h. -/
theorem cand_apply (x0 : (⟨S256x8192, .i32⟩ : BufTy).Contents (Elt Ideal)) (x1 : (⟨S50257x16, .f32⟩ : BufTy).Contents (Elt Ideal))
    (x4 : (⟨S16x16, .f32⟩ : BufTy).Contents (Elt Ideal)) (x5 : (⟨S16, .f32⟩ : BufTy).Contents (Elt Ideal))
    (b : Fin 256) (t : Fin 8192) (h : Fin 16) :
    val_main_v21 (F := Ideal) x0 x1 x4 x5 (ix3 b t h)
      = Ideal.tanh ((∑ k : Fin 16, val_main_v6 (F := Ideal) x0 x1 (ix3 b t k) * x4 (ix2 k h)) + x5 (ix1 h)) := by
  have e1 : ∀ k : Fin 16, lidx_main_v17 (ix3 b t h) k = ix3 b t k := fun k =>
    funext fun a => Fin.ext (by match a with | ⟨0, _⟩ => rfl | ⟨1, _⟩ => rfl | ⟨2, _⟩ => rfl)
  have e2 : ∀ k : Fin 16, ridx_main_v17 (ix3 b t h) k = ix2 k h := fun k =>
    funext fun a => Fin.ext (by match a with | ⟨0, _⟩ => rfl | ⟨1, _⟩ => rfl)
  have e3 : idx_main_v18 (idx_main_v19 (ix3 b t h)) = ix1 h :=
    funext fun a => Fin.ext (by match a with | ⟨0, _⟩ => rfl)
  rw [val_main_v21_apply, val_main_v20_apply, val_main_v17_apply, val_main_v19_apply, val_main_v18_apply, e3]
  simp only [e1, e2, Ideal.hostUnary_tanh_def, Ideal.addf_def]

/-- The accumulated memory at batch row b and hidden unit h is the specification's memory: zero plus the
    sum over the 8192 time steps of the gate times the candidate. -/
theorem mem_apply (x0 : (⟨S256x8192, .i32⟩ : BufTy).Contents (Elt Ideal)) (x1 : (⟨S50257x16, .f32⟩ : BufTy).Contents (Elt Ideal))
    (x2 : (⟨S16x1, .f32⟩ : BufTy).Contents (Elt Ideal)) (x3 : (⟨S1, .f32⟩ : BufTy).Contents (Elt Ideal))
    (x4 : (⟨S16x16, .f32⟩ : BufTy).Contents (Elt Ideal)) (x5 : (⟨S16, .f32⟩ : BufTy).Contents (Elt Ideal))
    (b : Fin 256) (h : Fin 16) :
    val_main_v24 (F := Ideal) x0 x1 x2 x3 x4 x5 (ix2 b h)
      = Cert.Gated.mem (val_main_v6 (F := Ideal) x0 x1) x2 x3 x4 x5 b h := by
  have e1 : ∀ t : Fin 8192, idx_main_v24 (ix2 b h) t = ix3 b t h := fun t =>
    funext fun a => Fin.ext (by match a with | ⟨0, _⟩ => rfl | ⟨1, _⟩ => rfl | ⟨2, _⟩ => rfl)
  rw [val_main_v24_apply, val_main_cst_2_apply, Ideal.ofBits_def, Ideal.ofBits_zero_f32, zero_add]
  unfold Cert.Gated.mem Cert.Gated.term
  refine Finset.sum_congr rfl fun t _ => ?_
  rw [e1, val_main_v23_apply, gate_apply, cand_apply, Ideal.mulf_def]

theorem result_eq (x0 : (⟨S256x8192, .i32⟩ : BufTy).Contents (Elt Ideal)) (x1 : (⟨S50257x16, .f32⟩ : BufTy).Contents (Elt Ideal))
    (x2 : (⟨S16x1, .f32⟩ : BufTy).Contents (Elt Ideal)) (x3 : (⟨S1, .f32⟩ : BufTy).Contents (Elt Ideal))
    (x4 : (⟨S16x16, .f32⟩ : BufTy).Contents (Elt Ideal)) (x5 : (⟨S16, .f32⟩ : BufTy).Contents (Elt Ideal))
    (x6 : (⟨S16x50257, .f32⟩ : BufTy).Contents (Elt Ideal)) (x7 : (⟨S50257, .f32⟩ : BufTy).Contents (Elt Ideal)) :
    val_main_v28 (F := Ideal) x0 x1 x2 x3 x4 x5 x6 x7
      = Cert.Gated.out (val_main_v6 (F := Ideal) x0 x1) x2 x3 x4 x5 x6 x7 := by
  funext i
  obtain ⟨b, n, rfl⟩ : ∃ (b : Fin 256) (n : Fin 50257), i = ix2 b n := ⟨i 0, i 1, eq_ix2 i⟩
  have e1 : ∀ k : Fin 16, lidx_main_v25 (ix2 b n) k = ix2 b k := fun k =>
    funext fun a => Fin.ext (by match a with | ⟨0, _⟩ => rfl | ⟨1, _⟩ => rfl)
  have e2 : ∀ k : Fin 16, ridx_main_v25 (ix2 b n) k = ix2 k n := fun k =>
    funext fun a => Fin.ext (by match a with | ⟨0, _⟩ => rfl | ⟨1, _⟩ => rfl)
  have e3 : idx_main_v26 (idx_main_v27 (ix2 b n)) = ix1 n :=
    funext fun a => Fin.ext (by match a with | ⟨0, _⟩ => rfl)
  rw [Cert.Gated.out_apply, val_main_v28_apply, val_main_v25_apply, val_main_v27_apply, val_main_v26_apply, e3,
    Ideal.addf_def]
  refine congrArg (· + _) (Finset.sum_congr rfl fun k _ => ?_)
  rw [e1, e2, mem_apply]

end Cert.ReferenceIdeal.RefValue

end
-- ==== Proof.lean ====
/-
  The certificate. The two kernel programs (the word-level one and its idealization, which the ideal pass
  printed unchanged) run as eight items — host lines, the gated accumulation over time, host lines, the output
  projection, the final slice —, and each ends with every unscoped buffer at a fold of the launch memory
  through those items; no item writes an argument, so the arguments end as launched: the two kernel frames.
  The reference is a straight line of host operations: its frame is its run with the result dropped. The
  ideal pass rewrote nothing, so there is nothing to preserve. At the ideal instance both programs compute
  one function of the arguments (Spec.lean): the kernel's fold read at the result buffer is it (the
  accumulator adds the 8192 time steps in eight blocks of 1024, which is the same sum; the zero padding of
  the output weight and bias is cut off again by the final slice), and so is the reference's composed term
  (its gate 1 / (1 + exp(−z)) is the logistic function by definition). Both programs build the gathered
  embedding array by the same host lines from the same two arguments.
-/
import proofs.«104422_j25443386262310_1_alg».proof.Defs
import proofs.«104422_j25443386262310_1_alg».proof.Proof.Gen.Kernel
import proofs.«104422_j25443386262310_1_alg».proof.Proof.Gen.KernelIdeal
import proofs.«104422_j25443386262310_1_alg».proof.Proof.Gen.ReferenceIdeal
import proofs.«104422_j25443386262310_1_alg».proof.Proof.Gen.Pre_finite_inputs
import proofs.«104422_j25443386262310_1_alg».proof.Proof.Gen.ReferenceIdeal.Run
import proofs.«104422_j25443386262310_1_alg».proof.Proof.Gen.ReferenceIdeal.Read
import proofs.«104422_j25443386262310_1_alg».proof.Proof.K.Run
import proofs.«104422_j25443386262310_1_alg».proof.Proof.KI.Run
import proofs.«104422_j25443386262310_1_alg».proof.Proof.KI.Bridge
import proofs.«104422_j25443386262310_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Fr.frame m ρ

theorem frame_ki : Cert.frame_KernelIdeal (hKernelIdeal := Cert.KernelIdeal.Gen.facts) (hPre_finite_inputs := Cert.Pre_finite_inputs.Gen.facts) :=
  fun m ρ _ => Cert.KernelIdeal.Fr.frame m ρ

theorem frame_ri : Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2) (Cert.ReferenceIdeal.Value.run (F := Ideal) m ρ)

/-- Both programs gather the embedding rows by the same operations of the same two arguments. -/
theorem gathered_eq (x0 : Vec Ideal Cert.KernelIdeal.S256x8192 .i32) (x1 : Vec Ideal Cert.KernelIdeal.S50257x16 .f32) :
    Cert.ReferenceIdeal.Read.val_main_v6 (F := Ideal) x0 x1 = Cert.KernelIdeal.Val.gathered x0 x1 := rfl

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Gated.out (Cert.KernelIdeal.Val.gathered (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun _ h c => ⟨?_, ?_⟩) (Cert.KernelIdeal.Fr.run_all m ρ)
    · exact (h c _ (Cert.KernelIdeal.Fr.mem_uc Cert.KernelIdeal.main_v14 (by decide))).trans (Cert.KernelIdeal.Val.kernel_result m c)
    · exact ⟨(h c _ (Cert.KernelIdeal.Fr.mem_uc Cert.KernelIdeal.main_arg0 (by decide))).trans (Cert.KernelIdeal.Fr.W8_main_arg0 m c),
        (h c _ (Cert.KernelIdeal.Fr.mem_uc Cert.KernelIdeal.main_arg1 (by decide))).trans (Cert.KernelIdeal.Fr.W8_main_arg1 m c),
        (h c _ (Cert.KernelIdeal.Fr.mem_uc Cert.KernelIdeal.main_arg2 (by decide))).trans (Cert.KernelIdeal.Fr.W8_main_arg2 m c),
        (h c _ (Cert.KernelIdeal.Fr.mem_uc Cert.KernelIdeal.main_arg3 (by decide))).trans (Cert.KernelIdeal.Fr.W8_main_arg3 m c),
        (h c _ (Cert.KernelIdeal.Fr.mem_uc Cert.KernelIdeal.main_arg4 (by decide))).trans (Cert.KernelIdeal.Fr.W8_main_arg4 m c),
        (h c _ (Cert.KernelIdeal.Fr.mem_uc Cert.KernelIdeal.main_arg5 (by decide))).trans (Cert.KernelIdeal.Fr.W8_main_arg5 m c),
        (h c _ (Cert.KernelIdeal.Fr.mem_uc Cert.KernelIdeal.main_arg6 (by decide))).trans (Cert.KernelIdeal.Fr.W8_main_arg6 m c),
        (h c _ (Cert.KernelIdeal.Fr.mem_uc Cert.KernelIdeal.main_arg7 (by decide))).trans (Cert.KernelIdeal.Fr.W8_main_arg7 m c)⟩
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2]
    rw [Cert.ReferenceIdeal.Read.val_main_v28_eq, Cert.ReferenceIdeal.RefValue.result_eq, gathered_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
